-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)) →
    ∃ (v0 : (c : Dev Cert.KernelIdeal.nD) → Buf (Elt Ideal) ((c.tc : Thread Cert.KernelIdeal.nD Cert.KernelIdeal.τ).loc Cert.KernelIdeal.main_v59)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v59) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v128) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x3 : Shape := ⟨2, ![100000, 3]⟩
abbrev S2x3200000 : Shape := ⟨2, ![2, 3200000]⟩
abbrev S100000 : Shape := ⟨1, ![100000]⟩
abbrev S3x64 : Shape := ⟨2, ![3, 64]⟩
abbrev S64 : Shape := ⟨1, ![64]⟩
abbrev S64x64 : Shape := ⟨2, ![64, 64]⟩
abbrev S64x128 : Shape := ⟨2, ![64, 128]⟩
abbrev S128 : Shape := ⟨1, ![128]⟩
abbrev S_ : Shape := ⟨0, ![]⟩

class Facts : Prop where
  bcast_S_S100000x3 : S_.BroadcastsInDim S100000x3 (![] : Fin 0 → Fin S100000x3.rank)
  reducesTo_S100000x3_S_d0_1 : S100000x3.ReducesTo [0, 1] S_
  h_S_ : 0 < S_.numel
  bcast_S_S3x64 : S_.BroadcastsInDim S3x64 (![] : Fin 0 → Fin S3x64.rank)
  reducesTo_S3x64_S_d0_1 : S3x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_
  bcast_S_S64x128 : S_.BroadcastsInDim S64x128 (![] : Fin 0 → Fin S64x128.rank)
  reducesTo_S64x128_S_d0_1 : S64x128.ReducesTo [0, 1] S_
  bcast_S_S128 : S_.BroadcastsInDim S128 (![] : Fin 0 → Fin S128.rank)
  reducesTo_S128_S_d0 : S128.ReducesTo [0] S_

variable [Facts]

def fn_part4 {F : FTy → Type} [FloatOps F] (main_arg16 : FVec F S128 .f32) (main_v63 : IVec S_ 1) (main_v67 : IVec S_ 1) : IVec S_ 1 :=
  let main_v68 : IVec S_ 1 := andi main_v63 main_v67
  let main_v69 : FVec F S128 .f32 := Host.absf main_arg16
  let main_cst_26 : FVec F S_ .f32 := constant S_ .f32 0x7F800000#32
  let main_v70 : FVec F S128 .f32 := broadcastInDim S128 ![] bcast_S_S128 main_cst_26
  let main_v71 : IVec S128 1 := cmpf .olt main_v69 main_v70
  let main_c_27 : IVec S_ 1 := constantI S_ 1 1#1
  let main_v72 : IVec S_ 1 := (fun x v => Host.reduce IntOp.andi x v reducesTo_S128_S_d0 h_S_) main_v71 main_c_27
  let main_v73 : IVec S_ 1 := andi main_v68 main_v72
  main_v73

def fn_part3 {F : FTy → Type} [FloatOps F] (main_arg13 : FVec F S64 .f32) (main_arg14 : FVec F S64x64 .f32) (main_arg15 : FVec F S64x128 .f32) (main_arg16 : FVec F S128 .f32) (main_v48 : IVec S_ 1) (main_v49 : FVec F S64x64 .f32) (main_v50 : FVec F S64x64 .f32) : IVec S_ 1 :=
  let main_v51 : IVec S64x64 1 := cmpf .olt main_v49 main_v50
  let main_c_19 : IVec S_ 1 := constantI S_ 1 1#1
  let main_v52 : IVec S_ 1 := (fun x v => Host.reduce IntOp.andi x v reducesTo_S64x64_S_d0_1 h_S_) main_v51 main_c_19
  let main_v53 : IVec S_ 1 := andi main_v48 main_v52
  let main_v54 : FVec F S64 .f32 := Host.absf main_arg13
  let main_cst_20 : FVec F S_ .f32 := constant S_ .f32 0x7F800000#32
  let main_v55 : FVec F S64 .f32 := broadcastInDim S64 ![] bcast_S_S64 main_cst_20
  let main_v56 : IVec S64 1 := cmpf .olt main_v54 main_v55
  let main_c_21 : IVec S_ 1 := constantI S_ 1 1#1
  let main_v57 : IVec S_ 1 := (fun x v => Host.reduce IntOp.andi x v reducesTo_S64_S_d0 h_S_) main_v56 main_c_21
  let main_v58 : IVec S_ 1 := andi main_v53 main_v57
  let main_v59 : FVec F S64x64 .f32 := Host.absf main_arg14
  let main_cst_22 : FVec F S_ .f32 := constant S_ .f32 0x7F800000#32
  let main_v60 : FVec F S64x64 .f32 := broadcastInDim S64x64 ![] bcast_S_S64x64 main_cst_22
  let main_v61 : IVec S64x64 1 := cmpf .olt main_v59 main_v60
  let main_c_23 : IVec S_ 1 := constantI S_ 1 1#1
  let main_v62 : IVec S_ 1 := (fun x v => Host.reduce IntOp.andi x v reducesTo_S64x64_S_d0_1 h_S_) main_v61 main_c_23
  let main_v63 : IVec S_ 1 := andi main_v58 main_v62
  let main_v64 : FVec F S64x128 .f32 := Host.absf main_arg15
  let main_cst_24 : FVec F S_ .f32 := constant S_ .f32 0x7F800000#32
  let main_v65 : FVec F S64x128 .f32 := broadcastInDim S64x128 ![] bcast_S_S64x128 main_cst_24
  let main_v66 : IVec S64x128 1 := cmpf .olt main_v64 main_v65
  let main_c_25 : IVec S_ 1 := constantI S_ 1 1#1
  let main_v67 : IVec S_ 1 := (fun x v => Host.reduce IntOp.andi x v reducesTo_S64x128_S_d0_1 h_S_) main_v66 main_c_25
  fn_part4 (F := F) main_arg16 main_v63 main_v67

def fn_part2 {F : FTy → Type} [FloatOps F] (main_arg9 : FVec F S64x64 .f32) (main_arg10 : FVec F S64 .f32) (main_arg11 : FVec F S64x64 .f32) (main_arg12 : FVec F S64x64 .f32) (main_arg13 : FVec F S64 .f32) (main_arg14 : FVec F S64x64 .f32) (main_arg15 : FVec F S64x128 .f32) (main_arg16 : FVec F S128 .f32) (main_v33 : IVec S_ 1) : IVec S_ 1 :=
  let main_v34 : FVec F S64x64 .f32 := Host.absf main_arg9
  let main_cst_12 : FVec F S_ .f32 := constant S_ .f32 0x7F800000#32
  let main_v35 : FVec F S64x64 .f32 := broadcastInDim S64x64 ![] bcast_S_S64x64 main_cst_12
  let main_v36 : IVec S64x64 1 := cmpf .olt main_v34 main_v35
  let main_c_13 : IVec S_ 1 := constantI S_ 1 1#1
  let main_v37 : IVec S_ 1 := (fun x v => Host.reduce IntOp.andi x v reducesTo_S64x64_S_d0_1 h_S_) main_v36 main_c_13
  let main_v38 : IVec S_ 1 := andi main_v33 main_v37
  let main_v39 : FVec F S64 .f32 := Host.absf main_arg10
  let main_cst_14 : FVec F S_ .f32 := constant S_ .f32 0x7F800000#32
  let main_v40 : FVec F S64 .f32 := broadcastInDim S64 ![] bcast_S_S64 main_cst_14
  let main_v41 : IVec S64 1 := cmpf .olt main_v39 main_v40
  let main_c_15 : IVec S_ 1 := constantI S_ 1 1#1
  let main_v42 : IVec S_ 1 := (fun x v => Host.reduce IntOp.andi x v reducesTo_S64_S_d0 h_S_) main_v41 main_c_15
  let main_v43 : IVec S_ 1 := andi main_v38 main_v42
  let main_v44 : FVec F S64x64 .f32 := Host.absf main_arg11
  let main_cst_16 : FVec F S_ .f32 := constant S_ .f32 0x7F800000#32
  let main_v45 : FVec F S64x64 .f32 := broadcastInDim S64x64 ![] bcast_S_S64x64 main_cst_16
  let main_v46 : IVec S64x64 1 := cmpf .olt main_v44 main_v45
  let main_c_17 : IVec S_ 1 := constantI S_ 1 1#1
  let main_v47 : IVec S_ 1 := (fun x v => Host.reduce IntOp.andi x v reducesTo_S64x64_S_d0_1 h_S_) main_v46 main_c_17
  let main_v48 : IVec S_ 1 := andi main_v43 main_v47
  let main_v49 : FVec F S64x64 .f32 := Host.absf main_arg12
  let main_cst_18 : FVec F S_ .f32 := constant S_ .f32 0x7F800000#32
  let main_v50 : FVec F S64x64 .f32 := broadcastInDim S64x64 ![] bcast_S_S64x64 main_cst_18
  fn_part3 (F := F) main_arg13 main_arg14 main_arg15 main_arg16 main_v48 main_v49 main_v50

def fn_part1 {F : FTy → Type} [FloatOps F] (main_arg6 : FVec F S64x64 .f32) (main_arg7 : FVec F S64 .f32) (main_arg8 : FVec F S64x64 .f32) (main_arg9 : FVec F S64x64 .f32) (main_arg10 : FVec F S64 .f32) (main_arg11 : FVec F S64x64 .f32) (main_arg12 : FVec F S64x64 .f32) (main_arg13 : FVec F S64 .f32) (main_arg14 : FVec F S64x64 .f32) (main_arg15 : FVec F S64x128 .f32) (main_arg16 : FVec F S128 .f32) (main_v13 : IVec S_ 1) (main_v16 : IVec S3x64 1) : IVec S_ 1 :=
  let main_c_5 : IVec S_ 1 := constantI S_ 1 1#1
  let main_v17 : IVec S_ 1 := (fun x v => Host.reduce IntOp.andi x v reducesTo_S3x64_S_d0_1 h_S_) main_v16 main_c_5
  let main_v18 : IVec S_ 1 := andi main_v13 main_v17
  let main_v19 : FVec F S64x64 .f32 := Host.absf main_arg6
  let main_cst_6 : FVec F S_ .f32 := constant S_ .f32 0x7F800000#32
  let main_v20 : FVec F S64x64 .f32 := broadcastInDim S64x64 ![] bcast_S_S64x64 main_cst_6
  let main_v21 : IVec S64x64 1 := cmpf .olt main_v19 main_v20
  let main_c_7 : IVec S_ 1 := constantI S_ 1 1#1
  let main_v22 : IVec S_ 1 := (fun x v => Host.reduce IntOp.andi x v reducesTo_S64x64_S_d0_1 h_S_) main_v21 main_c_7
  let main_v23 : IVec S_ 1 := andi main_v18 main_v22
  let main_v24 : FVec F S64 .f32 := Host.absf main_arg7
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S64x64 .f32 := Host.absf main_arg8
  let main_cst_10 : FVec F S_ .f32 := constant S_ .f32 0x7F800000#32
  let main_v30 : FVec F S64x64 .f32 := broadcastInDim S64x64 ![] bcast_S_S64x64 main_cst_10
  let main_v31 : IVec S64x64 1 := cmpf .olt main_v29 main_v30
  let main_c_11 : IVec S_ 1 := constantI S_ 1 1#1
  let main_v32 : IVec S_ 1 := (fun x v => Host.reduce IntOp.andi x v reducesTo_S64x64_S_d0_1 h_S_) main_v31 main_c_11
  let main_v33 : IVec S_ 1 := andi main_v28 main_v32
  fn_part2 (F := F) main_arg9 main_arg10 main_arg11 main_arg12 main_arg13 main_arg14 main_arg15 main_arg16 main_v33

def fn {F : FTy → Type} [FloatOps F] (main_arg0 : FVec F S100000x3 .f32) (main_arg1 : IVec S2x3200000 32) (main_arg2 : IVec S100000 32) (main_arg3 : FVec F S3x64 .f32) (main_arg4 : FVec F S64 .f32) (main_arg5 : FVec F S3x64 .f32) (main_arg6 : FVec F S64x64 .f32) (main_arg7 : FVec F S64 .f32) (main_arg8 : FVec F S64x64 .f32) (main_arg9 : FVec F S64x64 .f32) (main_arg10 : FVec F S64 .f32) (main_arg11 : FVec F S64x64 .f32) (main_arg12 : FVec F S64x64 .f32) (main_arg13 : FVec F S64 .f32) (main_arg14 : FVec F S64x64 .f32) (main_arg15 : FVec F S64x128 .f32) (main_arg16 : FVec F S128 .f32) : IVec S_ 1 :=
  let main_v0 : FVec F S100000x3 .f32 := Host.absf main_arg0
  let main_cst : FVec F S_ .f32 := constant S_ .f32 0x7F800000#32
  let main_v1 : FVec F S100000x3 .f32 := broadcastInDim S100000x3 ![] bcast_S_S100000x3 main_cst
  let main_v2 : IVec S100000x3 1 := cmpf .olt main_v0 main_v1
  let main_c : IVec S_ 1 := constantI S_ 1 1#1
  let main_v3 : IVec S_ 1 := (fun x v => Host.reduce IntOp.andi x v reducesTo_S100000x3_S_d0_1 h_S_) main_v2 main_c
  let main_v4 : FVec F S3x64 .f32 := Host.absf main_arg3
  let main_cst_0 : FVec F S_ .f32 := constant S_ .f32 0x7F800000#32
  let main_v5 : FVec F S3x64 .f32 := broadcastInDim S3x64 ![] bcast_S_S3x64 main_cst_0
  let main_v6 : IVec S3x64 1 := cmpf .olt main_v4 main_v5
  let main_c_1 : IVec S_ 1 := constantI S_ 1 1#1
  let main_v7 : IVec S_ 1 := (fun x v => Host.reduce IntOp.andi x v reducesTo_S3x64_S_d0_1 h_S_) main_v6 main_c_1
  let main_v8 : IVec S_ 1 := andi main_v3 main_v7
  let main_v9 : FVec F S64 .f32 := Host.absf main_arg4
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S3x64 .f32 := Host.absf main_arg5
  let main_cst_4 : FVec F S_ .f32 := constant S_ .f32 0x7F800000#32
  let main_v15 : FVec F S3x64 .f32 := broadcastInDim S3x64 ![] bcast_S_S3x64 main_cst_4
  let main_v16 : IVec S3x64 1 := cmpf .olt main_v14 main_v15
  fn_part1 (F := F) main_arg6 main_arg7 main_arg8 main_arg9 main_arg10 main_arg11 main_arg12 main_arg13 main_arg14 main_arg15 main_arg16 main_v13 main_v16
-- ==== Kernel.lean ====
abbrev S100000x3 : Shape := ⟨2, ![100000, 3]⟩
abbrev S2x3200000 : Shape := ⟨2, ![2, 3200000]⟩
abbrev S100000 : Shape := ⟨1, ![100000]⟩
abbrev S3x64 : Shape := ⟨2, ![3, 64]⟩
abbrev S64 : Shape := ⟨1, ![64]⟩
abbrev S64x64 : Shape := ⟨2, ![64, 64]⟩
abbrev S64x128 : Shape := ⟨2, ![64, 128]⟩
abbrev S128 : Shape := ⟨1, ![128]⟩
abbrev S1x3200000 : Shape := ⟨2, ![1, 3200000]⟩
abbrev S3200000 : Shape := ⟨1, ![3200000]⟩
abbrev S100000x1 : Shape := ⟨2, ![100000, 1]⟩
abbrev S_ : Shape := ⟨0, ![]⟩
abbrev S3200000x1 : Shape := ⟨2, ![3200000, 1]⟩
abbrev S3200000x3 : Shape := ⟨2, ![3200000, 3]⟩
abbrev S1x64 : Shape := ⟨2, ![1, 64]⟩
abbrev S100000x64 : Shape := ⟨2, ![100000, 64]⟩
abbrev S4000x3 : Shape := ⟨2, ![4000, 3]⟩
abbrev S4000x1 : Shape := ⟨2, ![4000, 1]⟩
abbrev S4000x64 : Shape := ⟨2, ![4000, 64]⟩
abbrev S3200000x64 : Shape := ⟨2, ![3200000, 64]⟩
abbrev S1x128 : Shape := ⟨2, ![1, 128]⟩
abbrev S128x128 : Shape := ⟨2, ![128, 128]⟩
abbrev S128x64 : Shape := ⟨2, ![128, 64]⟩
abbrev S4000x128 : Shape := ⟨2, ![4000, 128]⟩
abbrev S128x1 : Shape := ⟨2, ![128, 1]⟩

abbrev nBuf : Space → Nat
  | .hbm => 91
  | .vmem => 53
  | .smem => 0
  | _ => 0

abbrev bufTy : (tb : Table) → Fin (tcTables nBuf tb) → BufTy
  | .hbm, ⟨0, _⟩ => ⟨S100000x3, .f32⟩
  | .hbm, ⟨1, _⟩ => ⟨S2x3200000, .i32⟩
  | .hbm, ⟨2, _⟩ => ⟨S100000, .i32⟩
  | .hbm, ⟨3, _⟩ => ⟨S3x64, .f32⟩
  | .hbm, ⟨4, _⟩ => ⟨S64, .f32⟩
  | .hbm, ⟨5, _⟩ => ⟨S3x64, .f32⟩
  | .hbm, ⟨6, _⟩ => ⟨S64x64, .f32⟩
  | .hbm, ⟨7, _⟩ => ⟨S64, .f32⟩
  | .hbm, ⟨8, _⟩ => ⟨S64x64, .f32⟩
  | .hbm, ⟨9, _⟩ => ⟨S64x64, .f32⟩
  | .hbm, ⟨10, _⟩ => ⟨S64, .f32⟩
  | .hbm, ⟨11, _⟩ => ⟨S64x64, .f32⟩
  | .hbm, ⟨12, _⟩ => ⟨S64x64, .f32⟩
  | .hbm, ⟨13, _⟩ => ⟨S64, .f32⟩
  | .hbm, ⟨14, _⟩ => ⟨S64x64, .f32⟩
  | .hbm, ⟨15, _⟩ => ⟨S64x128, .f32⟩
  | .hbm, ⟨16, _⟩ => ⟨S128, .f32⟩
  | .hbm, ⟨17, _⟩ => ⟨S1x3200000, .i32⟩
  | .hbm, ⟨18, _⟩ => ⟨S3200000, .i32⟩
  | .hbm, ⟨19, _⟩ => ⟨S1x3200000, .i32⟩
  | .hbm, ⟨20, _⟩ => ⟨S3200000, .i32⟩
  | .hbm, ⟨21, _⟩ => ⟨S100000x1, .i32⟩
  | .hbm, ⟨22, _⟩ => ⟨S_, .f32⟩
  | .hbm, ⟨23, _⟩ => ⟨S3200000, .f32⟩
  | .hbm, ⟨24, _⟩ => ⟨S_, .f32⟩
  | .hbm, ⟨25, _⟩ => ⟨S100000, .f32⟩
  | .hbm, ⟨26, _⟩ => ⟨S3200000x1, .i32⟩
  | .hbm, ⟨27, _⟩ => ⟨S100000, .f32⟩
  | .hbm, ⟨28, _⟩ => ⟨S100000x1, .f32⟩
  | .hbm, ⟨29, _⟩ => ⟨S_, .i32⟩
  | .hbm, ⟨30, _⟩ => ⟨S3200000, .i32⟩
  | .hbm, ⟨31, _⟩ => ⟨S3200000, .i1⟩
  | .hbm, ⟨32, _⟩ => ⟨S_, .i32⟩
  | .hbm, ⟨33, _⟩ => ⟨S3200000, .i32⟩
  | .hbm, ⟨34, _⟩ => ⟨S3200000, .i32⟩
  | .hbm, ⟨35, _⟩ => ⟨S3200000, .i32⟩
  | .hbm, ⟨36, _⟩ => ⟨S3200000x1, .i32⟩
  | .hbm, ⟨37, _⟩ => ⟨S3200000x3, .f32⟩
  | .hbm, ⟨38, _⟩ => ⟨S_, .f32⟩
  | .hbm, ⟨39, _⟩ => ⟨S100000x3, .f32⟩
  | .hbm, ⟨40, _⟩ => ⟨S3200000x1, .i32⟩
  | .hbm, ⟨41, _⟩ => ⟨S100000x3, .f32⟩
  | .hbm, ⟨42, _⟩ => ⟨S1x64, .f32⟩
  | .hbm, ⟨43, _⟩ => ⟨S100000x64, .f32⟩
  | .hbm, ⟨44, _⟩ => ⟨S_, .i32⟩
  | .hbm, ⟨45, _⟩ => ⟨S3200000, .i32⟩
  | .hbm, ⟨46, _⟩ => ⟨S3200000, .i1⟩
  | .hbm, ⟨47, _⟩ => ⟨S_, .i32⟩
  | .hbm, ⟨48, _⟩ => ⟨S3200000, .i32⟩
  | .hbm, ⟨49, _⟩ => ⟨S3200000, .i32⟩
  | .hbm, ⟨50, _⟩ => ⟨S3200000, .i32⟩
  | .hbm, ⟨51, _⟩ => ⟨S3200000x1, .i32⟩
  | .hbm, ⟨52, _⟩ => ⟨S3200000x64, .f32⟩
  | .hbm, ⟨53, _⟩ => ⟨S_, .f32⟩
  | .hbm, ⟨54, _⟩ => ⟨S100000x64, .f32⟩
  | .hbm, ⟨55, _⟩ => ⟨S3200000x1, .i32⟩
  | .hbm, ⟨56, _⟩ => ⟨S100000x64, .f32⟩
  | .hbm, ⟨57, _⟩ => ⟨S1x64, .f32⟩
  | .hbm, ⟨58, _⟩ => ⟨S100000x64, .f32⟩
  | .hbm, ⟨59, _⟩ => ⟨S_, .i32⟩
  | .hbm, ⟨60, _⟩ => ⟨S3200000, .i32⟩
  | .hbm, ⟨61, _⟩ => ⟨S3200000, .i1⟩
  | .hbm, ⟨62, _⟩ => ⟨S_, .i32⟩
  | .hbm, ⟨63, _⟩ => ⟨S3200000, .i32⟩
  | .hbm, ⟨64, _⟩ => ⟨S3200000, .i32⟩
  | .hbm, ⟨65, _⟩ => ⟨S3200000, .i32⟩
  | .hbm, ⟨66, _⟩ => ⟨S3200000x1, .i32⟩
  | .hbm, ⟨67, _⟩ => ⟨S3200000x64, .f32⟩
  | .hbm, ⟨68, _⟩ => ⟨S_, .f32⟩
  | .hbm, ⟨69, _⟩ => ⟨S100000x64, .f32⟩
  | .hbm, ⟨70, _⟩ => ⟨S3200000x1, .i32⟩
  | .hbm, ⟨71, _⟩ => ⟨S100000x64, .f32⟩
  | .hbm, ⟨72, _⟩ => ⟨S1x64, .f32⟩
  | .hbm, ⟨73, _⟩ => ⟨S100000x64, .f32⟩
  | .hbm, ⟨74, _⟩ => ⟨S_, .i32⟩
  | .hbm, ⟨75, _⟩ => ⟨S3200000, .i32⟩
  | .hbm, ⟨76, _⟩ => ⟨S3200000, .i1⟩
  | .hbm, ⟨77, _⟩ => ⟨S_, .i32⟩
  | .hbm, ⟨78, _⟩ => ⟨S3200000, .i32⟩
  | .hbm, ⟨79, _⟩ => ⟨S3200000, .i32⟩
  | .hbm, ⟨80, _⟩ => ⟨S3200000, .i32⟩
  | .hbm, ⟨81, _⟩ => ⟨S3200000x1, .i32⟩
  | .hbm, ⟨82, _⟩ => ⟨S3200000x64, .f32⟩
  | .hbm, ⟨83, _⟩ => ⟨S_, .f32⟩
  | .hbm, ⟨84, _⟩ => ⟨S100000x64, .f32⟩
  | .hbm, ⟨85, _⟩ => ⟨S3200000x1, .i32⟩
  | .hbm, ⟨86, _⟩ => ⟨S100000x64, .f32⟩
  | .hbm, ⟨87, _⟩ => ⟨S1x64, .f32⟩
  | .hbm, ⟨88, _⟩ => ⟨S100000x64, .f32⟩
  | .hbm, ⟨89, _⟩ => ⟨S1x128, .f32⟩
  | .hbm, ⟨90, _⟩ => ⟨S128x128, .f32⟩
  | .local _ .vmem, ⟨0, _⟩ => ⟨S4000x3, .f32⟩
  | .local _ .vmem, ⟨1, _⟩ => ⟨S4000x3, .f32⟩
  | .local _ .vmem, ⟨2, _⟩ => ⟨S4000x1, .f32⟩
  | .local _ .vmem, ⟨3, _⟩ => ⟨S4000x1, .f32⟩
  | .local _ .vmem, ⟨4, _⟩ => ⟨S4000x3, .f32⟩
  | .local _ .vmem, ⟨5, _⟩ => ⟨S4000x3, .f32⟩
  | .local _ .vmem, ⟨6, _⟩ => ⟨S3x64, .f32⟩
  | .local _ .vmem, ⟨7, _⟩ => ⟨S1x64, .f32⟩
  | .local _ .vmem, ⟨8, _⟩ => ⟨S3x64, .f32⟩
  | .local _ .vmem, ⟨9, _⟩ => ⟨S4000x64, .f32⟩
  | .local _ .vmem, ⟨10, _⟩ => ⟨S4000x64, .f32⟩
  | .local _ .vmem, ⟨11, _⟩ => ⟨S4000x64, .f32⟩
  | .local _ .vmem, ⟨12, _⟩ => ⟨S4000x64, .f32⟩
  | .local _ .vmem, ⟨13, _⟩ => ⟨S4000x1, .f32⟩
  | .local _ .vmem, ⟨14, _⟩ => ⟨S4000x1, .f32⟩
  | .local _ .vmem, ⟨15, _⟩ => ⟨S4000x64, .f32⟩
  | .local _ .vmem, ⟨16, _⟩ => ⟨S4000x64, .f32⟩
  | .local _ .vmem, ⟨17, _⟩ => ⟨S64x64, .f32⟩
  | .local _ .vmem, ⟨18, _⟩ => ⟨S1x64, .f32⟩
  | .local _ .vmem, ⟨19, _⟩ => ⟨S64x64, .f32⟩
  | .local _ .vmem, ⟨20, _⟩ => ⟨S4000x64, .f32⟩
  | .local _ .vmem, ⟨21, _⟩ => ⟨S4000x64, .f32⟩
  | .local _ .vmem, ⟨22, _⟩ => ⟨S4000x64, .f32⟩
  | .local _ .vmem, ⟨23, _⟩ => ⟨S4000x64, .f32⟩
  | .local _ .vmem, ⟨24, _⟩ => ⟨S4000x1, .f32⟩
  | .local _ .vmem, ⟨25, _⟩ => ⟨S4000x1, .f32⟩
  | .local _ .vmem, ⟨26, _⟩ => ⟨S4000x64, .f32⟩
  | .local _ .vmem, ⟨27, _⟩ => ⟨S4000x64, .f32⟩
  | .local _ .vmem, ⟨28, _⟩ => ⟨S64x64, .f32⟩
  | .local _ .vmem, ⟨29, _⟩ => ⟨S1x64, .f32⟩
  | .local _ .vmem, ⟨30, _⟩ => ⟨S64x64, .f32⟩
  | .local _ .vmem, ⟨31, _⟩ => ⟨S4000x64, .f32⟩
  | .local _ .vmem, ⟨32, _⟩ => ⟨S4000x64, .f32⟩
  | .local _ .vmem, ⟨33, _⟩ => ⟨S4000x64, .f32⟩
  | .local _ .vmem, ⟨34, _⟩ => ⟨S4000x64, .f32⟩
  | .local _ .vmem, ⟨35, _⟩ => ⟨S4000x1, .f32⟩
  | .local _ .vmem, ⟨36, _⟩ => ⟨S4000x1, .f32⟩
  | .local _ .vmem, ⟨37, _⟩ => ⟨S4000x64, .f32⟩
  | .local _ .vmem, ⟨38, _⟩ => ⟨S4000x64, .f32⟩
  | .local _ .vmem, ⟨39, _⟩ => ⟨S64x64, .f32⟩
  | .local _ .vmem, ⟨40, _⟩ => ⟨S1x64, .f32⟩
  | .local _ .vmem, ⟨41, _⟩ => ⟨S64x64, .f32⟩
  | .local _ .vmem, ⟨42, _⟩ => ⟨S4000x64, .f32⟩
  | .local _ .vmem, ⟨43, _⟩ => ⟨S4000x64, .f32⟩
  | .local _ .vmem, ⟨44, _⟩ => ⟨S4000x64, .f32⟩
  | .local _ .vmem, ⟨45, _⟩ => ⟨S4000x64, .f32⟩
  | .local _ .vmem, ⟨46, _⟩ => ⟨S4000x1, .i32⟩
  | .local _ .vmem, ⟨47, _⟩ => ⟨S4000x1, .i32⟩
  | .local _ .vmem, ⟨48, _⟩ => ⟨S64x128, .f32⟩
  | .local _ .vmem, ⟨49, _⟩ => ⟨S1x128, .f32⟩
  | .local _ .vmem, ⟨50, _⟩ => ⟨S128x128, .f32⟩
  | .local _ .vmem, ⟨51, _⟩ => ⟨S128x64, .f32⟩
  | .local _ .vmem, ⟨52, _⟩ => ⟨S1x128, .f32⟩
  | _, _ => ⟨S100000x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | _, _ => false

abbrev semScoped : Fin 0 → Bool
  | ⟨_, h⟩ => absurd h (Nat.not_lt_zero _)

abbrev dmaSemScoped : Fin 51 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | _ => false

abbrev sig : RefSig :=
  ofTc nBuf bufTy 0 51 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_cst : Ref sig .tc := ⟨.hbm, 22, rfl⟩
abbrev main_v5 : Ref sig .tc := ⟨.hbm, 23, rfl⟩
abbrev main_cst_0 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_c : Ref sig .tc := ⟨.hbm, 29, rfl⟩
abbrev main_v10 : Ref sig .tc := ⟨.hbm, 30, rfl⟩
abbrev main_v11 : Ref sig .tc := ⟨.hbm, 31, rfl⟩
abbrev main_c_1 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_cst_2 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_c_3 : Ref sig .tc := ⟨.hbm, 44, rfl⟩
abbrev main_v22 : Ref sig .tc := ⟨.hbm, 45, rfl⟩
abbrev main_v23 : Ref sig .tc := ⟨.hbm, 46, rfl⟩
abbrev main_c_4 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_cst_5 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_c_6 : Ref sig .tc := ⟨.hbm, 59, rfl⟩
abbrev main_v34 : Ref sig .tc := ⟨.hbm, 60, rfl⟩
abbrev main_v35 : Ref sig .tc := ⟨.hbm, 61, rfl⟩
abbrev main_c_7 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_cst_8 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_c_9 : Ref sig .tc := ⟨.hbm, 74, rfl⟩
abbrev main_v46 : Ref sig .tc := ⟨.hbm, 75, rfl⟩
abbrev main_v47 : Ref sig .tc := ⟨.hbm, 76, rfl⟩
abbrev main_c_10 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_cst_11 : Ref sig .tc := ⟨.hbm, 83, rfl⟩
abbrev main_v53 : Ref sig .tc := ⟨.hbm, 84, rfl⟩
abbrev main_v54 : Ref sig .tc := ⟨.hbm, 85, rfl⟩
abbrev main_v55 : Ref sig .tc := ⟨.hbm, 86, rfl⟩
abbrev main_v56 : Ref sig .tc := ⟨.hbm, 87, rfl⟩
abbrev main_v57 : Ref sig .tc := ⟨.hbm, 88, rfl⟩
abbrev main_v58 : Ref sig .tc := ⟨.hbm, 89, rfl⟩
abbrev main_v59 : Ref sig .tc := ⟨.hbm, 90, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg2_1 : Ref sig .tc := ⟨.vmem, 16, rfl⟩
abbrev cc1_stg3_0 : Ref sig .tc := ⟨.vmem, 17, rfl⟩
abbrev cc1_stg4_0 : Ref sig .tc := ⟨.vmem, 18, rfl⟩
abbrev cc1_stg5_0 : Ref sig .tc := ⟨.vmem, 19, rfl⟩
abbrev cc1_stg6_0 : Ref sig .tc := ⟨.vmem, 20, rfl⟩
abbrev cc1_stg6_1 : Ref sig .tc := ⟨.vmem, 21, rfl⟩
abbrev cc2_stg0_0 : Ref sig .tc := ⟨.vmem, 22, rfl⟩
abbrev cc2_stg0_1 : Ref sig .tc := ⟨.vmem, 23, rfl⟩
abbrev cc2_stg1_0 : Ref sig .tc := ⟨.vmem, 24, rfl⟩
abbrev cc2_stg1_1 : Ref sig .tc := ⟨.vmem, 25, rfl⟩
abbrev cc2_stg2_0 : Ref sig .tc := ⟨.vmem, 26, rfl⟩
abbrev cc2_stg2_1 : Ref sig .tc := ⟨.vmem, 27, rfl⟩
abbrev cc2_stg3_0 : Ref sig .tc := ⟨.vmem, 28, rfl⟩
abbrev cc2_stg4_0 : Ref sig .tc := ⟨.vmem, 29, rfl⟩
abbrev cc2_stg5_0 : Ref sig .tc := ⟨.vmem, 30, rfl⟩
abbrev cc2_stg6_0 : Ref sig .tc := ⟨.vmem, 31, rfl⟩
abbrev cc2_stg6_1 : Ref sig .tc := ⟨.vmem, 32, rfl⟩
abbrev cc3_stg0_0 : Ref sig .tc := ⟨.vmem, 33, rfl⟩
abbrev cc3_stg0_1 : Ref sig .tc := ⟨.vmem, 34, rfl⟩
abbrev cc3_stg1_0 : Ref sig .tc := ⟨.vmem, 35, rfl⟩
abbrev cc3_stg1_1 : Ref sig .tc := ⟨.vmem, 36, rfl⟩
abbrev cc3_stg2_0 : Ref sig .tc := ⟨.vmem, 37, rfl⟩
abbrev cc3_stg2_1 : Ref sig .tc := ⟨.vmem, 38, rfl⟩
abbrev cc3_stg3_0 : Ref sig .tc := ⟨.vmem, 39, rfl⟩
abbrev cc3_stg4_0 : Ref sig .tc := ⟨.vmem, 40, rfl⟩
abbrev cc3_stg5_0 : Ref sig .tc := ⟨.vmem, 41, rfl⟩
abbrev cc3_stg6_0 : Ref sig .tc := ⟨.vmem, 42, rfl⟩
abbrev cc3_stg6_1 : Ref sig .tc := ⟨.vmem, 43, rfl⟩
abbrev cc4_stg0_0 : Ref sig .tc := ⟨.vmem, 44, rfl⟩
abbrev cc4_stg0_1 : Ref sig .tc := ⟨.vmem, 45, rfl⟩
abbrev cc4_stg1_0 : Ref sig .tc := ⟨.vmem, 46, rfl⟩
abbrev cc4_stg1_1 : Ref sig .tc := ⟨.vmem, 47, rfl⟩
abbrev cc4_stg2_0 : Ref sig .tc := ⟨.vmem, 48, rfl⟩
abbrev cc4_stg3_0 : Ref sig .tc := ⟨.vmem, 49, rfl⟩
abbrev cc4_stg4_0 : Ref sig .tc := ⟨.vmem, 50, rfl⟩
abbrev cc4_scratch0 : Ref sig .tc := ⟨.vmem, 51, rfl⟩
abbrev cc4_scratch1 : Ref sig .tc := ⟨.vmem, 52, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc1_sem0_0 : DmaSem sig := 11
abbrev cc1_sem0_1 : DmaSem sig := 12
abbrev cc1_sem1_0 : DmaSem sig := 13
abbrev cc1_sem1_1 : DmaSem sig := 14
abbrev cc1_sem2_0 : DmaSem sig := 15
abbrev cc1_sem2_1 : DmaSem sig := 16
abbrev cc1_sem3_0 : DmaSem sig := 17
abbrev cc1_sem4_0 : DmaSem sig := 18
abbrev cc1_sem5_0 : DmaSem sig := 19
abbrev cc1_sem6_0 : DmaSem sig := 20
abbrev cc1_sem6_1 : DmaSem sig := 21
abbrev cc2_sem0_0 : DmaSem sig := 22
abbrev cc2_sem0_1 : DmaSem sig := 23
abbrev cc2_sem1_0 : DmaSem sig := 24
abbrev cc2_sem1_1 : DmaSem sig := 25
abbrev cc2_sem2_0 : DmaSem sig := 26
abbrev cc2_sem2_1 : DmaSem sig := 27
abbrev cc2_sem3_0 : DmaSem sig := 28
abbrev cc2_sem4_0 : DmaSem sig := 29
abbrev cc2_sem5_0 : DmaSem sig := 30
abbrev cc2_sem6_0 : DmaSem sig := 31
abbrev cc2_sem6_1 : DmaSem sig := 32
abbrev cc3_sem0_0 : DmaSem sig := 33
abbrev cc3_sem0_1 : DmaSem sig := 34
abbrev cc3_sem1_0 : DmaSem sig := 35
abbrev cc3_sem1_1 : DmaSem sig := 36
abbrev cc3_sem2_0 : DmaSem sig := 37
abbrev cc3_sem2_1 : DmaSem sig := 38
abbrev cc3_sem3_0 : DmaSem sig := 39
abbrev cc3_sem4_0 : DmaSem sig := 40
abbrev cc3_sem5_0 : DmaSem sig := 41
abbrev cc3_sem6_0 : DmaSem sig := 42
abbrev cc3_sem6_1 : DmaSem sig := 43
abbrev cc4_sem0_0 : DmaSem sig := 44
abbrev cc4_sem0_1 : DmaSem sig := 45
abbrev cc4_sem1_0 : DmaSem sig := 46
abbrev cc4_sem1_1 : DmaSem sig := 47
abbrev cc4_sem2_0 : DmaSem sig := 48
abbrev cc4_sem3_0 : DmaSem sig := 49
abbrev cc4_sem4_0 : DmaSem sig := 50

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4000x3 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S3x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S3x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S4000x64 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S4000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S4000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S64x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S64x64 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S4000x64 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S4000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S4000x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S4000x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S64x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x64 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S64x64 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 2 → Memref sig .tc .vmem S4000x64 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S4000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S4000x1 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S4000x64 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 1 → Memref sig .tc .vmem S64x64 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x64 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S64x64 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 2 → Memref sig .tc .vmem S4000x64 .f32 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true]

abbrev grid4 : Pipeline.Grid := ⟨1, ![25], ![false]⟩

def k4_cond2 (i : grid4.Coords) : BitVec 1 :=
  let arg0 : BitVec 32 := BitVec.ofNat 32 (i 0).val
  let c24_i32 : BitVec 32 := 24#32
  let v30 : BitVec 1 := Scalar.cmpi .eq arg0 c24_i32
  let v31 : BitVec 32 := Scalar.extui v30
  let c0_i32_13 : BitVec 32 := 0#32
  let v32 : BitVec 1 := Scalar.cmpi .ne v31 c0_i32_13
  v32

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage4_0 : Fin 2 → Memref sig .tc .vmem S4000x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S4000x1 .i32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 1 → Memref sig .tc .vmem S64x128 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S1x128 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S128x128 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

class Facts₀ : Prop where
  slices_S2x3200000_S1x3200000_0_0 : S2x3200000.Slices ![0, 0] S1x3200000
  shapeCasts_S1x3200000_S3200000 : S1x3200000.ShapeCasts S3200000
  slices_S2x3200000_S1x3200000_1_0 : S2x3200000.Slices ![1, 0] S1x3200000
  shapeCasts_S100000_S100000x1 : S100000.ShapeCasts S100000x1
  bcast_S_S3200000 : S_.BroadcastsInDim S3200000 (![] : Fin 0 → Fin S3200000.rank)
  bcast_S_S100000 : S_.BroadcastsInDim S100000 (![] : Fin 0 → Fin S100000.rank)
  bcast_S3200000_S3200000x1_0 : S3200000.BroadcastsInDim S3200000x1 (![0] : Fin 1 → Fin S3200000x1.rank)
  bcast_S_S100000x3 : S_.BroadcastsInDim S100000x3 (![] : Fin 0 → Fin S100000x3.rank)
  shapeCasts_S64_S1x64 : S64.ShapeCasts S1x64
  inb_S4000x1_S4000x1_0_0 : ∀ a, (![0, 0] : Fin 2 → Nat) a + S4000x1.size a ≤ S4000x1.size a
  h_S4000x1 : 0 < S4000x1.numel
  shapeCasts_S4000x1_S4000x1 : S4000x1.ShapeCasts S4000x1
  inb_S4000x3_S4000x3_0_0 : ∀ a, (![0, 0] : Fin 2 → Nat) a + S4000x3.size a ≤ S4000x3.size a
  h_S4000x3 : 0 < S4000x3.numel
  shapeCasts_S4000x3_S4000x3 : S4000x3.ShapeCasts S4000x3
  broadcasts_S4000x1_S4000x3 : S4000x1.Broadcasts S4000x3
  bitsLt_bf16_f32 : FTy.bits .bf16 < FTy.bits .f32
  inb_S3x64_S3x64_0_0 : ∀ a, (![0, 0] : Fin 2 → Nat) a + S3x64.size a ≤ S3x64.size a
  h_S3x64 : 0 < S3x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S4000x64 : S1x64.Broadcasts S4000x64
  inb_S4000x64_S4000x64_0_0 : ∀ a, (![0, 0] : Fin 2 → Nat) a + S4000x64.size a ≤ S4000x64.size a
  h_S4000x64 : 0 < S4000x64.numel
  bcast_S_S100000x64 : S_.BroadcastsInDim S100000x64 (![] : Fin 0 → Fin S100000x64.rank)
  shapeCasts_S4000x64_S4000x64 : S4000x64.ShapeCasts S4000x64
  broadcasts_S4000x1_S4000x64 : S4000x1.Broadcasts S4000x64
  inb_S64x64_S64x64_0_0 : ∀ a, (![0, 0] : Fin 2 → Nat) a + S64x64.size a ≤ S64x64.size a
  h_S64x64 : 0 < S64x64.numel
  shapeCasts_S128_S1x128 : S128.ShapeCasts S1x128
  inb_S128x64_S128x64_0_0 : ∀ a, (![0, 0] : Fin 2 → Nat) a + S128x64.size a ≤ S128x64.size a
  h_S128x64 : 0 < S128x64.numel
  shapeCasts_S128x64_S128x64 : S128x64.ShapeCasts S128x64
  inb_S1x128_S1x128_0_0 : ∀ a, (![0, 0] : Fin 2 → Nat) a + S1x128.size a ≤ S1x128.size a
  h_S1x128 : 0 < S1x128.numel
  shapeCasts_S1x128_S1x128 : S1x128.ShapeCasts S1x128
  iota_S1x128_d1_w32 : S1x128.Iotas .tc 32 [1]
  broadcasts_S4000x1_S4000x128 : S4000x1.Broadcasts S4000x128
  broadcasts_S1x128_S4000x128 : S1x128.Broadcasts S4000x128
  natLt_1_32 : 1 < 32
  reduces_S4000x128_S128 : S4000x128.Reduces [0] S128
  transposes_S1x128_p1_0_S128x1 : S1x128.Transposes [1, 0] S128x1
  broadcasts_S128x1_S128x64 : S128x1.Broadcasts S128x64
  inb_S64x128_S64x128_0_0 : ∀ a, (![0, 0] : Fin 2 → Nat) a + S64x128.size a ≤ S64x128.size a
  h_S64x128 : 0 < S64x128.numel
  broadcasts_S1x128_S128x128 : S1x128.Broadcasts S128x128
  reduces_S128x128_S128 : S128x128.Reduces [1] S128
  shapeCasts_S128_S128x1 : S128.ShapeCasts S128x1
  broadcasts_S128x1_S128x128 : S128x1.Broadcasts S128x128
  inb_S128x128_S128x128_0_0 : ∀ a, (![0, 0] : Fin 2 → Nat) a + S128x128.size a ≤ S128x128.size a
  h_S128x128 : 0 < S128x128.numel
  scatter_S100000_S3200000x1_S3200000_n_0_0_1_wf : ScatterDims.WF S100000 S3200000x1 S3200000 [] [0] [0] 1
  gather_S100000x3_S3200000x1_S3200000x3_1_0_n_n_0_1_13_wf : GatherDims.WF S100000x3 S3200000x1 S3200000x3 [1] [0] [] [0] [] 1 ![1, 3]
  scatter_S100000x3_S3200000x1_S3200000x3_1_0_0_1_wf : ScatterDims.WF S100000x3 S3200000x1 S3200000x3 [1] [0] [0] 1
  dot_S4000x3_S3x64_S4000x64_1_0_0_1_n_n_wf : DotDims.WF S4000x3 S3x64 S4000x64 [1] [0] [0] [1] [] []
  gather_S100000x64_S3200000x1_S3200000x64_1_0_n_n_0_1_164_wf : GatherDims.WF S100000x64 S3200000x1 S3200000x64 [1] [0] [] [0] [] 1 ![1, 64]
  scatter_S100000x64_S3200000x1_S3200000x64_1_0_0_1_wf : ScatterDims.WF S100000x64 S3200000x1 S3200000x64 [1] [0] [0] 1
  dot_S4000x64_S64x64_S4000x64_1_0_0_1_n_n_wf : DotDims.WF S4000x64 S64x64 S4000x64 [1] [0] [0] [1] [] []
  dot_S4000x128_S4000x64_S128x64_0_0_1_1_n_n_wf : DotDims.WF S4000x128 S4000x64 S128x64 [0] [0] [1] [1] [] []
  dot_S128x64_S64x128_S128x128_1_0_0_1_n_n_wf : DotDims.WF S128x64 S64x128 S128x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x3.size a ≤ S100000x3.size a
  hwx0_0 : ∀ i : grid0.Coords, EltTy.bits .f32 = 32 ∨ (Rect.block (s := S100000x3) S4000x3.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4000x1.size a ≤ S100000x1.size a
  hwx0_1 : ∀ i : grid0.Coords, EltTy.bits .f32 = 32 ∨ (Rect.block (s := S100000x1) S4000x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4000x3.size a ≤ S100000x3.size a
  hwx0_2 : ∀ i : grid0.Coords, EltTy.bits .f32 = 32 ∨ (Rect.block (s := S100000x3) S4000x3.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S3x64.size a ≤ S3x64.size a
  hwx0_3 : ∀ i : grid0.Coords, EltTy.bits .f32 = 32 ∨ (Rect.block (s := S3x64) S3x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x64.size a ≤ S1x64.size a
  hwx0_4 : ∀ i : grid0.Coords, EltTy.bits .f32 = 32 ∨ (Rect.block (s := S1x64) S1x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S3x64.size a ≤ S3x64.size a
  hwx0_5 : ∀ i : grid0.Coords, EltTy.bits .f32 = 32 ∨ (Rect.block (s := S3x64) S3x64.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S4000x64.size a ≤ S100000x64.size a
  hwx0_6 : ∀ i : grid0.Coords, EltTy.bits .f32 = 32 ∨ (Rect.block (s := S100000x64) S4000x64.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4000x64.size a ≤ S100000x64.size a
  hwx1_0 : ∀ i : grid1.Coords, EltTy.bits .f32 = 32 ∨ (Rect.block (s := S100000x64) S4000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4000x1.size a ≤ S100000x1.size a
  hwx1_1 : ∀ i : grid1.Coords, EltTy.bits .f32 = 32 ∨ (Rect.block (s := S100000x1) S4000x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S4000x64.size a ≤ S100000x64.size a
  hwx1_2 : ∀ i : grid1.Coords, EltTy.bits .f32 = 32 ∨ (Rect.block (s := S100000x64) S4000x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S64x64.size a ≤ S64x64.size a
  hwx1_3 : ∀ i : grid1.Coords, EltTy.bits .f32 = 32 ∨ (Rect.block (s := S64x64) S64x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x64.size a ≤ S1x64.size a
  hwx1_4 : ∀ i : grid1.Coords, EltTy.bits .f32 = 32 ∨ (Rect.block (s := S1x64) S1x64.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S64x64.size a ≤ S64x64.size a
  hwx1_5 : ∀ i : grid1.Coords, EltTy.bits .f32 = 32 ∨ (Rect.block (s := S64x64) S64x64.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S4000x64.size a ≤ S100000x64.size a
  hwx1_6 : ∀ i : grid1.Coords, EltTy.bits .f32 = 32 ∨ (Rect.block (s := S100000x64) S4000x64.size (cc1_transform_6 i) (hinb1_6 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S4000x64.size a ≤ S100000x64.size a
  hwx2_0 : ∀ i : grid2.Coords, EltTy.bits .f32 = 32 ∨ (Rect.block (s := S100000x64) S4000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S4000x1.size a ≤ S100000x1.size a
  hwx2_1 : ∀ i : grid2.Coords, EltTy.bits .f32 = 32 ∨ (Rect.block (s := S100000x1) S4000x1.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S4000x64.size a ≤ S100000x64.size a
  hwx2_2 : ∀ i : grid2.Coords, EltTy.bits .f32 = 32 ∨ (Rect.block (s := S100000x64) S4000x64.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S64x64.size a ≤ S64x64.size a
  hwx2_3 : ∀ i : grid2.Coords, EltTy.bits .f32 = 32 ∨ (Rect.block (s := S64x64) S64x64.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x64.size a ≤ S1x64.size a
  hwx2_4 : ∀ i : grid2.Coords, EltTy.bits .f32 = 32 ∨ (Rect.block (s := S1x64) S1x64.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S64x64.size a ≤ S64x64.size a
  hwx2_5 : ∀ i : grid2.Coords, EltTy.bits .f32 = 32 ∨ (Rect.block (s := S64x64) S64x64.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S4000x64.size a ≤ S100000x64.size a
  hwx2_6 : ∀ i : grid2.Coords, EltTy.bits .f32 = 32 ∨ (Rect.block (s := S100000x64) S4000x64.size (cc2_transform_6 i) (hinb2_6 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S4000x64.size a ≤ S100000x64.size a
  hwx3_0 : ∀ i : grid3.Coords, EltTy.bits .f32 = 32 ∨ (Rect.block (s := S100000x64) S4000x64.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S4000x1.size a ≤ S100000x1.size a
  hwx3_1 : ∀ i : grid3.Coords, EltTy.bits .f32 = 32 ∨ (Rect.block (s := S100000x1) S4000x1.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S4000x64.size a ≤ S100000x64.size a
  hwx3_2 : ∀ i : grid3.Coords, EltTy.bits .f32 = 32 ∨ (Rect.block (s := S100000x64) S4000x64.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S64x64.size a ≤ S64x64.size a
  hwx3_3 : ∀ i : grid3.Coords, EltTy.bits .f32 = 32 ∨ (Rect.block (s := S64x64) S64x64.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x64.size a ≤ S1x64.size a
  hwx3_4 : ∀ i : grid3.Coords, EltTy.bits .f32 = 32 ∨ (Rect.block (s := S1x64) S1x64.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S64x64.size a ≤ S64x64.size a
  hwx3_5 : ∀ i : grid3.Coords, EltTy.bits .f32 = 32 ∨ (Rect.block (s := S64x64) S64x64.size (cc3_transform_5 i) (hinb3_5 i)).WholeWords (EltTy.packing .f32)
  hstage3_6 : ∀ j, (stage3_6 j).IsWhole
  nbuf3_6 : grid3.bufCount reads3_6 false = 2
  hreads3_6 : ∀ i i' : grid3.Coords, (∀ a, reads3_6 a = true → i a = i' a) → cc3_transform_6 i = cc3_transform_6 i'
  hinb3_6 : ∀ (i : grid3.Coords) a, (cc3_transform_6 i a + 1) * S4000x64.size a ≤ S100000x64.size a
  hwx3_6 : ∀ i : grid3.Coords, EltTy.bits .f32 = 32 ∨ (Rect.block (s := S100000x64) S4000x64.size (cc3_transform_6 i) (hinb3_6 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S4000x64.size a ≤ S100000x64.size a
  hwx4_0 : ∀ i : grid4.Coords, EltTy.bits .f32 = 32 ∨ (Rect.block (s := S100000x64) S4000x64.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S4000x1.size a ≤ S100000x1.size a
  hwx4_1 : ∀ i : grid4.Coords, EltTy.bits .i32 = 32 ∨ (Rect.block (s := S100000x1) S4000x1.size (cc4_transform_1 i) (hinb4_1 i)).WholeWords (EltTy.packing .i32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S64x128.size a ≤ S64x128.size a
  hwx4_2 : ∀ i : grid4.Coords, EltTy.bits .f32 = 32 ∨ (Rect.block (s := S64x128) S64x128.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S1x128.size a ≤ S1x128.size a
  hwx4_3 : ∀ i : grid4.Coords, EltTy.bits .f32 = 32 ∨ (Rect.block (s := S1x128) S1x128.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S128x128.size a ≤ S128x128.size a
  hwx4_4 : ∀ i : grid4.Coords, EltTy.bits .f32 = 32 ∨ (Rect.block (s := S128x128) S128x128.size (cc4_transform_4 i) (hinb4_4 i)).WholeWords (EltTy.packing .f32)

variable [Facts₀]

def scatter_S100000_S3200000x1_S3200000_n_0_0_1 : ScatterDims S100000 S3200000x1 S3200000 where
  updateWindowDims := []
  insertedWindowDims := [0]
  scatterDimsToOperandDims := [0]
  indexVectorDim := 1
  wf := scatter_S100000_S3200000x1_S3200000_n_0_0_1_wf
def gather_S100000x3_S3200000x1_S3200000x3_1_0_n_n_0_1_13 : GatherDims S100000x3 S3200000x1 S3200000x3 where
  offsetDims := [1]
  collapsedSliceDims := [0]
  operandBatchingDims := []
  startIndicesBatchingDims := []
  startIndexMap := [0]
  indexVectorDim := 1
  sliceSizes := ![1, 3]
  wf := gather_S100000x3_S3200000x1_S3200000x3_1_0_n_n_0_1_13_wf
def scatter_S100000x3_S3200000x1_S3200000x3_1_0_0_1 : ScatterDims S100000x3 S3200000x1 S3200000x3 where
  updateWindowDims := [1]
  insertedWindowDims := [0]
  scatterDimsToOperandDims := [0]
  indexVectorDim := 1
  wf := scatter_S100000x3_S3200000x1_S3200000x3_1_0_0_1_wf
def dot_S4000x3_S3x64_S4000x64_1_0_0_1_n_n : DotDims S4000x3 S3x64 S4000x64 where
  lhsContracting := [1]
  rhsContracting := [0]
  lhsNonContracting := [0]
  rhsNonContracting := [1]
  lhsBatch := []
  rhsBatch := []
  wf := dot_S4000x3_S3x64_S4000x64_1_0_0_1_n_n_wf
def gather_S100000x64_S3200000x1_S3200000x64_1_0_n_n_0_1_164 : GatherDims S100000x64 S3200000x1 S3200000x64 where
  offsetDims := [1]
  collapsedSliceDims := [0]
  operandBatchingDims := []
  startIndicesBatchingDims := []
  startIndexMap := [0]
  indexVectorDim := 1
  sliceSizes := ![1, 64]
  wf := gather_S100000x64_S3200000x1_S3200000x64_1_0_n_n_0_1_164_wf
def scatter_S100000x64_S3200000x1_S3200000x64_1_0_0_1 : ScatterDims S100000x64 S3200000x1 S3200000x64 where
  updateWindowDims := [1]
  insertedWindowDims := [0]
  scatterDimsToOperandDims := [0]
  indexVectorDim := 1
  wf := scatter_S100000x64_S3200000x1_S3200000x64_1_0_0_1_wf
def dot_S4000x64_S64x64_S4000x64_1_0_0_1_n_n : DotDims S4000x64 S64x64 S4000x64 where
  lhsContracting := [1]
  rhsContracting := [0]
  lhsNonContracting := [0]
  rhsNonContracting := [1]
  lhsBatch := []
  rhsBatch := []
  wf := dot_S4000x64_S64x64_S4000x64_1_0_0_1_n_n_wf
def dot_S4000x128_S4000x64_S128x64_0_0_1_1_n_n : DotDims S4000x128 S4000x64 S128x64 where
  lhsContracting := [0]
  rhsContracting := [0]
  lhsNonContracting := [1]
  rhsNonContracting := [1]
  lhsBatch := []
  rhsBatch := []
  wf := dot_S4000x128_S4000x64_S128x64_0_0_1_1_n_n_wf
def dot_S128x64_S64x128_S128x128_1_0_0_1_n_n : DotDims S128x64 S64x128 S128x128 where
  lhsContracting := [1]
  rhsContracting := [0]
  lhsNonContracting := [0]
  rhsNonContracting := [1]
  lhsBatch := []
  rhsBatch := []
  wf := dot_S128x64_S64x128_S128x128_1_0_0_1_n_n_wf

abbrev win0_0 : Pipeline.Window sig grid0 :=
  Pipeline.Window.ofSpec (Memref.whole main_v19) S4000x3.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v9) S4000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg0) S4000x3.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S3x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v20) S1x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S3x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v21) S4000x64.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v31) S4000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v9) S4000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v21) S4000x64.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg6) S64x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v32) S1x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg8) S64x64.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v33) S4000x64.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev win2_0 : Pipeline.Window sig grid2 :=
  Pipeline.Window.ofSpec (Memref.whole main_v43) S4000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v9) S4000x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v33) S4000x64.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_arg9) S64x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v44) S1x64.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_arg11) S64x64.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v45) S4000x64.size cc2_transform_6 reads2_6 true false 2 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

abbrev win3_0 : Pipeline.Window sig grid3 :=
  Pipeline.Window.ofSpec (Memref.whole main_v55) S4000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v9) S4000x1.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v45) S4000x64.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_arg12) S64x64.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v56) S1x64.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_arg14) S64x64.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v57) S4000x64.size cc3_transform_6 reads3_6 true false 2 stage3_6 sem3_6
    hrank3 hreads3_6 hinb3_6 nbuf3_6 (Memref.isWhole_whole _) hwx3_6 hstage3_6

abbrev win3 : Fin 7 → Pipeline.Window sig grid3 := fun | 0 => win3_0 | 1 => win3_1 | 2 => win3_2 | 3 => win3_3 | 4 => win3_4 | 5 => win3_5 | 6 => win3_6 | ⟨_ + 7, h⟩ => absurd h (Nat.not_lt.2 (Nat.le_add_left _ _))
abbrev spec3 : Fin 7 → Pipeline.WinSpec sig grid3.rank := fun w => (win3 w).toWinSpec

abbrev win4_0 : Pipeline.Window sig grid4 :=
  Pipeline.Window.ofSpec (Memref.whole main_v57) S4000x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v4) S4000x1.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_arg15) S64x128.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v58) S1x128.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v59) S128x128.size cc4_transform_4 reads4_4 true true 1 stage4_4 sem4_4
    hrank4 hreads4_4 hinb4_4 nbuf4_4 (Memref.isWhole_whole _) hwx4_4 hstage4_4

abbrev win4 : Fin 5 → Pipeline.Window sig grid4 := fun | 0 => win4_0 | 1 => win4_1 | 2 => win4_2 | 3 => win4_3 | 4 => win4_4 | ⟨_ + 5, h⟩ => absurd h (Nat.not_lt.2 (Nat.le_add_left _ _))
abbrev spec4 : Fin 5 → Pipeline.WinSpec sig grid4.rank := fun w => (win4 w).toWinSpec

abbrev idle4 : Fin 5 → grid4.Coords → Bool := fun | 0 => fun _ => false | 1 => fun _ => false | 2 => fun _ => false | 3 => fun _ => false | 4 => fun i => !(k4_cond2 i == 1#1) | ⟨_ + 5, h⟩ => absurd h (Nat.not_lt.2 (Nat.le_add_left _ _))

class Facts : Prop extends Facts₀ where

variable [Facts]
-- ==== ReferenceIdeal.lean ====
abbrev S100000x3 : Shape := ⟨2, ![100000, 3]⟩
abbrev S2x3200000 : Shape := ⟨2, ![2, 3200000]⟩
abbrev S100000 : Shape := ⟨1, ![100000]⟩
abbrev S3x64 : Shape := ⟨2, ![3, 64]⟩
abbrev S64 : Shape := ⟨1, ![64]⟩
abbrev S64x64 : Shape := ⟨2, ![64, 64]⟩
abbrev S64x128 : Shape := ⟨2, ![64, 128]⟩
abbrev S128 : Shape := ⟨1, ![128]⟩
abbrev S1x3200000 : Shape := ⟨2, ![1, 3200000]⟩
abbrev S3200000 : Shape := ⟨1, ![3200000]⟩
abbrev S_ : Shape := ⟨0, ![]⟩
abbrev S3200000x1 : Shape := ⟨2, ![3200000, 1]⟩
abbrev S3200000x3 : Shape := ⟨2, ![3200000, 3]⟩
abbrev S100000x1 : Shape := ⟨2, ![100000, 1]⟩
abbrev S100000x64 : Shape := ⟨2, ![100000, 64]⟩
abbrev S1x64 : Shape := ⟨2, ![1, 64]⟩
abbrev S3200000x64 : Shape := ⟨2, ![3200000, 64]⟩
abbrev S128x64 : Shape := ⟨2, ![128, 64]⟩
abbrev S128x1 : Shape := ⟨2, ![128, 1]⟩
abbrev S128x128 : Shape := ⟨2, ![128, 128]⟩
abbrev S1x128 : Shape := ⟨2, ![1, 128]⟩

abbrev nBuf : Space → Nat
  | .hbm => 187
  | .vmem => 0
  | .smem => 0
  | _ => 0

abbrev hbmTy0_0 (i : Nat) : BufTy := match i % 128 with
  | 0 => ⟨S100000x3, .f32⟩
  | 1 => ⟨S2x3200000, .i32⟩
  | 2 => ⟨S100000, .i32⟩
  | 3 => ⟨S3x64, .f32⟩
  | 4 => ⟨S64, .f32⟩
  | 5 => ⟨S3x64, .f32⟩
  | 6 => ⟨S64x64, .f32⟩
  | 7 => ⟨S64, .f32⟩
  | 8 => ⟨S64x64, .f32⟩
  | 9 => ⟨S64x64, .f32⟩
  | 10 => ⟨S64, .f32⟩
  | 11 => ⟨S64x64, .f32⟩
  | 12 => ⟨S64x64, .f32⟩
  | 13 => ⟨S64, .f32⟩
  | 14 => ⟨S64x64, .f32⟩
  | 15 => ⟨S64x128, .f32⟩
  | 16 => ⟨S128, .f32⟩
  | 17 => ⟨S1x3200000, .i32⟩
  | 18 => ⟨S3200000, .i32⟩
  | 19 => ⟨S1x3200000, .i32⟩
  | 20 => ⟨S3200000, .i32⟩
  | 21 => ⟨S_, .i32⟩
  | 22 => ⟨S3200000, .i32⟩
  | 23 => ⟨S3200000, .i1⟩
  | 24 => ⟨S_, .i32⟩
  | 25 => ⟨S3200000, .i32⟩
  | 26 => ⟨S3200000, .i32⟩
  | 27 => ⟨S3200000, .i32⟩
  | 28 => ⟨S3200000x1, .i32⟩
  | 29 => ⟨S3200000x3, .f32⟩
  | 30 => ⟨S_, .f32⟩
  | 31 => ⟨S100000x3, .f32⟩
  | 32 => ⟨S3200000x1, .i32⟩
  | 33 => ⟨S100000x3, .f32⟩
  | 34 => ⟨S_, .f32⟩
  | 35 => ⟨S3200000, .f32⟩
  | 36 => ⟨S_, .f32⟩
  | 37 => ⟨S100000, .f32⟩
  | 38 => ⟨S3200000x1, .i32⟩
  | 39 => ⟨S100000, .f32⟩
  | 40 => ⟨S_, .f32⟩
  | 41 => ⟨S100000, .f32⟩
  | 42 => ⟨S100000, .f32⟩
  | 43 => ⟨S100000x1, .f32⟩
  | 44 => ⟨S100000x3, .f32⟩
  | 45 => ⟨S100000x3, .f32⟩
  | 46 => ⟨S100000x64, .f32⟩
  | 47 => ⟨S1x64, .f32⟩
  | 48 => ⟨S100000x64, .f32⟩
  | 49 => ⟨S100000x64, .f32⟩
  | 50 => ⟨S100000x64, .f32⟩
  | 51 => ⟨S100000x64, .f32⟩
  | 52 => ⟨S_, .f32⟩
  | 53 => ⟨S100000x64, .f32⟩
  | 54 => ⟨S100000x64, .f32⟩
  | 55 => ⟨S_, .i32⟩
  | 56 => ⟨S3200000, .i32⟩
  | 57 => ⟨S3200000, .i1⟩
  | 58 => ⟨S_, .i32⟩
  | 59 => ⟨S3200000, .i32⟩
  | 60 => ⟨S3200000, .i32⟩
  | 61 => ⟨S3200000, .i32⟩
  | 62 => ⟨S3200000x1, .i32⟩
  | 63 => ⟨S3200000x64, .f32⟩
  | 64 => ⟨S_, .f32⟩
  | 65 => ⟨S100000x64, .f32⟩
  | 66 => ⟨S3200000x1, .i32⟩
  | 67 => ⟨S100000x64, .f32⟩
  | 68 => ⟨S_, .f32⟩
  | 69 => ⟨S3200000, .f32⟩
  | 70 => ⟨S_, .f32⟩
  | 71 => ⟨S100000, .f32⟩
  | 72 => ⟨S3200000x1, .i32⟩
  | 73 => ⟨S100000, .f32⟩
  | 74 => ⟨S_, .f32⟩
  | 75 => ⟨S100000, .f32⟩
  | 76 => ⟨S100000, .f32⟩
  | 77 => ⟨S100000x1, .f32⟩
  | 78 => ⟨S100000x64, .f32⟩
  | 79 => ⟨S100000x64, .f32⟩
  | 80 => ⟨S100000x64, .f32⟩
  | 81 => ⟨S1x64, .f32⟩
  | 82 => ⟨S100000x64, .f32⟩
  | 83 => ⟨S100000x64, .f32⟩
  | 84 => ⟨S100000x64, .f32⟩
  | 85 => ⟨S100000x64, .f32⟩
  | 86 => ⟨S_, .f32⟩
  | 87 => ⟨S100000x64, .f32⟩
  | 88 => ⟨S100000x64, .f32⟩
  | 89 => ⟨S_, .i32⟩
  | 90 => ⟨S3200000, .i32⟩
  | 91 => ⟨S3200000, .i1⟩
  | 92 => ⟨S_, .i32⟩
  | 93 => ⟨S3200000, .i32⟩
  | 94 => ⟨S3200000, .i32⟩
  | 95 => ⟨S3200000, .i32⟩
  | 96 => ⟨S3200000x1, .i32⟩
  | 97 => ⟨S3200000x64, .f32⟩
  | 98 => ⟨S_, .f32⟩
  | 99 => ⟨S100000x64, .f32⟩
  | 100 => ⟨S3200000x1, .i32⟩
  | 101 => ⟨S100000x64, .f32⟩
  | 102 => ⟨S_, .f32⟩
  | 103 => ⟨S3200000, .f32⟩
  | 104 => ⟨S_, .f32⟩
  | 105 => ⟨S100000, .f32⟩
  | 106 => ⟨S3200000x1, .i32⟩
  | 107 => ⟨S100000, .f32⟩
  | 108 => ⟨S_, .f32⟩
  | 109 => ⟨S100000, .f32⟩
  | 110 => ⟨S100000, .f32⟩
  | 111 => ⟨S100000x1, .f32⟩
  | 112 => ⟨S100000x64, .f32⟩
  | 113 => ⟨S100000x64, .f32⟩
  | 114 => ⟨S100000x64, .f32⟩
  | 115 => ⟨S1x64, .f32⟩
  | 116 => ⟨S100000x64, .f32⟩
  | 117 => ⟨S100000x64, .f32⟩
  | 118 => ⟨S100000x64, .f32⟩
  | 119 => ⟨S100000x64, .f32⟩
  | 120 => ⟨S_, .f32⟩
  | 121 => ⟨S100000x64, .f32⟩
  | 122 => ⟨S100000x64, .f32⟩
  | 123 => ⟨S_, .i32⟩
  | 124 => ⟨S3200000, .i32⟩
  | 125 => ⟨S3200000, .i1⟩
  | 126 => ⟨S_, .i32⟩
  | 127 => ⟨S3200000, .i32⟩
  | _ => ⟨S100000x3, .f32⟩

abbrev hbmTy0_1 (i : Nat) : BufTy := match i % 128 with
  | 0 => ⟨S3200000, .i32⟩
  | 1 => ⟨S3200000, .i32⟩
  | 2 => ⟨S3200000x1, .i32⟩
  | 3 => ⟨S3200000x64, .f32⟩
  | 4 => ⟨S_, .f32⟩
  | 5 => ⟨S100000x64, .f32⟩
  | 6 => ⟨S3200000x1, .i32⟩
  | 7 => ⟨S100000x64, .f32⟩
  | 8 => ⟨S_, .f32⟩
  | 9 => ⟨S3200000, .f32⟩
  | 10 => ⟨S_, .f32⟩
  | 11 => ⟨S100000, .f32⟩
  | 12 => ⟨S3200000x1, .i32⟩
  | 13 => ⟨S100000, .f32⟩
  | 14 => ⟨S_, .f32⟩
  | 15 => ⟨S100000, .f32⟩
  | 16 => ⟨S100000, .f32⟩
  | 17 => ⟨S100000x1, .f32⟩
  | 18 => ⟨S100000x64, .f32⟩
  | 19 => ⟨S100000x64, .f32⟩
  | 20 => ⟨S100000x64, .f32⟩
  | 21 => ⟨S1x64, .f32⟩
  | 22 => ⟨S100000x64, .f32⟩
  | 23 => ⟨S100000x64, .f32⟩
  | 24 => ⟨S100000x64, .f32⟩
  | 25 => ⟨S100000x64, .f32⟩
  | 26 => ⟨S_, .f32⟩
  | 27 => ⟨S100000x64, .f32⟩
  | 28 => ⟨S100000x64, .f32⟩
  | 29 => ⟨S_, .f32⟩
  | 30 => ⟨S128x64, .f32⟩
  | 31 => ⟨S100000x1, .i32⟩
  | 32 => ⟨S128x64, .f32⟩
  | 33 => ⟨S_, .f32⟩
  | 34 => ⟨S100000, .f32⟩
  | 35 => ⟨S_, .f32⟩
  | 36 => ⟨S128, .f32⟩
  | 37 => ⟨S100000x1, .i32⟩
  | 38 => ⟨S128, .f32⟩
  | 39 => ⟨S_, .f32⟩
  | 40 => ⟨S128, .f32⟩
  | 41 => ⟨S128, .f32⟩
  | 42 => ⟨S128x1, .f32⟩
  | 43 => ⟨S128x64, .f32⟩
  | 44 => ⟨S128x64, .f32⟩
  | 45 => ⟨S128x128, .f32⟩
  | 46 => ⟨S1x128, .f32⟩
  | 47 => ⟨S128x128, .f32⟩
  | 48 => ⟨S128x128, .f32⟩
  | 49 => ⟨S128x128, .f32⟩
  | 50 => ⟨S_, .f32⟩
  | 51 => ⟨S128, .f32⟩
  | 52 => ⟨S128x1, .f32⟩
  | 53 => ⟨S128x1, .f32⟩
  | 54 => ⟨S_, .f32⟩
  | 55 => ⟨S128x1, .f32⟩
  | 56 => ⟨S128x1, .f32⟩
  | 57 => ⟨S128x128, .f32⟩
  | 58 => ⟨S128x128, .f32⟩
  | _ => ⟨S100000x3, .f32⟩

abbrev hbmTy (i : Nat) : BufTy := match i / 128 with
  | 0 => hbmTy0_0 i
  | 1 => hbmTy0_1 i
  | _ => ⟨S100000x3, .f32⟩

abbrev bufTy : (tb : Table) → Fin (tcTables nBuf tb) → BufTy
  | .hbm, ⟨i, _⟩ => hbmTy i
  | _, _ => ⟨S100000x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_c : Ref sig .tc := ⟨.hbm, 21, rfl⟩
abbrev main_v4 : Ref sig .tc := ⟨.hbm, 22, rfl⟩
abbrev main_v5 : Ref sig .tc := ⟨.hbm, 23, rfl⟩
abbrev main_c_0 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_cst : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_cst_1 : Ref sig .tc := ⟨.hbm, 34, rfl⟩
abbrev main_v14 : Ref sig .tc := ⟨.hbm, 35, rfl⟩
abbrev main_cst_2 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_cst_3 : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_call0_cst : Ref sig .tc := ⟨.hbm, 52, rfl⟩
abbrev main_call0_v0 : Ref sig .tc := ⟨.hbm, 53, rfl⟩
abbrev main_v29 : Ref sig .tc := ⟨.hbm, 54, rfl⟩
abbrev main_c_4 : Ref sig .tc := ⟨.hbm, 55, rfl⟩
abbrev main_v30 : Ref sig .tc := ⟨.hbm, 56, rfl⟩
abbrev main_v31 : Ref sig .tc := ⟨.hbm, 57, rfl⟩
abbrev main_c_5 : Ref sig .tc := ⟨.hbm, 58, rfl⟩
abbrev main_v32 : Ref sig .tc := ⟨.hbm, 59, rfl⟩
abbrev main_v33 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_cst_6 : Ref sig .tc := ⟨.hbm, 64, rfl⟩
abbrev main_v37 : Ref sig .tc := ⟨.hbm, 65, rfl⟩
abbrev main_v38 : Ref sig .tc := ⟨.hbm, 66, rfl⟩
abbrev main_v39 : Ref sig .tc := ⟨.hbm, 67, rfl⟩
abbrev main_cst_7 : Ref sig .tc := ⟨.hbm, 68, rfl⟩
abbrev main_v40 : Ref sig .tc := ⟨.hbm, 69, rfl⟩
abbrev main_cst_8 : Ref sig .tc := ⟨.hbm, 70, rfl⟩
abbrev main_v41 : Ref sig .tc := ⟨.hbm, 71, rfl⟩
abbrev main_v42 : Ref sig .tc := ⟨.hbm, 72, rfl⟩
abbrev main_v43 : Ref sig .tc := ⟨.hbm, 73, rfl⟩
abbrev main_cst_9 : Ref sig .tc := ⟨.hbm, 74, rfl⟩
abbrev main_v44 : Ref sig .tc := ⟨.hbm, 75, rfl⟩
abbrev main_v45 : Ref sig .tc := ⟨.hbm, 76, rfl⟩
abbrev main_v46 : Ref sig .tc := ⟨.hbm, 77, rfl⟩
abbrev main_v47 : Ref sig .tc := ⟨.hbm, 78, rfl⟩
abbrev main_v48 : Ref sig .tc := ⟨.hbm, 79, rfl⟩
abbrev main_v49 : Ref sig .tc := ⟨.hbm, 80, rfl⟩
abbrev main_v50 : Ref sig .tc := ⟨.hbm, 81, rfl⟩
abbrev main_v51 : Ref sig .tc := ⟨.hbm, 82, rfl⟩
abbrev main_v52 : Ref sig .tc := ⟨.hbm, 83, rfl⟩
abbrev main_v53 : Ref sig .tc := ⟨.hbm, 84, rfl⟩
abbrev main_v54 : Ref sig .tc := ⟨.hbm, 85, rfl⟩
abbrev main_call1_cst : Ref sig .tc := ⟨.hbm, 86, rfl⟩
abbrev main_call1_v0 : Ref sig .tc := ⟨.hbm, 87, rfl⟩
abbrev main_v55 : Ref sig .tc := ⟨.hbm, 88, rfl⟩
abbrev main_c_10 : Ref sig .tc := ⟨.hbm, 89, rfl⟩
abbrev main_v56 : Ref sig .tc := ⟨.hbm, 90, rfl⟩
abbrev main_v57 : Ref sig .tc := ⟨.hbm, 91, rfl⟩
abbrev main_c_11 : Ref sig .tc := ⟨.hbm, 92, rfl⟩
abbrev main_v58 : Ref sig .tc := ⟨.hbm, 93, rfl⟩
abbrev main_v59 : Ref sig .tc := ⟨.hbm, 94, rfl⟩
abbrev main_v60 : Ref sig .tc := ⟨.hbm, 95, rfl⟩
abbrev main_v61 : Ref sig .tc := ⟨.hbm, 96, rfl⟩
abbrev main_v62 : Ref sig .tc := ⟨.hbm, 97, rfl⟩
abbrev main_cst_12 : Ref sig .tc := ⟨.hbm, 98, rfl⟩
abbrev main_v63 : Ref sig .tc := ⟨.hbm, 99, rfl⟩
abbrev main_v64 : Ref sig .tc := ⟨.hbm, 100, rfl⟩
abbrev main_v65 : Ref sig .tc := ⟨.hbm, 101, rfl⟩
abbrev main_cst_13 : Ref sig .tc := ⟨.hbm, 102, rfl⟩
abbrev main_v66 : Ref sig .tc := ⟨.hbm, 103, rfl⟩
abbrev main_cst_14 : Ref sig .tc := ⟨.hbm, 104, rfl⟩
abbrev main_v67 : Ref sig .tc := ⟨.hbm, 105, rfl⟩
abbrev main_v68 : Ref sig .tc := ⟨.hbm, 106, rfl⟩
abbrev main_v69 : Ref sig .tc := ⟨.hbm, 107, rfl⟩
abbrev main_cst_15 : Ref sig .tc := ⟨.hbm, 108, rfl⟩
abbrev main_v70 : Ref sig .tc := ⟨.hbm, 109, rfl⟩
abbrev main_v71 : Ref sig .tc := ⟨.hbm, 110, rfl⟩
abbrev main_v72 : Ref sig .tc := ⟨.hbm, 111, rfl⟩
abbrev main_v73 : Ref sig .tc := ⟨.hbm, 112, rfl⟩
abbrev main_v74 : Ref sig .tc := ⟨.hbm, 113, rfl⟩
abbrev main_v75 : Ref sig .tc := ⟨.hbm, 114, rfl⟩
abbrev main_v76 : Ref sig .tc := ⟨.hbm, 115, rfl⟩
abbrev main_v77 : Ref sig .tc := ⟨.hbm, 116, rfl⟩
abbrev main_v78 : Ref sig .tc := ⟨.hbm, 117, rfl⟩
abbrev main_v79 : Ref sig .tc := ⟨.hbm, 118, rfl⟩
abbrev main_v80 : Ref sig .tc := ⟨.hbm, 119, rfl⟩
abbrev main_call2_cst : Ref sig .tc := ⟨.hbm, 120, rfl⟩
abbrev main_call2_v0 : Ref sig .tc := ⟨.hbm, 121, rfl⟩
abbrev main_v81 : Ref sig .tc := ⟨.hbm, 122, rfl⟩
abbrev main_c_16 : Ref sig .tc := ⟨.hbm, 123, rfl⟩
abbrev main_v82 : Ref sig .tc := ⟨.hbm, 124, rfl⟩
abbrev main_v83 : Ref sig .tc := ⟨.hbm, 125, rfl⟩
abbrev main_c_17 : Ref sig .tc := ⟨.hbm, 126, rfl⟩
abbrev main_v84 : Ref sig .tc := ⟨.hbm, 127, rfl⟩
abbrev main_v85 : Ref sig .tc := ⟨.hbm, 128, rfl⟩
abbrev main_v86 : Ref sig .tc := ⟨.hbm, 129, rfl⟩
abbrev main_v87 : Ref sig .tc := ⟨.hbm, 130, rfl⟩
abbrev main_v88 : Ref sig .tc := ⟨.hbm, 131, rfl⟩
abbrev main_cst_18 : Ref sig .tc := ⟨.hbm, 132, rfl⟩
abbrev main_v89 : Ref sig .tc := ⟨.hbm, 133, rfl⟩
abbrev main_v90 : Ref sig .tc := ⟨.hbm, 134, rfl⟩
abbrev main_v91 : Ref sig .tc := ⟨.hbm, 135, rfl⟩
abbrev main_cst_19 : Ref sig .tc := ⟨.hbm, 136, rfl⟩
abbrev main_v92 : Ref sig .tc := ⟨.hbm, 137, rfl⟩
abbrev main_cst_20 : Ref sig .tc := ⟨.hbm, 138, rfl⟩
abbrev main_v93 : Ref sig .tc := ⟨.hbm, 139, rfl⟩
abbrev main_v94 : Ref sig .tc := ⟨.hbm, 140, rfl⟩
abbrev main_v95 : Ref sig .tc := ⟨.hbm, 141, rfl⟩
abbrev main_cst_21 : Ref sig .tc := ⟨.hbm, 142, rfl⟩
abbrev main_v96 : Ref sig .tc := ⟨.hbm, 143, rfl⟩
abbrev main_v97 : Ref sig .tc := ⟨.hbm, 144, rfl⟩
abbrev main_v98 : Ref sig .tc := ⟨.hbm, 145, rfl⟩
abbrev main_v99 : Ref sig .tc := ⟨.hbm, 146, rfl⟩
abbrev main_v100 : Ref sig .tc := ⟨.hbm, 147, rfl⟩
abbrev main_v101 : Ref sig .tc := ⟨.hbm, 148, rfl⟩
abbrev main_v102 : Ref sig .tc := ⟨.hbm, 149, rfl⟩
abbrev main_v103 : Ref sig .tc := ⟨.hbm, 150, rfl⟩
abbrev main_v104 : Ref sig .tc := ⟨.hbm, 151, rfl⟩
abbrev main_v105 : Ref sig .tc := ⟨.hbm, 152, rfl⟩
abbrev main_v106 : Ref sig .tc := ⟨.hbm, 153, rfl⟩
abbrev main_call3_cst : Ref sig .tc := ⟨.hbm, 154, rfl⟩
abbrev main_call3_v0 : Ref sig .tc := ⟨.hbm, 155, rfl⟩
abbrev main_v107 : Ref sig .tc := ⟨.hbm, 156, rfl⟩
abbrev main_cst_22 : Ref sig .tc := ⟨.hbm, 157, rfl⟩
abbrev main_v108 : Ref sig .tc := ⟨.hbm, 158, rfl⟩
abbrev main_v109 : Ref sig .tc := ⟨.hbm, 159, rfl⟩
abbrev main_v110 : Ref sig .tc := ⟨.hbm, 160, rfl⟩
abbrev main_cst_23 : Ref sig .tc := ⟨.hbm, 161, rfl⟩
abbrev main_v111 : Ref sig .tc := ⟨.hbm, 162, rfl⟩
abbrev main_cst_24 : Ref sig .tc := ⟨.hbm, 163, rfl⟩
abbrev main_v112 : Ref sig .tc := ⟨.hbm, 164, rfl⟩
abbrev main_v113 : Ref sig .tc := ⟨.hbm, 165, rfl⟩
abbrev main_v114 : Ref sig .tc := ⟨.hbm, 166, rfl⟩
abbrev main_cst_25 : Ref sig .tc := ⟨.hbm, 167, rfl⟩
abbrev main_v115 : Ref sig .tc := ⟨.hbm, 168, rfl⟩
abbrev main_v116 : Ref sig .tc := ⟨.hbm, 169, rfl⟩
abbrev main_v117 : Ref sig .tc := ⟨.hbm, 170, rfl⟩
abbrev main_v118 : Ref sig .tc := ⟨.hbm, 171, rfl⟩
abbrev main_v119 : Ref sig .tc := ⟨.hbm, 172, rfl⟩
abbrev main_v120 : Ref sig .tc := ⟨.hbm, 173, rfl⟩
abbrev main_v121 : Ref sig .tc := ⟨.hbm, 174, rfl⟩
abbrev main_v122 : Ref sig .tc := ⟨.hbm, 175, rfl⟩
abbrev main_v123 : Ref sig .tc := ⟨.hbm, 176, rfl⟩
abbrev main_call4_v0 : Ref sig .tc := ⟨.hbm, 177, rfl⟩
abbrev main_call4_cst : Ref sig .tc := ⟨.hbm, 178, rfl⟩
abbrev main_call4_v1 : Ref sig .tc := ⟨.hbm, 179, rfl⟩
abbrev main_call4_v2 : Ref sig .tc := ⟨.hbm, 180, rfl⟩
abbrev main_v124 : Ref sig .tc := ⟨.hbm, 181, rfl⟩
abbrev main_cst_26 : Ref sig .tc := ⟨.hbm, 182, rfl⟩
abbrev main_v125 : Ref sig .tc := ⟨.hbm, 183, rfl⟩
abbrev main_v126 : Ref sig .tc := ⟨.hbm, 184, rfl⟩
abbrev main_v127 : Ref sig .tc := ⟨.hbm, 185, rfl⟩
abbrev main_v128 : Ref sig .tc := ⟨.hbm, 186, rfl⟩

abbrev nD : Nat := 1
abbrev τ : Topo := Topo.v7x

variable {F : FTy → Type} [FloatOps F]

class Facts₀ : Prop where
  slices_S2x3200000_S1x3200000_0_0 : S2x3200000.Slices ![0, 0] S1x3200000
  shapeCasts_S1x3200000_S3200000 : S1x3200000.ShapeCasts S3200000
  slices_S2x3200000_S1x3200000_1_0 : S2x3200000.Slices ![1, 0] S1x3200000
  bcast_S_S3200000 : S_.BroadcastsInDim S3200000 (![] : Fin 0 → Fin S3200000.rank)
  bcast_S3200000_S3200000x1_0 : S3200000.BroadcastsInDim S3200000x1 (![0] : Fin 1 → Fin S3200000x1.rank)
  bcast_S_S100000x3 : S_.BroadcastsInDim S100000x3 (![] : Fin 0 → Fin S100000x3.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x3_0_1 : S100000x1.BroadcastsInDim S100000x3 (![0, 1] : Fin 2 → Fin S100000x3.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S_S100000x64 : S_.BroadcastsInDim S100000x64 (![] : Fin 0 → Fin S100000x64.rank)
  bcast_S100000x1_S100000x64_0_1 : S100000x1.BroadcastsInDim S100000x64 (![0, 1] : Fin 2 → Fin S100000x64.rank)
  bcast_S_S128x64 : S_.BroadcastsInDim S128x64 (![] : Fin 0 → Fin S128x64.rank)
  bcast_S_S128 : S_.BroadcastsInDim S128 (![] : Fin 0 → Fin S128.rank)
  bcast_S128_S128x1_0 : S128.BroadcastsInDim S128x1 (![0] : Fin 1 → Fin S128x1.rank)
  bcast_S128x1_S128x64_0_1 : S128x1.BroadcastsInDim S128x64 (![0, 1] : Fin 2 → Fin S128x64.rank)
  bcast_S128_S1x128_1 : S128.BroadcastsInDim S1x128 (![1] : Fin 1 → Fin S1x128.rank)
  bcast_S1x128_S128x128_0_1 : S1x128.BroadcastsInDim S128x128 (![0, 1] : Fin 2 → Fin S128x128.rank)
  reducesTo_S128x128_S128_d1 : S128x128.ReducesTo [1] S128
  h_S_ : 0 < S_.numel
  bcast_S_S128x1 : S_.BroadcastsInDim S128x1 (![] : Fin 0 → Fin S128x1.rank)
  bcast_S128x1_S128x128_0_1 : S128x1.BroadcastsInDim S128x128 (![0, 1] : Fin 2 → Fin S128x128.rank)
  gather_S100000x3_S3200000x1_S3200000x3_1_0_n_n_0_1_13_wf : GatherDims.WF S100000x3 S3200000x1 S3200000x3 [1] [0] [] [0] [] 1 ![1, 3]
  scatter_S100000x3_S3200000x1_S3200000x3_1_0_0_1_wf : ScatterDims.WF S100000x3 S3200000x1 S3200000x3 [1] [0] [0] 1
  scatter_S100000_S3200000x1_S3200000_n_0_0_1_wf : ScatterDims.WF S100000 S3200000x1 S3200000 [] [0] [0] 1
  dot_S100000x3_S3x64_S100000x64_1_0_0_1_n_n_wf : DotDims.WF S100000x3 S3x64 S100000x64 [1] [0] [0] [1] [] []
  gather_S100000x64_S3200000x1_S3200000x64_1_0_n_n_0_1_164_wf : GatherDims.WF S100000x64 S3200000x1 S3200000x64 [1] [0] [] [0] [] 1 ![1, 64]
  scatter_S100000x64_S3200000x1_S3200000x64_1_0_0_1_wf : ScatterDims.WF S100000x64 S3200000x1 S3200000x64 [1] [0] [0] 1
  dot_S100000x64_S64x64_S100000x64_1_0_0_1_n_n_wf : DotDims.WF S100000x64 S64x64 S100000x64 [1] [0] [0] [1] [] []
  scatter_S128x64_S100000x1_S100000x64_1_0_0_1_wf : ScatterDims.WF S128x64 S100000x1 S100000x64 [1] [0] [0] 1
  scatter_S128_S100000x1_S100000_n_0_0_1_wf : ScatterDims.WF S128 S100000x1 S100000 [] [0] [0] 1
  dot_S128x64_S64x128_S128x128_1_0_0_1_n_n_wf : DotDims.WF S128x64 S64x128 S128x128 [1] [0] [0] [1] [] []

variable [Facts₀]

def gather_S100000x3_S3200000x1_S3200000x3_1_0_n_n_0_1_13 : GatherDims S100000x3 S3200000x1 S3200000x3 where
  offsetDims := [1]
  collapsedSliceDims := [0]
  operandBatchingDims := []
  startIndicesBatchingDims := []
  startIndexMap := [0]
  indexVectorDim := 1
  sliceSizes := ![1, 3]
  wf := gather_S100000x3_S3200000x1_S3200000x3_1_0_n_n_0_1_13_wf
def scatter_S100000x3_S3200000x1_S3200000x3_1_0_0_1 : ScatterDims S100000x3 S3200000x1 S3200000x3 where
  updateWindowDims := [1]
  insertedWindowDims := [0]
  scatterDimsToOperandDims := [0]
  indexVectorDim := 1
  wf := scatter_S100000x3_S3200000x1_S3200000x3_1_0_0_1_wf
def scatter_S100000_S3200000x1_S3200000_n_0_0_1 : ScatterDims S100000 S3200000x1 S3200000 where
  updateWindowDims := []
  insertedWindowDims := [0]
  scatterDimsToOperandDims := [0]
  indexVectorDim := 1
  wf := scatter_S100000_S3200000x1_S3200000_n_0_0_1_wf
def dot_S100000x3_S3x64_S100000x64_1_0_0_1_n_n : DotDims S100000x3 S3x64 S100000x64 where
  lhsContracting := [1]
  rhsContracting := [0]
  lhsNonContracting := [0]
  rhsNonContracting := [1]
  lhsBatch := []
  rhsBatch := []
  wf := dot_S100000x3_S3x64_S100000x64_1_0_0_1_n_n_wf
def gather_S100000x64_S3200000x1_S3200000x64_1_0_n_n_0_1_164 : GatherDims S100000x64 S3200000x1 S3200000x64 where
  offsetDims := [1]
  collapsedSliceDims := [0]
  operandBatchingDims := []
  startIndicesBatchingDims := []
  startIndexMap := [0]
  indexVectorDim := 1
  sliceSizes := ![1, 64]
  wf := gather_S100000x64_S3200000x1_S3200000x64_1_0_n_n_0_1_164_wf
def scatter_S100000x64_S3200000x1_S3200000x64_1_0_0_1 : ScatterDims S100000x64 S3200000x1 S3200000x64 where
  updateWindowDims := [1]
  insertedWindowDims := [0]
  scatterDimsToOperandDims := [0]
  indexVectorDim := 1
  wf := scatter_S100000x64_S3200000x1_S3200000x64_1_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def scatter_S128x64_S100000x1_S100000x64_1_0_0_1 : ScatterDims S128x64 S100000x1 S100000x64 where
  updateWindowDims := [1]
  insertedWindowDims := [0]
  scatterDimsToOperandDims := [0]
  indexVectorDim := 1
  wf := scatter_S128x64_S100000x1_S100000x64_1_0_0_1_wf
def scatter_S128_S100000x1_S100000_n_0_0_1 : ScatterDims S128 S100000x1 S100000 where
  updateWindowDims := []
  insertedWindowDims := [0]
  scatterDimsToOperandDims := [0]
  indexVectorDim := 1
  wf := scatter_S128_S100000x1_S100000_n_0_0_1_wf
def dot_S128x64_S64x128_S128x128_1_0_0_1_n_n : DotDims S128x64 S64x128 S128x128 where
  lhsContracting := [1]
  rhsContracting := [0]
  lhsNonContracting := [0]
  rhsNonContracting := [1]
  lhsBatch := []
  rhsBatch := []
  wf := dot_S128x64_S64x128_S128x128_1_0_0_1_n_n_wf

class Facts : Prop extends Facts₀ where

variable [Facts]
-- ==== Proof.KernelIdealSage0.lean ====
/-
  Region 0 of the program: one SAGE layer's linear stage on a tile of 4000 nodes. At grid point t the body reads
  the tile's rows of the neighbour sums, of the neighbour counts and of the layer's input, and the two weight
  matrices and the bias whole; it writes the tile's rows of the layer's output: relu (mean · Wl + x · Wr + b),
  the mean being the neighbour sum divided by max (count, 1). Here: what the body leaves in the output tile's buffer
  as a function of the blocks it read, the body's triple, the pipeline's proof data over the contents V the region is
  entered with, and the body obligation at every grid point.
-/
import proofs.«406495_j16578573763454_3_alg».proof.Proof.Gen.KernelIdeal.Launch
import proofs.«406495_j16578573763454_3_alg».proof.Proof.Gen.KernelIdeal.Skeleton
import proofs.«406495_j16578573763454_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Sage0

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

-- the block's index type and the array's contents type are compared at a symbolic window, through the seven windows' table
set_option maxHeartbeats 2000000 in
/-- Window w's block at grid point t, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, whether the point fetches it or the
    block index has not moved since the fetch: for any proof data whose array is V's and whose body leaves the
    block in place. One lemma per input window (the row tiles 0, 1, 2; the resident weights and bias 3, 4, 5). -/
theorem before_0_of {c : Dev nD} (dat : Dat τ (Elt F) Unit ℕ (UR sig nD τ) ℕ cfg0 c) (hA : dat.A 0 = V c (Pipeline.arrRef spec0 0))
    (hafter : ∀ t, dat.after 0 t = iblk V c 0 t) (t : Fin cfg0.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_1_of {c : Dev nD} (dat : Dat τ (Elt F) Unit ℕ (UR sig nD τ) ℕ cfg0 c) (hA : dat.A 1 = V c (Pipeline.arrRef spec0 1))
    (hafter : ∀ t, dat.after 1 t = iblk V c 1 t) (t : Fin cfg0.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before_2_of {c : Dev nD} (dat : Dat τ (Elt F) Unit ℕ (UR sig nD τ) ℕ cfg0 c) (hA : dat.A 2 = V c (Pipeline.arrRef spec0 2))
    (hafter : ∀ t, dat.after 2 t = iblk V c 2 t) (t : Fin cfg0.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before_3_of {c : Dev nD} (dat : Dat τ (Elt F) Unit ℕ (UR sig nD τ) ℕ cfg0 c) (hA : dat.A 3 = V c (Pipeline.arrRef spec0 3))
    (hafter : ∀ t, dat.after 3 t = iblk V c 3 t) (t : Fin cfg0.N) (d) : dat.before 3 t d = iblk V c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before_4_of {c : Dev nD} (dat : Dat τ (Elt F) Unit ℕ (UR sig nD τ) ℕ cfg0 c) (hA : dat.A 4 = V c (Pipeline.arrRef spec0 4))
    (hafter : ∀ t, dat.after 4 t = iblk V c 4 t) (t : Fin cfg0.N) (d) : dat.before 4 t d = iblk V c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before_5_of {c : Dev nD} (dat : Dat τ (Elt F) Unit ℕ (UR sig nD τ) ℕ cfg0 c) (hA : dat.A 5 = V c (Pipeline.arrRef spec0 5))
    (hafter : ∀ t, dat.after 5 t = iblk V c 5 t) (t : Fin cfg0.N) (d) : dat.before 5 t d = iblk V c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

/-- The offsets of every rectangle the body loads or stores through: zero on both axes. -/
theorem hz2 : (![0, 0] : Fin 2 → ℕ) = fun _ => 0 := by funext a; fin_cases a <;> rfl

/-- The one rectangle the body stores through: the whole output tile. -/
abbrev rOut : Rect S4000x64 := Rect.unit (s := S4000x64) ![0, 0] S4000x64.size inb_S4000x64_S4000x64_0_0

/-- The output tile's buffer after the body, from the blocks it read: the layer's payload of the neighbour sums,
    the counts, the input rows, the two weight matrices and the bias, stored whole. -/
def outTile (xagg : Vec F S4000x3 .f32) (xcnt : Vec F S4000x1 .f32) (xin : Vec F S4000x3 .f32) (xwl : Vec F S3x64 .f32) (xbl : Vec F S1x64 .f32) (xwr : Vec F S3x64 .f32) : Vec F S4000x64 .f32 :=
  View.canon [⟨rOut, k0_pay1 xcnt xagg xin xwl xwr xbl⟩]

/-- The single store tiles the buffer, so it covers it. -/
theorem coverOut (p0 : Vec F S4000x64 .f32) (y : S4000x64.Idx) :
    ∃ pc ∈ ([⟨rOut, p0⟩] : List (View.Piece (Elt F) S4000x64 .f32)), y ∈ pc.1.set :=
  View.cover_of_tiled [⟨rOut, p0⟩] S4000x64.size (by rfl) y

set_option maxHeartbeats 4000000 in
/-- The kernel body on whole staging memrefs, the six inputs' at read contents and the output's at anything, runs to
    the continuation holding the inputs' as they were and the output's at outTile of them. -/
theorem sound_kernel (c : Dev nD) (E : Set ℕ) (i : grid0.Coords)
    (arg1 : Memref sig .tc .vmem S4000x3 .f32) (harg1 : arg1.IsWhole) (arg2 : Memref sig .tc .vmem S4000x1 .f32) (harg2 : arg2.IsWhole)
    (arg3 : Memref sig .tc .vmem S4000x3 .f32) (harg3 : arg3.IsWhole) (arg4 : Memref sig .tc .vmem S3x64 .f32) (harg4 : arg4.IsWhole)
    (arg5 : Memref sig .tc .vmem S1x64 .f32) (harg5 : arg5.IsWhole) (arg6 : Memref sig .tc .vmem S3x64 .f32) (harg6 : arg6.IsWhole)
    (arg7 : Memref sig .tc .vmem S4000x64 .f32) (harg7 : arg7.IsWhole)
    (xagg : Vec F S4000x3 .f32) (xcnt : Vec F S4000x1 .f32) (xin : Vec F S4000x3 .f32) (xwl : Vec F S3x64 .f32) (xbl : Vec F S1x64 .f32) (xwr : Vec F S3x64 .f32)
    (K : PUnit → sProp 𝕄) :
    iprop(owns (c : Thread nD τ) arg1 fullShare xagg ∗ owns (c : Thread nD τ) arg2 fullShare xcnt ∗ owns (c : Thread nD τ) arg3 fullShare xin
        ∗ owns (c : Thread nD τ) arg4 fullShare xwl ∗ owns (c : Thread nD τ) arg5 fullShare xbl ∗ owns (c : Thread nD τ) arg6 fullShare xwr
        ∗ (∃ d, owns (c : Thread nD τ) arg7 fullShare d)
        ∗ (iprop(owns (c : Thread nD τ) arg1 fullShare xagg ∗ owns (c : Thread nD τ) arg2 fullShare xcnt ∗ owns (c : Thread nD τ) arg3 fullShare xin
            ∗ owns (c : Thread nD τ) arg4 fullShare xwl ∗ owns (c : Thread nD τ) arg5 fullShare xbl ∗ owns (c : Thread nD τ) arg6 fullShare xwr
            ∗ owns (c : Thread nD τ) arg7 fullShare (outTile xagg xcnt xin xwl xbl xwr)) -∗ K ⟨⟩))
      ⊢ wp frame (wpE (defs₀ (F := F)) Variants.none c none) E (cc0__sage_linear_kernel i arg1 harg1 arg2 harg2 arg3 harg3 arg4 harg4 arg5 harg5 arg6 harg6 arg7 harg7) K := by
  simp only [cc0__sage_linear_kernel_eq_skeleton]; unfold cc0__sage_linear_kernel_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf1; subst hf2; subst hf3; subst hf4; subst hf5; subst hf6
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  rw [View.read_writes_eq_canon _ _ _ (coverOut (F := F) _)]
  unfold outTile
  simp only [View.readAt_eq_ld, View.ld_unit_zero (S := S4000x1) hz2, View.ld_unit_zero (S := S4000x3) hz2,
    View.ld_unit_zero (S := S3x64) hz2, View.ld_unit_zero (S := S1x64) hz2] <;> rfl

/-- The proof data of the region's pipeline on core c: the arrays as the region finds them; after the body at point
    t each input's buffer at its block and the output's at outTile of the input blocks; the invariant the scoped rest
    and the generator register, untouched; nothing owed; full shares. -/
def dat (c : Dev nD) : Dat τ (Elt F) Unit ℕ (UR sig nD τ) ℕ cfg0 c where
  A w := V c (Pipeline.arrRef spec0 w)
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => iblk V c 5 t
    | ⟨6, _⟩ => outTile (iblk V c 0 t) (iblk V c 1 t) (iblk V c 2 t) (iblk V c 3 t) (iblk V c 4 t) (iblk V c 5 t)
  Φ _ := Pipeline.ΦA spec0 c
  q _ := fullShare
  owed _ := 0

theorem A_eq (c : Dev nD) (w : Fin cfg0.W) : (dat V c).A w = V c (Pipeline.arrRef spec0 w) := by
  dsimp only [dat]

theorem after_0 (c : Dev nD) (t : Fin cfg0.N) : (dat V c).after 0 t = iblk V c 0 t := by dsimp only [dat]
theorem after_1 (c : Dev nD) (t : Fin cfg0.N) : (dat V c).after 1 t = iblk V c 1 t := by dsimp only [dat]
theorem after_2 (c : Dev nD) (t : Fin cfg0.N) : (dat V c).after 2 t = iblk V c 2 t := by dsimp only [dat]
theorem after_3 (c : Dev nD) (t : Fin cfg0.N) : (dat V c).after 3 t = iblk V c 3 t := by dsimp only [dat]
theorem after_4 (c : Dev nD) (t : Fin cfg0.N) : (dat V c).after 4 t = iblk V c 4 t := by dsimp only [dat]
theorem after_5 (c : Dev nD) (t : Fin cfg0.N) : (dat V c).after 5 t = iblk V c 5 t := by dsimp only [dat]
theorem after_6 (c : Dev nD) (t : Fin cfg0.N) : (dat V c).after 6 t
    = outTile (iblk V c 0 t) (iblk V c 1 t) (iblk V c 2 t) (iblk V c 3 t) (iblk V c 4 t) (iblk V c 5 t) := by dsimp only [dat]

theorem before_0 (c : Dev nD) (t : Fin cfg0.N) (d) : (dat V c).before 0 t d = iblk V c 0 t := before_0_of V (dat V c) (A_eq V c 0) (after_0 V c) t d
theorem before_1 (c : Dev nD) (t : Fin cfg0.N) (d) : (dat V c).before 1 t d = iblk V c 1 t := before_1_of V (dat V c) (A_eq V c 1) (after_1 V c) t d
theorem before_2 (c : Dev nD) (t : Fin cfg0.N) (d) : (dat V c).before 2 t d = iblk V c 2 t := before_2_of V (dat V c) (A_eq V c 2) (after_2 V c) t d
theorem before_3 (c : Dev nD) (t : Fin cfg0.N) (d) : (dat V c).before 3 t d = iblk V c 3 t := before_3_of V (dat V c) (A_eq V c 3) (after_3 V c) t d
theorem before_4 (c : Dev nD) (t : Fin cfg0.N) (d) : (dat V c).before 4 t d = iblk V c 4 t := before_4_of V (dat V c) (A_eq V c 4) (after_4 V c) t d
theorem before_5 (c : Dev nD) (t : Fin cfg0.N) (d) : (dat V c).before 5 t d = iblk V c 5 t := before_5_of V (dat V c) (A_eq V c 5) (after_5 V c) t d

/-- What the body is called with at point t, the windows one by one, -/
def bodyPre (c : Dev nD) (t : Fin cfg0.N) : sProp 𝕄 :=
  iprop((dat V c).Φ t.castSucc ∗ (dat V c).owesAt () t.castSucc
    ∗ (∃ d, owns (c : Thread nD τ) (st0_0 t) fullShare ((dat V c).before 0 t d))
    ∗ (∃ d, owns (c : Thread nD τ) (st0_1 t) fullShare ((dat V c).before 1 t d))
    ∗ (∃ d, owns (c : Thread nD τ) (st0_2 t) fullShare ((dat V c).before 2 t d))
    ∗ (∃ d, owns (c : Thread nD τ) (st0_3 t) fullShare ((dat V c).before 3 t d))
    ∗ (∃ d, owns (c : Thread nD τ) (st0_4 t) fullShare ((dat V c).before 4 t d))
    ∗ (∃ d, owns (c : Thread nD τ) (st0_5 t) fullShare ((dat V c).before 5 t d))
    ∗ (∃ d, owns (c : Thread nD τ) (st0_6 t) fullShare ((dat V c).before 6 t d)))

/-- and what it returns. -/
def bodyPost (c : Dev nD) (t : Fin cfg0.N) : sProp 𝕄 :=
  iprop((dat V c).Φ t.succ ∗ (dat V c).owesAt () t.succ
    ∗ owns (c : Thread nD τ) (st0_0 t) fullShare ((dat V c).after 0 t)
    ∗ owns (c : Thread nD τ) (st0_1 t) fullShare ((dat V c).after 1 t)
    ∗ owns (c : Thread nD τ) (st0_2 t) fullShare ((dat V c).after 2 t)
    ∗ owns (c : Thread nD τ) (st0_3 t) fullShare ((dat V c).after 3 t)
    ∗ owns (c : Thread nD τ) (st0_4 t) fullShare ((dat V c).after 4 t)
    ∗ owns (c : Thread nD τ) (st0_5 t) fullShare ((dat V c).after 5 t)
    ∗ owns (c : Thread nD τ) (st0_6 t) fullShare ((dat V c).after 6 t))

/-- The body at any point: the inputs' memrefs hold their blocks, so the body's triple applies; the invariant and
    the core's dues pass through unread. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before_0, before_1, before_2, before_3, before_4, before_5]
  rw [show (dat V c).Φ t.succ = (dat V c).Φ t.castSucc from rfl,
    show (dat V c).owesAt () t.succ = (dat V c).owesAt () t.castSucc from rfl,
    after_0, after_1, after_2, after_3, after_4, after_5, after_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel c Set.univ _ _ _ _ _ _ _ _ _ _ _ _ _ _ _ (iblk V c 0 t) (iblk V c 1 t) (iblk V c 2 t) (iblk V c 3 t) (iblk V c 4 t) (iblk V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The library's body obligation, at every point. -/
theorem body_obligation (c : Dev nD) : BodyObligation (dat (F := F) V c) (defs₀ (F := F)) Variants.none () Set.univ := fun t => by
  rw [bigSep_W0, bigSep_W0]
  exact sound_body V c t

end Cert.KernelIdeal.Sage0

end
-- ==== Proof.KernelIdealSage1.lean ====
/-
  Region 1 of the program: one SAGE layer's linear stage on a tile of 4000 nodes. At grid point t the body reads
  the tile's rows of the neighbour sums, of the neighbour counts and of the layer's input, and the two weight
  matrices and the bias whole; it writes the tile's rows of the layer's output: relu (mean · Wl + x · Wr + b),
  the mean being the neighbour sum divided by max (count, 1). Here: what the body leaves in the output tile's buffer
  as a function of the blocks it read, the body's triple, the pipeline's proof data over the contents V the region is
  entered with, and the body obligation at every grid point.
-/
import proofs.«406495_j16578573763454_3_alg».proof.Proof.Gen.KernelIdeal.Launch
import proofs.«406495_j16578573763454_3_alg».proof.Proof.Gen.KernelIdeal.Skeleton
import proofs.«406495_j16578573763454_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Sage1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

-- the block's index type and the array's contents type are compared at a symbolic window, through the seven windows' table
set_option maxHeartbeats 2000000 in
/-- Window w's block at grid point t, read off its array as the region finds it. -/
def iblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, whether the point fetches it or the
    block index has not moved since the fetch: for any proof data whose array is V's and whose body leaves the
    block in place. One lemma per input window (the row tiles 0, 1, 2; the resident weights and bias 3, 4, 5). -/
theorem before_0_of {c : Dev nD} (dat : Dat τ (Elt F) Unit ℕ (UR sig nD τ) ℕ cfg1 c) (hA : dat.A 0 = V c (Pipeline.arrRef spec1 0))
    (hafter : ∀ t, dat.after 0 t = iblk V c 0 t) (t : Fin cfg1.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_1_of {c : Dev nD} (dat : Dat τ (Elt F) Unit ℕ (UR sig nD τ) ℕ cfg1 c) (hA : dat.A 1 = V c (Pipeline.arrRef spec1 1))
    (hafter : ∀ t, dat.after 1 t = iblk V c 1 t) (t : Fin cfg1.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before_2_of {c : Dev nD} (dat : Dat τ (Elt F) Unit ℕ (UR sig nD τ) ℕ cfg1 c) (hA : dat.A 2 = V c (Pipeline.arrRef spec1 2))
    (hafter : ∀ t, dat.after 2 t = iblk V c 2 t) (t : Fin cfg1.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before_3_of {c : Dev nD} (dat : Dat τ (Elt F) Unit ℕ (UR sig nD τ) ℕ cfg1 c) (hA : dat.A 3 = V c (Pipeline.arrRef spec1 3))
    (hafter : ∀ t, dat.after 3 t = iblk V c 3 t) (t : Fin cfg1.N) (d) : dat.before 3 t d = iblk V c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before_4_of {c : Dev nD} (dat : Dat τ (Elt F) Unit ℕ (UR sig nD τ) ℕ cfg1 c) (hA : dat.A 4 = V c (Pipeline.arrRef spec1 4))
    (hafter : ∀ t, dat.after 4 t = iblk V c 4 t) (t : Fin cfg1.N) (d) : dat.before 4 t d = iblk V c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before_5_of {c : Dev nD} (dat : Dat τ (Elt F) Unit ℕ (UR sig nD τ) ℕ cfg1 c) (hA : dat.A 5 = V c (Pipeline.arrRef spec1 5))
    (hafter : ∀ t, dat.after 5 t = iblk V c 5 t) (t : Fin cfg1.N) (d) : dat.before 5 t d = iblk V c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

/-- The offsets of every rectangle the body loads or stores through: zero on both axes. -/
theorem hz2 : (![0, 0] : Fin 2 → ℕ) = fun _ => 0 := by funext a; fin_cases a <;> rfl

/-- The one rectangle the body stores through: the whole output tile. -/
abbrev rOut : Rect S4000x64 := Rect.unit (s := S4000x64) ![0, 0] S4000x64.size inb_S4000x64_S4000x64_0_0

/-- The output tile's buffer after the body, from the blocks it read: the layer's payload of the neighbour sums,
    the counts, the input rows, the two weight matrices and the bias, stored whole. -/
def outTile (xagg : Vec F S4000x64 .f32) (xcnt : Vec F S4000x1 .f32) (xin : Vec F S4000x64 .f32) (xwl : Vec F S64x64 .f32) (xbl : Vec F S1x64 .f32) (xwr : Vec F S64x64 .f32) : Vec F S4000x64 .f32 :=
  View.canon [⟨rOut, k1_pay1 xcnt xagg xin xwl xwr xbl⟩]

/-- The single store tiles the buffer, so it covers it. -/
theorem coverOut (p0 : Vec F S4000x64 .f32) (y : S4000x64.Idx) :
    ∃ pc ∈ ([⟨rOut, p0⟩] : List (View.Piece (Elt F) S4000x64 .f32)), y ∈ pc.1.set :=
  View.cover_of_tiled [⟨rOut, p0⟩] S4000x64.size (by rfl) y

set_option maxHeartbeats 4000000 in
/-- The kernel body on whole staging memrefs, the six inputs' at read contents and the output's at anything, runs to
    the continuation holding the inputs' as they were and the output's at outTile of them. -/
theorem sound_kernel (c : Dev nD) (E : Set ℕ) (i : grid1.Coords)
    (arg1 : Memref sig .tc .vmem S4000x64 .f32) (harg1 : arg1.IsWhole) (arg2 : Memref sig .tc .vmem S4000x1 .f32) (harg2 : arg2.IsWhole)
    (arg3 : Memref sig .tc .vmem S4000x64 .f32) (harg3 : arg3.IsWhole) (arg4 : Memref sig .tc .vmem S64x64 .f32) (harg4 : arg4.IsWhole)
    (arg5 : Memref sig .tc .vmem S1x64 .f32) (harg5 : arg5.IsWhole) (arg6 : Memref sig .tc .vmem S64x64 .f32) (harg6 : arg6.IsWhole)
    (arg7 : Memref sig .tc .vmem S4000x64 .f32) (harg7 : arg7.IsWhole)
    (xagg : Vec F S4000x64 .f32) (xcnt : Vec F S4000x1 .f32) (xin : Vec F S4000x64 .f32) (xwl : Vec F S64x64 .f32) (xbl : Vec F S1x64 .f32) (xwr : Vec F S64x64 .f32)
    (K : PUnit → sProp 𝕄) :
    iprop(owns (c : Thread nD τ) arg1 fullShare xagg ∗ owns (c : Thread nD τ) arg2 fullShare xcnt ∗ owns (c : Thread nD τ) arg3 fullShare xin
        ∗ owns (c : Thread nD τ) arg4 fullShare xwl ∗ owns (c : Thread nD τ) arg5 fullShare xbl ∗ owns (c : Thread nD τ) arg6 fullShare xwr
        ∗ (∃ d, owns (c : Thread nD τ) arg7 fullShare d)
        ∗ (iprop(owns (c : Thread nD τ) arg1 fullShare xagg ∗ owns (c : Thread nD τ) arg2 fullShare xcnt ∗ owns (c : Thread nD τ) arg3 fullShare xin
            ∗ owns (c : Thread nD τ) arg4 fullShare xwl ∗ owns (c : Thread nD τ) arg5 fullShare xbl ∗ owns (c : Thread nD τ) arg6 fullShare xwr
            ∗ owns (c : Thread nD τ) arg7 fullShare (outTile xagg xcnt xin xwl xbl xwr)) -∗ K ⟨⟩))
      ⊢ wp frame (wpE (defs₀ (F := F)) Variants.none c none) E (cc1__sage_linear_kernel i arg1 harg1 arg2 harg2 arg3 harg3 arg4 harg4 arg5 harg5 arg6 harg6 arg7 harg7) K := by
  simp only [cc1__sage_linear_kernel_eq_skeleton]; unfold cc1__sage_linear_kernel_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf1; subst hf2; subst hf3; subst hf4; subst hf5; subst hf6
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  rw [View.read_writes_eq_canon _ _ _ (coverOut (F := F) _)]
  unfold outTile
  simp only [View.readAt_eq_ld, View.ld_unit_zero (S := S4000x1) hz2, View.ld_unit_zero (S := S4000x64) hz2,
    View.ld_unit_zero (S := S64x64) hz2, View.ld_unit_zero (S := S1x64) hz2] <;> rfl

/-- The proof data of the region's pipeline on core c: the arrays as the region finds them; after the body at point
    t each input's buffer at its block and the output's at outTile of the input blocks; the invariant the scoped rest
    and the generator register, untouched; nothing owed; full shares. -/
def dat (c : Dev nD) : Dat τ (Elt F) Unit ℕ (UR sig nD τ) ℕ cfg1 c where
  A w := V c (Pipeline.arrRef spec1 w)
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => iblk V c 5 t
    | ⟨6, _⟩ => outTile (iblk V c 0 t) (iblk V c 1 t) (iblk V c 2 t) (iblk V c 3 t) (iblk V c 4 t) (iblk V c 5 t)
  Φ _ := Pipeline.ΦA spec1 c
  q _ := fullShare
  owed _ := 0

theorem A_eq (c : Dev nD) (w : Fin cfg1.W) : (dat V c).A w = V c (Pipeline.arrRef spec1 w) := by
  dsimp only [dat]

theorem after_0 (c : Dev nD) (t : Fin cfg1.N) : (dat V c).after 0 t = iblk V c 0 t := by dsimp only [dat]
theorem after_1 (c : Dev nD) (t : Fin cfg1.N) : (dat V c).after 1 t = iblk V c 1 t := by dsimp only [dat]
theorem after_2 (c : Dev nD) (t : Fin cfg1.N) : (dat V c).after 2 t = iblk V c 2 t := by dsimp only [dat]
theorem after_3 (c : Dev nD) (t : Fin cfg1.N) : (dat V c).after 3 t = iblk V c 3 t := by dsimp only [dat]
theorem after_4 (c : Dev nD) (t : Fin cfg1.N) : (dat V c).after 4 t = iblk V c 4 t := by dsimp only [dat]
theorem after_5 (c : Dev nD) (t : Fin cfg1.N) : (dat V c).after 5 t = iblk V c 5 t := by dsimp only [dat]
theorem after_6 (c : Dev nD) (t : Fin cfg1.N) : (dat V c).after 6 t
    = outTile (iblk V c 0 t) (iblk V c 1 t) (iblk V c 2 t) (iblk V c 3 t) (iblk V c 4 t) (iblk V c 5 t) := by dsimp only [dat]

theorem before_0 (c : Dev nD) (t : Fin cfg1.N) (d) : (dat V c).before 0 t d = iblk V c 0 t := before_0_of V (dat V c) (A_eq V c 0) (after_0 V c) t d
theorem before_1 (c : Dev nD) (t : Fin cfg1.N) (d) : (dat V c).before 1 t d = iblk V c 1 t := before_1_of V (dat V c) (A_eq V c 1) (after_1 V c) t d
theorem before_2 (c : Dev nD) (t : Fin cfg1.N) (d) : (dat V c).before 2 t d = iblk V c 2 t := before_2_of V (dat V c) (A_eq V c 2) (after_2 V c) t d
theorem before_3 (c : Dev nD) (t : Fin cfg1.N) (d) : (dat V c).before 3 t d = iblk V c 3 t := before_3_of V (dat V c) (A_eq V c 3) (after_3 V c) t d
theorem before_4 (c : Dev nD) (t : Fin cfg1.N) (d) : (dat V c).before 4 t d = iblk V c 4 t := before_4_of V (dat V c) (A_eq V c 4) (after_4 V c) t d
theorem before_5 (c : Dev nD) (t : Fin cfg1.N) (d) : (dat V c).before 5 t d = iblk V c 5 t := before_5_of V (dat V c) (A_eq V c 5) (after_5 V c) t d

/-- What the body is called with at point t, the windows one by one, -/
def bodyPre (c : Dev nD) (t : Fin cfg1.N) : sProp 𝕄 :=
  iprop((dat V c).Φ t.castSucc ∗ (dat V c).owesAt () t.castSucc
    ∗ (∃ d, owns (c : Thread nD τ) (st1_0 t) fullShare ((dat V c).before 0 t d))
    ∗ (∃ d, owns (c : Thread nD τ) (st1_1 t) fullShare ((dat V c).before 1 t d))
    ∗ (∃ d, owns (c : Thread nD τ) (st1_2 t) fullShare ((dat V c).before 2 t d))
    ∗ (∃ d, owns (c : Thread nD τ) (st1_3 t) fullShare ((dat V c).before 3 t d))
    ∗ (∃ d, owns (c : Thread nD τ) (st1_4 t) fullShare ((dat V c).before 4 t d))
    ∗ (∃ d, owns (c : Thread nD τ) (st1_5 t) fullShare ((dat V c).before 5 t d))
    ∗ (∃ d, owns (c : Thread nD τ) (st1_6 t) fullShare ((dat V c).before 6 t d)))

/-- and what it returns. -/
def bodyPost (c : Dev nD) (t : Fin cfg1.N) : sProp 𝕄 :=
  iprop((dat V c).Φ t.succ ∗ (dat V c).owesAt () t.succ
    ∗ owns (c : Thread nD τ) (st1_0 t) fullShare ((dat V c).after 0 t)
    ∗ owns (c : Thread nD τ) (st1_1 t) fullShare ((dat V c).after 1 t)
    ∗ owns (c : Thread nD τ) (st1_2 t) fullShare ((dat V c).after 2 t)
    ∗ owns (c : Thread nD τ) (st1_3 t) fullShare ((dat V c).after 3 t)
    ∗ owns (c : Thread nD τ) (st1_4 t) fullShare ((dat V c).after 4 t)
    ∗ owns (c : Thread nD τ) (st1_5 t) fullShare ((dat V c).after 5 t)
    ∗ owns (c : Thread nD τ) (st1_6 t) fullShare ((dat V c).after 6 t))

/-- The body at any point: the inputs' memrefs hold their blocks, so the body's triple applies; the invariant and
    the core's dues pass through unread. -/
theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before_0, before_1, before_2, before_3, before_4, before_5]
  rw [show (dat V c).Φ t.succ = (dat V c).Φ t.castSucc from rfl,
    show (dat V c).owesAt () t.succ = (dat V c).owesAt () t.castSucc from rfl,
    after_0, after_1, after_2, after_3, after_4, after_5, after_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel c Set.univ _ _ _ _ _ _ _ _ _ _ _ _ _ _ _ (iblk V c 0 t) (iblk V c 1 t) (iblk V c 2 t) (iblk V c 3 t) (iblk V c 4 t) (iblk V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The library's body obligation, at every point. -/
theorem body_obligation (c : Dev nD) : BodyObligation (dat (F := F) V c) (defs₀ (F := F)) Variants.none () Set.univ := fun t => by
  rw [bigSep_W1, bigSep_W1]
  exact sound_body V c t

end Cert.KernelIdeal.Sage1

end
-- ==== Proof.KernelIdealPool.lean ====
/-
  Region 4 of the program: global mean pooling by graph, a linear layer and L2 normalisation, over 25 tiles of
  4000 nodes. At grid point t the body reads the tile's rows of the node features h and the tile's graph ids; it
  keeps two running accumulators in scratch, the per-graph sums of h (128 graphs by 64 features) and the per-graph
  node counts (1 by 128), both zeroed at point 0 and updated at every point: sums += onehot(ids)ᵀ · h,
  counts += column sums of onehot(ids). At the last point 24 it divides the sums by max (count, 1), multiplies by the
  weight matrix, adds the bias, divides each row by max (its Euclidean norm, 1e-12) and stores that whole into the output
  block, which is written back at that point only. Here: what the two accumulators hold after each point as a
  recursion over the point, what the last point stores, the body's triple in each of the three control cases
  (first point, middle points, last point), the pipeline's proof data over the contents V the region is entered
  with, and the body obligation at every grid point.
-/
import proofs.«406495_j16578573763454_3_alg».proof.Proof.Gen.KernelIdeal.Launch
import proofs.«406495_j16578573763454_3_alg».proof.Proof.Gen.KernelIdeal.Skeleton
import proofs.«406495_j16578573763454_3_alg».proof.Proof.Gen.KernelIdeal.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Pool

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-- Window w's block at grid point t, read off its array as the region finds it. -/
def iblk (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-! ## The accumulation -/

/-- What the two accumulators hold after the body at point n: the per-graph sums and the per-graph counts, each the
    point's update of what the point before left, from zeros at point 0. -/
def accAt (c : Dev nD) : (n : ℕ) → n < cfg4.N → Vec F S128x64 .f32 × Vec F S1x128 .f32
  | 0, h0 => (k4_pay4 (iblk V c 1 ⟨0, h0⟩) (iblk V c 0 ⟨0, h0⟩) k4_pay1, k4_pay5 (iblk V c 1 ⟨0, h0⟩) k4_pay2)
  | n + 1, hn => (k4_pay4 (iblk V c 1 ⟨n + 1, hn⟩) (iblk V c 0 ⟨n + 1, hn⟩) (accAt c n (Nat.lt_of_succ_lt hn)).1,
      k4_pay5 (iblk V c 1 ⟨n + 1, hn⟩) (accAt c n (Nat.lt_of_succ_lt hn)).2)

theorem accAt_zero (c : Dev nD) (h0 : 0 < cfg4.N) :
    accAt V c 0 h0 = (k4_pay4 (iblk V c 1 ⟨0, h0⟩) (iblk V c 0 ⟨0, h0⟩) k4_pay1, k4_pay5 (iblk V c 1 ⟨0, h0⟩) k4_pay2) := rfl

theorem accAt_succ (c : Dev nD) (n : ℕ) (hn : n + 1 < cfg4.N) :
    accAt V c (n + 1) hn = (k4_pay4 (iblk V c 1 ⟨n + 1, hn⟩) (iblk V c 0 ⟨n + 1, hn⟩) (accAt V c n (Nat.lt_of_succ_lt hn)).1,
      k4_pay5 (iblk V c 1 ⟨n + 1, hn⟩) (accAt V c n (Nat.lt_of_succ_lt hn)).2) := rfl

/-- The grid has a point 24, its last. -/
theorem lt24 : 24 < cfg4.N := by rw [show cfg4.N = 25 from N_4]; omega

/-- What the last point stores into the output block: the normalised linear layer of the per-graph means, from the
    accumulators after point 24 and the resident weight matrix and bias. -/
def outLast (c : Dev nD) : Vec F S128x128 .f32 :=
  k4_pay6 (accAt V c 24 lt24).2 (accAt V c 24 lt24).1 (iblk V c 2 ⟨24, lt24⟩) (iblk V c 3 ⟨24, lt24⟩)

theorem outLast_eq (c : Dev nD) (h24 : 24 < cfg4.N) :
    outLast V c = k4_pay6 (accAt V c 24 h24).2 (accAt V c 24 h24).1 (iblk V c 2 ⟨24, h24⟩) (iblk V c 3 ⟨24, h24⟩) := rfl

/-- The accumulators after the first point, stated at the point. -/
theorem accAt_first (c : Dev nD) (t : Fin cfg4.N) (h0 : t.val = 0) :
    accAt V c t.val t.isLt = (k4_pay4 (iblk V c 1 t) (iblk V c 0 t) k4_pay1, k4_pay5 (iblk V c 1 t) k4_pay2) := by
  obtain ⟨n, hn⟩ := t
  cases n with
  | zero => rfl
  | succ n => exact absurd h0 (Nat.succ_ne_zero n)

/-- The accumulators after a later point, stated at the point: the update of what the point before left. -/
theorem accAt_pos (c : Dev nD) (t : Fin cfg4.N) (h0 : t.val ≠ 0) :
    accAt V c t.val t.isLt = (k4_pay4 (iblk V c 1 t) (iblk V c 0 t) (accAt V c (t.val - 1) (Nat.lt_of_le_of_lt (Nat.sub_le _ _) t.isLt)).1,
      k4_pay5 (iblk V c 1 t) (accAt V c (t.val - 1) (Nat.lt_of_le_of_lt (Nat.sub_le _ _) t.isLt)).2) := by
  obtain ⟨n, hn⟩ := t
  cases n with
  | zero => exact absurd rfl h0
  | succ n => rfl

/-- What the last point stores, stated at the point. -/
theorem outLast_at (c : Dev nD) (t : Fin cfg4.N) (h : t.val = 24) :
    outLast V c = k4_pay6 (accAt V c t.val t.isLt).2 (accAt V c t.val t.isLt).1 (iblk V c 2 t) (iblk V c 3 t) := by
  obtain ⟨n, hn⟩ := t
  dsimp only at h
  subst h
  rfl

/-! ## The scratch operands and the invariant -/

/-- The two scratch operands: whole scoped buffers of the kernel's own, passed beside the windows. -/
abbrev scM0 : Memref sig .tc .vmem S128x64 .f32 := Memref.whole cc4_scratch0
abbrev scM1 : Memref sig .tc .vmem S1x128 .f32 := Memref.whole cc4_scratch1

/-- The rest of the core's scoped buffers, beside the two accumulators: unopened. -/
abbrev restBut (c : Dev nD) : sProp 𝕄 :=
  Pipeline.scopedRestBut (Ix := Unit) (Name := ℕ) (U := UR sig nD τ) (Lvl := ℕ) (Val := Elt F) spec4 c [cc4_scratch0, cc4_scratch1]

/-- The class's invariant with the two accumulators as memrefs owned at some contents. -/
theorem PhiA4_eq (c : Dev nD) :
    (Pipeline.ΦA spec4 c : sProp 𝕄)
      = iprop(iprop(iprop((∃ d, owns (c : Thread nD τ) scM0 fullShare d) ∗ (∃ d, owns (c : Thread nD τ) scM1 fullShare d)) ∗ restBut (F := F) c) ∗ (∃ r, prngReg c r)) := by
  unfold Pipeline.ΦA; rw [scopedRest4_split]; simp only [scM0, scM1, owns_whole]; try rfl

/-- The region invariant before position n: before the first point the class's plain invariant (the accumulators at
    anything); afterwards the accumulators at what the point before left in them, the rest of the scoped buffers
    unopened and the generator register at some state. -/
def PhiS (c : Dev nD) : (n : ℕ) → n ≤ cfg4.N → sProp 𝕄
  | 0, _ => Pipeline.ΦA spec4 c
  | n + 1, hn => iprop(iprop(iprop(owns (c : Thread nD τ) scM0 fullShare (accAt V c n hn).1 ∗ owns (c : Thread nD τ) scM1 fullShare (accAt V c n hn).2) ∗ restBut (F := F) c) ∗ (∃ r, prngReg c r))

theorem PhiS_zero (c : Dev nD) (n : ℕ) (h : n ≤ cfg4.N) (hz : n = 0) : PhiS V c n h = Pipeline.ΦA spec4 c := by
  subst hz; rfl

theorem PhiS_succ (c : Dev nD) (n : ℕ) (hn : n < cfg4.N) :
    PhiS V c (n + 1) hn = iprop(iprop(iprop(owns (c : Thread nD τ) scM0 fullShare (accAt V c n hn).1 ∗ owns (c : Thread nD τ) scM1 fullShare (accAt V c n hn).2) ∗ restBut (F := F) c) ∗ (∃ r, prngReg c r)) := rfl

theorem PhiS_pos (c : Dev nD) (n : ℕ) (h : n ≤ cfg4.N) (hz : n ≠ 0) :
    PhiS V c n h = iprop(iprop(iprop(owns (c : Thread nD τ) scM0 fullShare (accAt V c (n - 1) (by omega)).1 ∗ owns (c : Thread nD τ) scM1 fullShare (accAt V c (n - 1) (by omega)).2) ∗ restBut (F := F) c) ∗ (∃ r, prngReg c r)) := by
  cases n with
  | zero => exact absurd rfl hz
  | succ n => rfl

/-! ## The pipeline's proof data -/

/-- The proof data of the region's pipeline on core c: the arrays as the region finds them; after the body at point
    t each input's buffer at its block, the output's at what the last point stores (consulted at the last point only:
    elsewhere the window is idle and not written back); the invariant PhiS; nothing owed; full shares. -/
def dat (c : Dev nD) : Dat τ (Elt F) Unit ℕ (UR sig nD τ) ℕ cfg4 c where
  A w := V c (Pipeline.arrRef spec4 w)
  after w t := match w with
    | ⟨0, _⟩ => iblk V c 0 t
    | ⟨1, _⟩ => iblk V c 1 t
    | ⟨2, _⟩ => iblk V c 2 t
    | ⟨3, _⟩ => iblk V c 3 t
    | ⟨4, _⟩ => outLast V c
  Φ t := PhiS V c t.val (Nat.le_of_lt_succ t.isLt)
  q _ := fullShare
  owed _ := 0

theorem A_eq (c : Dev nD) (w : Fin cfg4.W) : (dat V c).A w = V c (Pipeline.arrRef spec4 w) := by
  dsimp only [dat]

theorem after_0 (c : Dev nD) (t : Fin cfg4.N) : (dat V c).after 0 t = iblk V c 0 t := by dsimp only [dat]
theorem after_1 (c : Dev nD) (t : Fin cfg4.N) : (dat V c).after 1 t = iblk V c 1 t := by dsimp only [dat]
theorem after_2 (c : Dev nD) (t : Fin cfg4.N) : (dat V c).after 2 t = iblk V c 2 t := by dsimp only [dat]
theorem after_3 (c : Dev nD) (t : Fin cfg4.N) : (dat V c).after 3 t = iblk V c 3 t := by dsimp only [dat]
theorem after_4 (c : Dev nD) (t : Fin cfg4.N) : (dat V c).after 4 t = outLast V c := by dsimp only [dat]

theorem after_out_last (c : Dev nD) (h24 : 24 < cfg4.N) : (dat V c).after 4 ⟨24, h24⟩ = outLast V c := by dsimp only [dat]

theorem PhiS_castSucc (c : Dev nD) (t : Fin cfg4.N) :
    (dat V c).Φ t.castSucc = PhiS V c t.val (Nat.le_of_lt t.isLt) := by
  dsimp only [dat]; simp only [Fin.coe_castSucc]

/-! ## The body's two conditions over the grid -/

/-- The first condition (reset the accumulators), as the body computes it from the coordinate. -/
abbrev condFirst (i : grid4.Coords) : Prop := (Scalar.cmpi .ne (Scalar.extui (Scalar.cmpi .eq (BitVec.ofNat 32 (i 0).val) 0#32)) 0#32) = 1#1
/-- It holds at point 0 only. -/
theorem hcondFirst : ∀ t : Fin cfg4.N, condFirst (grid4.coords t) ↔ t.val = 0 :=
  (by decide +kernel : ∀ t : Fin grid4.N, condFirst (grid4.coords t) ↔ t.val = 0)

/-- The second condition (store the output). -/
abbrev condLast (i : grid4.Coords) : Prop := k4_cond2 i = 1#1
/-- It holds at point 24 only. -/
theorem hcondLast : ∀ t : Fin cfg4.N, condLast (grid4.coords t) ↔ t.val = 24 :=
  (by decide +kernel : ∀ t : Fin grid4.N, condLast (grid4.coords t) ↔ t.val = 24)

/-- No input window is ever idle. -/
theorem liveAt_0 : ∀ t : Fin cfg4.N, cfg4.idle 0 (grid4.coords t) = false := by decide +kernel
theorem liveAt_1 : ∀ t : Fin cfg4.N, cfg4.idle 1 (grid4.coords t) = false := by decide +kernel
theorem liveAt_2 : ∀ t : Fin cfg4.N, cfg4.idle 2 (grid4.coords t) = false := by decide +kernel
theorem liveAt_3 : ∀ t : Fin cfg4.N, cfg4.idle 3 (grid4.coords t) = false := by decide +kernel
/-- Away from the last point the output window is idle and its block is not written back. -/
theorem idleAt_4 : ∀ t : Fin cfg4.N, ¬condLast (grid4.coords t) → cfg4.idle 4 (grid4.coords t) = true := by decide +kernel
theorem noFlush_4 : ∀ t : Fin cfg4.N, ¬condLast (grid4.coords t) → (cfg4.win 4).flush t = false := by decide +kernel
/-- At the last point it is live. -/
theorem liveAt_4 : ∀ t : Fin cfg4.N, condLast (grid4.coords t) → cfg4.idle 4 (grid4.coords t) = false := by decide +kernel

/-! ## Whole-buffer loads and stores -/

/-- The zero offsets of a rank-2 buffer, as the body spells them. -/
theorem hz2 : (![0, 0] : Fin 2 → ℕ) = fun _ => 0 := by funext a; fin_cases a <;> rfl

/-- A store through the whole unit rectangle, last, leaves its payload in the buffer whatever was stored before. -/
theorem read_writes_unit {S : Shape} {e : EltTy} (v : View sig .tc .vmem S e) (f : v.ty.Contents (Elt F))
    {off : Fin S.rank → ℕ} (hz : off = fun _ => 0) (inb : ∀ a, off a + S.size a ≤ S.size a)
    (w : S.Idx → Elt F e) (L : List (View.Piece (Elt F) S e)) :
    v.read (Elt F) (v.writes (Elt F) f ((⟨Rect.unit off S.size inb, w⟩ : View.Piece (Elt F) S e) :: L)) = w :=
  (View.read_writes_eq_canon v f _ (fun y => ⟨_, List.mem_cons_self, View.mem_set_unit_zero hz inb y⟩)).trans
    (View.canon_cons_unit_zero hz inb w L)

set_option maxHeartbeats 4000000 in
/-- The first point: the accumulators, at anything, are zeroed and then updated. -/
theorem kernel_first (c : Dev nD) (E : Set ℕ) (i : grid4.Coords) (hc0 : condFirst i) (hc1 : ¬condLast i)
    (arg1 : Memref sig .tc .vmem S4000x64 .f32) (harg1 : arg1.IsWhole) (arg2 : Memref sig .tc .vmem S4000x1 .i32) (harg2 : arg2.IsWhole)
    (arg3 : Memref sig .tc .vmem S64x128 .f32) (harg3 : arg3.IsWhole) (arg4 : Memref sig .tc .vmem S1x128 .f32) (harg4 : arg4.IsWhole)
    (arg5 : Memref sig .tc .vmem S128x128 .f32) (harg5 : arg5.IsWhole) (arg6 : Memref sig .tc .vmem S128x64 .f32) (harg6 : arg6.IsWhole)
    (arg7 : Memref sig .tc .vmem S1x128 .f32) (harg7 : arg7.IsWhole)
    (xh : Vec F S4000x64 .f32) (xid : Vec F S4000x1 .i32)
    (K : PUnit → sProp 𝕄) :
    iprop(owns (c : Thread nD τ) arg1 fullShare xh ∗ owns (c : Thread nD τ) arg2 fullShare xid
        ∗ (∃ d, owns (c : Thread nD τ) arg6 fullShare d) ∗ (∃ d, owns (c : Thread nD τ) arg7 fullShare d)
        ∗ (iprop(owns (c : Thread nD τ) arg1 fullShare xh ∗ owns (c : Thread nD τ) arg2 fullShare xid
            ∗ owns (c : Thread nD τ) arg6 fullShare (k4_pay4 xid xh k4_pay1) ∗ owns (c : Thread nD τ) arg7 fullShare (k4_pay5 xid k4_pay2)) -∗ K ⟨⟩))
      ⊢ wp frame (wpE (defs₀ (F := F)) Variants.none c none) E (cc4__pool_kernel i arg1 harg1 arg2 harg2 arg3 harg3 arg4 harg4 arg5 harg5 arg6 harg6 arg7 harg7) K := by
  simp only [cc4__pool_kernel_eq_skeleton]; unfold cc4__pool_kernel_skel
  unfold owns
  iintro ⟨⟨%f1, %hf1, H1⟩, ⟨%f2, %hf2, H2⟩, ⟨%d6, %f6, -, H6⟩, ⟨%d7, %f7, -, H7⟩, Hk⟩
  subst hf1; subst hf2
  sl_exec (disch := first | exact hc0 | exact hc1)
  sl_step
  iapply Hk
  isplitl [H1]
  · iexists f1; isplitr; · ipureintro; rfl
    iexact H1
  isplitl [H2]
  · iexists f2; isplitr; · ipureintro; rfl
    iexact H2
  isplitl [H6]
  · iexists _; isplitr
    swap; · iexact H6
    ipureintro
    sl_unfold_run_names
    rw [read_writes_unit _ _ hz2]
    simp only [View.readAt_eq_ld, View.ld_unit_zero (S := S4000x1) hz2, View.ld_unit_zero (S := S4000x64) hz2, View.readCov_unit_zero (S := S128x64) _ hz2]
  iexists _; isplitr
  swap; · iexact H7
  ipureintro
  sl_unfold_run_names
  rw [read_writes_unit _ _ hz2]
  simp only [View.readAt_eq_ld, View.ld_unit_zero (S := S4000x1) hz2, View.readCov_unit_zero (S := S1x128) _ hz2]

set_option maxHeartbeats 4000000 in
/-- A middle point (neither first nor last): on whole memrefs, the feature and id tiles at read contents and the two
    accumulators at s0, s1, the body runs to the continuation holding the tiles as they were and the accumulators
    updated; the weights, the bias and the output block are not touched. -/
theorem kernel_mid (c : Dev nD) (E : Set ℕ) (i : grid4.Coords) (hc0 : ¬condFirst i) (hc1 : ¬condLast i)
    (arg1 : Memref sig .tc .vmem S4000x64 .f32) (harg1 : arg1.IsWhole) (arg2 : Memref sig .tc .vmem S4000x1 .i32) (harg2 : arg2.IsWhole)
    (arg3 : Memref sig .tc .vmem S64x128 .f32) (harg3 : arg3.IsWhole) (arg4 : Memref sig .tc .vmem S1x128 .f32) (harg4 : arg4.IsWhole)
    (arg5 : Memref sig .tc .vmem S128x128 .f32) (harg5 : arg5.IsWhole) (arg6 : Memref sig .tc .vmem S128x64 .f32) (harg6 : arg6.IsWhole)
    (arg7 : Memref sig .tc .vmem S1x128 .f32) (harg7 : arg7.IsWhole)
    (xh : Vec F S4000x64 .f32) (xid : Vec F S4000x1 .i32) (s0 : Vec F S128x64 .f32) (s1 : Vec F S1x128 .f32)
    (K : PUnit → sProp 𝕄) :
    iprop(owns (c : Thread nD τ) arg1 fullShare xh ∗ owns (c : Thread nD τ) arg2 fullShare xid
        ∗ owns (c : Thread nD τ) arg6 fullShare s0 ∗ owns (c : Thread nD τ) arg7 fullShare s1
        ∗ (iprop(owns (c : Thread nD τ) arg1 fullShare xh ∗ owns (c : Thread nD τ) arg2 fullShare xid
            ∗ owns (c : Thread nD τ) arg6 fullShare (k4_pay4 xid xh s0) ∗ owns (c : Thread nD τ) arg7 fullShare (k4_pay5 xid s1)) -∗ K ⟨⟩))
      ⊢ wp frame (wpE (defs₀ (F := F)) Variants.none c none) E (cc4__pool_kernel i arg1 harg1 arg2 harg2 arg3 harg3 arg4 harg4 arg5 harg5 arg6 harg6 arg7 harg7) K := by
  simp only [cc4__pool_kernel_eq_skeleton]; unfold cc4__pool_kernel_skel
  unfold owns
  iintro ⟨⟨%f1, %hf1, H1⟩, ⟨%f2, %hf2, H2⟩, ⟨%f6, %hf6, H6⟩, ⟨%f7, %hf7, H7⟩, Hk⟩
  subst hf1; subst hf2; subst hf6; subst hf7
  sl_exec (disch := first | exact hc0 | exact hc1)
  sl_step
  iapply Hk
  isplitl [H1]
  · iexists f1; isplitr; · ipureintro; rfl
    iexact H1
  isplitl [H2]
  · iexists f2; isplitr; · ipureintro; rfl
    iexact H2
  isplitl [H6]
  · iexists _; isplitr
    swap; · iexact H6
    ipureintro
    sl_unfold_run_names
    rw [read_writes_unit _ _ hz2]
    simp only [View.readAt_eq_ld, View.ld_unit_zero (S := S4000x1) hz2, View.ld_unit_zero (S := S4000x64) hz2, View.ld_unit_zero (S := S128x64) hz2]
  iexists _; isplitr
  swap; · iexact H7
  ipureintro
  sl_unfold_run_names
  rw [read_writes_unit _ _ hz2]
  simp only [View.readAt_eq_ld, View.ld_unit_zero (S := S4000x1) hz2, View.ld_unit_zero (S := S1x128) hz2]

set_option maxHeartbeats 4000000 in
/-- The last point: the accumulators are updated, and the normalised linear layer of the per-graph means is stored
    whole into the output block, which was at anything. -/
theorem kernel_last (c : Dev nD) (E : Set ℕ) (i : grid4.Coords) (hc0 : ¬condFirst i) (hc1 : condLast i)
    (arg1 : Memref sig .tc .vmem S4000x64 .f32) (harg1 : arg1.IsWhole) (arg2 : Memref sig .tc .vmem S4000x1 .i32) (harg2 : arg2.IsWhole)
    (arg3 : Memref sig .tc .vmem S64x128 .f32) (harg3 : arg3.IsWhole) (arg4 : Memref sig .tc .vmem S1x128 .f32) (harg4 : arg4.IsWhole)
    (arg5 : Memref sig .tc .vmem S128x128 .f32) (harg5 : arg5.IsWhole) (arg6 : Memref sig .tc .vmem S128x64 .f32) (harg6 : arg6.IsWhole)
    (arg7 : Memref sig .tc .vmem S1x128 .f32) (harg7 : arg7.IsWhole)
    (xh : Vec F S4000x64 .f32) (xid : Vec F S4000x1 .i32) (xw : Vec F S64x128 .f32) (xb : Vec F S1x128 .f32) (s0 : Vec F S128x64 .f32) (s1 : Vec F S1x128 .f32)
    (K : PUnit → sProp 𝕄) :
    iprop(owns (c : Thread nD τ) arg1 fullShare xh ∗ owns (c : Thread nD τ) arg2 fullShare xid
        ∗ owns (c : Thread nD τ) arg3 fullShare xw ∗ owns (c : Thread nD τ) arg4 fullShare xb
        ∗ (∃ d, owns (c : Thread nD τ) arg5 fullShare d)
        ∗ owns (c : Thread nD τ) arg6 fullShare s0 ∗ owns (c : Thread nD τ) arg7 fullShare s1
        ∗ (iprop(owns (c : Thread nD τ) arg1 fullShare xh ∗ owns (c : Thread nD τ) arg2 fullShare xid
            ∗ owns (c : Thread nD τ) arg3 fullShare xw ∗ owns (c : Thread nD τ) arg4 fullShare xb
            ∗ owns (c : Thread nD τ) arg5 fullShare (k4_pay6 (k4_pay5 xid s1) (k4_pay4 xid xh s0) xw xb)
            ∗ owns (c : Thread nD τ) arg6 fullShare (k4_pay4 xid xh s0) ∗ owns (c : Thread nD τ) arg7 fullShare (k4_pay5 xid s1)) -∗ K ⟨⟩))
      ⊢ wp frame (wpE (defs₀ (F := F)) Variants.none c none) E (cc4__pool_kernel i arg1 harg1 arg2 harg2 arg3 harg3 arg4 harg4 arg5 harg5 arg6 harg6 arg7 harg7) K := by
  simp only [cc4__pool_kernel_eq_skeleton]; unfold cc4__pool_kernel_skel
  unfold owns
  iintro ⟨⟨%f1, %hf1, H1⟩, ⟨%f2, %hf2, H2⟩, ⟨%f3, %hf3, H3⟩, ⟨%f4, %hf4, H4⟩, ⟨%d5, %f5, -, H5⟩, ⟨%f6, %hf6, H6⟩, ⟨%f7, %hf7, H7⟩, Hk⟩
  subst hf1; subst hf2; subst hf3; subst hf4; subst hf6; subst hf7
  sl_exec (disch := first | exact hc0 | exact hc1)
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    sl_unfold_run_names
    rw [read_writes_unit _ _ hz2]
    simp only [View.readAt_eq_ld, View.ld_unit_zero (S := S4000x1) hz2, View.ld_unit_zero (S := S4000x64) hz2, View.ld_unit_zero (S := S128x64) hz2,
      View.ld_unit_zero (S := S1x128) hz2, View.ld_unit_zero (S := S64x128) hz2,
      View.readCov_unit_zero (S := S128x64) _ hz2, View.readCov_unit_zero (S := S1x128) _ hz2]
  isplitl [H6]
  · iexists _; isplitr
    swap; · iexact H6
    ipureintro
    sl_unfold_run_names
    rw [read_writes_unit _ _ hz2]
    simp only [View.readAt_eq_ld, View.ld_unit_zero (S := S4000x1) hz2, View.ld_unit_zero (S := S4000x64) hz2, View.ld_unit_zero (S := S128x64) hz2]
  iexists _; isplitr
  swap; · iexact H7
  ipureintro
  sl_unfold_run_names
  rw [read_writes_unit _ _ hz2]
  simp only [View.readAt_eq_ld, View.ld_unit_zero (S := S4000x1) hz2, View.ld_unit_zero (S := S1x128) hz2]

/-! ## What the body finds in the input windows -/

/-- An input window's current staging buffer holds its block at every point, whether the point fetches it (the two
    tiles, at every point) or the block index has not moved since the fetch (the resident weights and bias, fetched
    at point 0 only): for any proof data whose array is V's and whose body leaves the block in place. -/
theorem before_0_of {c : Dev nD} (dat : Dat τ (Elt F) Unit ℕ (UR sig nD τ) ℕ cfg4 c) (hA : dat.A 0 = V c (Pipeline.arrRef spec4 0))
    (hafter : ∀ t, dat.after 0 t = iblk V c 0 t) (t : Fin cfg4.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_1_of {c : Dev nD} (dat : Dat τ (Elt F) Unit ℕ (UR sig nD τ) ℕ cfg4 c) (hA : dat.A 1 = V c (Pipeline.arrRef spec4 1))
    (hafter : ∀ t, dat.after 1 t = iblk V c 1 t) (t : Fin cfg4.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before_2_of {c : Dev nD} (dat : Dat τ (Elt F) Unit ℕ (UR sig nD τ) ℕ cfg4 c) (hA : dat.A 2 = V c (Pipeline.arrRef spec4 2))
    (hafter : ∀ t, dat.after 2 t = iblk V c 2 t) (t : Fin cfg4.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before_3_of {c : Dev nD} (dat : Dat τ (Elt F) Unit ℕ (UR sig nD τ) ℕ cfg4 c) (hA : dat.A 3 = V c (Pipeline.arrRef spec4 3))
    (hafter : ∀ t, dat.after 3 t = iblk V c 3 t) (t : Fin cfg4.N) (d) : dat.before 3 t d = iblk V c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

theorem before_0 (c : Dev nD) (t : Fin cfg4.N) (d) : (dat V c).before 0 t d = iblk V c 0 t := before_0_of V (dat V c) (A_eq V c 0) (after_0 V c) t d
theorem before_1 (c : Dev nD) (t : Fin cfg4.N) (d) : (dat V c).before 1 t d = iblk V c 1 t := before_1_of V (dat V c) (A_eq V c 1) (after_1 V c) t d
theorem before_2 (c : Dev nD) (t : Fin cfg4.N) (d) : (dat V c).before 2 t d = iblk V c 2 t := before_2_of V (dat V c) (A_eq V c 2) (after_2 V c) t d
theorem before_3 (c : Dev nD) (t : Fin cfg4.N) (d) : (dat V c).before 3 t d = iblk V c 3 t := before_3_of V (dat V c) (A_eq V c 3) (after_3 V c) t d

/-! ## The body obligation, at a generic point -/

/-- What the body is called with at point t, the windows one by one, -/
def bodyPre (c : Dev nD) (t : Fin cfg4.N) : sProp 𝕄 :=
  iprop((dat V c).Φ t.castSucc ∗ (dat V c).owesAt () t.castSucc
    ∗ (∃ d, owns (c : Thread nD τ) (st4_0 t) fullShare ((dat V c).before 0 t d))
    ∗ (∃ d, owns (c : Thread nD τ) (st4_1 t) fullShare ((dat V c).before 1 t d))
    ∗ (∃ d, owns (c : Thread nD τ) (st4_2 t) fullShare ((dat V c).before 2 t d))
    ∗ (∃ d, owns (c : Thread nD τ) (st4_3 t) fullShare ((dat V c).before 3 t d))
    ∗ (∃ d, owns (c : Thread nD τ) (st4_4 t) fullShare ((dat V c).before 4 t d)))

/-- and what it returns. -/
def bodyPost (c : Dev nD) (t : Fin cfg4.N) : sProp 𝕄 :=
  iprop((dat V c).Φ t.succ ∗ (dat V c).owesAt () t.succ
    ∗ (dat V c).leavesExact 0 t ∗ (dat V c).leavesExact 1 t ∗ (dat V c).leavesExact 2 t
    ∗ (dat V c).leavesExact 3 t ∗ (dat V c).leavesExact 4 t)

set_option maxHeartbeats 4000000 in
/-- The body at any point. The input windows hold their blocks. At the last point the invariant hands the body the
    accumulators at what point 23 left, the body's last-point triple applies and the output block is left at what it
    stores. At the first point the invariant hands the accumulators at anything and the first-point triple applies; at
    a middle point it hands them at what the point before left and the middle triple applies; in both the output
    window is idle and not written back, and its buffer goes back as found. The invariant takes the accumulators
    back at this point's contents; the core owes nothing throughout. -/
theorem sound_body (c : Dev nD) (t : Fin cfg4.N) :
    bodyPre V c t ⊢ wp frame (wpE (defs₀ (F := F)) Variants.none c none) Set.univ (bodyAt4 t) (fun _ => bodyPost V c t) := by
  unfold bodyPre bodyPost bodyAt4
  simp only [before_0, before_1, before_2, before_3]
  rw [show (dat V c).owesAt () t.succ = (dat V c).owesAt () t.castSucc from rfl]
  rw [show (dat V c).Φ t.succ = PhiS V c (t.val + 1) t.isLt from rfl, PhiS_succ]
  rw [show (dat V c).leavesExact 0 t = owns (c : Thread nD τ) (st4_0 t) fullShare ((dat V c).after 0 t) from by
    unfold Dat.leavesExact; rw [liveAt_0 t], after_0]
  rw [show (dat V c).leavesExact 1 t = owns (c : Thread nD τ) (st4_1 t) fullShare ((dat V c).after 1 t) from by
    unfold Dat.leavesExact; rw [liveAt_1 t], after_1]
  rw [show (dat V c).leavesExact 2 t = owns (c : Thread nD τ) (st4_2 t) fullShare ((dat V c).after 2 t) from by
    unfold Dat.leavesExact; rw [liveAt_2 t], after_2]
  rw [show (dat V c).leavesExact 3 t = owns (c : Thread nD τ) (st4_3 t) fullShare ((dat V c).after 3 t) from by
    unfold Dat.leavesExact; rw [liveAt_3 t], after_3]
  have hN : t.val < 25 := lt_of_lt_of_eq t.isLt (show cfg4.N = 25 from N_4)
  by_cases h1 : t.val = 24
  · have h0 : t.val ≠ 0 := by omega
    rw [show (dat V c).leavesExact 4 t = owns (c : Thread nD τ) (st4_4 t) fullShare ((dat V c).after 4 t) from by
      unfold Dat.leavesExact; rw [liveAt_4 t ((hcondLast t).mpr h1)], after_4]
    rw [outLast_at V c t h1, accAt_pos V c t h0]; dsimp only
    rw [PhiS_castSucc V c t, PhiS_pos V c _ _ h0]
    iintro ⟨⟨⟨⟨HS0, HS1⟩, HR⟩, Hg⟩, Ho, ⟨%d0, H0⟩, ⟨%d1, H1⟩, ⟨%d2, H2⟩, ⟨%d3, H3⟩, ⟨%d4, H4⟩⟩
    iapply (kernel_last c Set.univ (grid4.coords t) (fun h => h0 ((hcondFirst t).mp h)) ((hcondLast t).mpr h1) _ _ _ _ _ _ _ _ _ _ _ _ _ _
      (iblk V c 0 t) (iblk V c 1 t) (iblk V c 2 t) (iblk V c 3 t) _ _ _)
    isplitl [H0]; · iexact H0
    isplitl [H1]; · iexact H1
    isplitl [H2]; · iexact H2
    isplitl [H3]; · iexact H3
    isplitl [H4]; · iexists _; iexact H4
    isplitl [HS0]; · iexact HS0
    isplitl [HS1]; · iexact HS1
    iintro ⟨H0, H1, H2, H3, H4, HS0, HS1⟩
    isplitl [HS0 HS1 HR Hg]
    · isplitl [HS0 HS1 HR]
      · isplitl [HS0 HS1]
        · isplitl [HS0]; · iexact HS0
          iexact HS1
        iexact HR
      iexact Hg
    isplitl [Ho]; · iexact Ho
    isplitl [H0]; · iexact H0
    isplitl [H1]; · iexact H1
    isplitl [H2]; · iexact H2
    isplitl [H3]; · iexact H3
    iexact H4
  · have hnl : ¬condLast (grid4.coords t) := fun h => h1 ((hcondLast t).mp h)
    rw [Dat.leavesExact_idle (dat V c) 4 t (idleAt_4 t hnl) (noFlush_4 t hnl)]
    by_cases h0 : t.val = 0
    · rw [accAt_first V c t h0]; dsimp only
      rw [PhiS_castSucc V c t, PhiS_zero V c _ _ h0, PhiA4_eq]
      iintro ⟨⟨⟨⟨HS0, HS1⟩, HR⟩, Hg⟩, Ho, ⟨%d0, H0⟩, ⟨%d1, H1⟩, ⟨%d2, H2⟩, ⟨%d3, H3⟩, ⟨%d4, H4⟩⟩
      iapply (kernel_first c Set.univ (grid4.coords t) ((hcondFirst t).mpr h0) hnl _ _ _ _ _ _ _ _ _ _ _ _ _ _
        (iblk V c 0 t) (iblk V c 1 t) _)
      isplitl [H0]; · iexact H0
      isplitl [H1]; · iexact H1
      isplitl [HS0]; · iexact HS0
      isplitl [HS1]; · iexact HS1
      iintro ⟨H0, H1, HS0, HS1⟩
      isplitl [HS0 HS1 HR Hg]
      · isplitl [HS0 HS1 HR]
        · isplitl [HS0 HS1]
          · isplitl [HS0]; · iexact HS0
            iexact HS1
          iexact HR
        iexact Hg
      isplitl [Ho]; · iexact Ho
      isplitl [H0]; · iexact H0
      isplitl [H1]; · iexact H1
      isplitl [H2]; · iexact H2
      isplitl [H3]; · iexact H3
      iexists _; iexact H4
    · rw [accAt_pos V c t h0]; dsimp only
      rw [PhiS_castSucc V c t, PhiS_pos V c _ _ h0]
      iintro ⟨⟨⟨⟨HS0, HS1⟩, HR⟩, Hg⟩, Ho, ⟨%d0, H0⟩, ⟨%d1, H1⟩, ⟨%d2, H2⟩, ⟨%d3, H3⟩, ⟨%d4, H4⟩⟩
      iapply (kernel_mid c Set.univ (grid4.coords t) (fun h => h0 ((hcondFirst t).mp h)) hnl _ _ _ _ _ _ _ _ _ _ _ _ _ _
        (iblk V c 0 t) (iblk V c 1 t) _ _ _)
      isplitl [H0]; · iexact H0
      isplitl [H1]; · iexact H1
      isplitl [HS0]; · iexact HS0
      isplitl [HS1]; · iexact HS1
      iintro ⟨H0, H1, HS0, HS1⟩
      isplitl [HS0 HS1 HR Hg]
      · isplitl [HS0 HS1 HR]
        · isplitl [HS0 HS1]
          · isplitl [HS0]; · iexact HS0
            iexact HS1
          iexact HR
        iexact Hg
      isplitl [Ho]; · iexact Ho
      isplitl [H0]; · iexact H0
      isplitl [H1]; · iexact H1
      isplitl [H2]; · iexact H2
      isplitl [H3]; · iexact H3
      iexists _; iexact H4

/-- The library's body obligation, at every point. -/
theorem body_obligation (c : Dev nD) : BodyObligation (dat (F := F) V c) (defs₀ (F := F)) Variants.none () Set.univ := fun t => by
  rw [bigSep_W4, bigSep_W4]
  exact sound_body V c t

/-- What the launch hands the region is the invariant before the first point. -/
theorem Phi_in (c : Dev nD) : Pipeline.ΦA spec4 c ⊢ (dat V c).Φ 0 := by
  rw [show (dat V c).Φ 0 = PhiS V c 0 (Nat.zero_le _) from rfl, PhiS_zero V c 0 _ rfl]
  try exact Idealize.SL.BI.Entails.refl _

/-- After any point but the first the invariant gives the class's back: the accumulators' named contents are forgotten. -/
theorem Phi_out_at (c : Dev nD) (t : Fin (cfg4.N + 1)) (ht : t.val ≠ 0) : (dat V c).Φ t ⊢ Pipeline.ΦA spec4 c := by
  rw [show (dat V c).Φ t = PhiS V c t.val (Nat.le_of_lt_succ t.isLt) from rfl, PhiS_pos V c _ _ ht, PhiA4_eq]
  iintro ⟨⟨⟨HS0, HS1⟩, HR⟩, Hg⟩
  isplitl [HS0 HS1 HR]
  · isplitl [HS0 HS1]
    · isplitl [HS0]
      · iexists _; iexact HS0
      iexists _; iexact HS1
    iexact HR
  iexact Hg

/-- The same after the last point. -/
theorem Phi_out (c : Dev nD) : (dat V c).Φ (Fin.last cfg4.N) ⊢ Pipeline.ΦA spec4 c :=
  Phi_out_at V c _ (by rw [Fin.val_last]; have : cfg4.N = 25 := N_4; omega)

end Cert.KernelIdeal.Pool

end
-- ==== Proof.KernelIdealRun.lean ====
/-
  The whole program's run on the TensorCores. @main is ten segments: five stretches of host operations (the edge
  counts and the first layer's gather and scatter-add; each later layer's gather and scatter-add; the last bias's
  reshape) alternating with the five kernel regions (the four SAGE layers' linear stages, then pooling with the final
  layer and the normalisation). The buffers' contents at the eleven boundaries are a fold from the launch memory: a host
  stretch applies its operations; a region leaves its output array at what its write-backs fold to and everything else
  as it found it. Every weakly fair execution ends with every unscoped buffer at the last boundary's contents; no
  segment writes an argument array.
-/
import proofs.«406495_j16578573763454_3_alg».proof.Proof.KernelIdealSage0
import proofs.«406495_j16578573763454_3_alg».proof.Proof.KernelIdealSage1
import proofs.«406495_j16578573763454_3_alg».proof.Proof.KernelIdealSage2
import proofs.«406495_j16578573763454_3_alg».proof.Proof.KernelIdealSage3
import proofs.«406495_j16578573763454_3_alg».proof.Proof.KernelIdealPool
import proofs.«406495_j16578573763454_3_alg».proof.Proof.Gen.KernelIdeal.Regions

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary -/

/-- Core c's buffers at launch. -/
abbrev W0 : Dev nD → Valuation τ sig (Elt F) := fun c b => m (c, b)
/-- After host stretch 0 (region 0's entry), and the same read at the TensorCore's references. -/
abbrev W1 : Dev nD → Valuation τ sig (Elt F) := fun c => StableHlo.after hostOps0 (W0 m c)
abbrev U1 : (c : Dev nD) → (b : Ref sig .tc) → Buf (Elt F) ((c : Thread nD τ).loc b) := fun c b => W1 m c b
/-- At region 0's exit: its arrays at what the pipeline leaves, every other buffer as entered. -/
def W2 (c : Dev nD) : Valuation τ sig (Elt F) :=
  Pipeline.withArrays spec0 c (W1 m c) fun w => (Sage0.dat (U1 m) c).arrAt w cfg0.N
theorem W2_arr (c : Dev nD) (w : Fin cfg0.W) :
    W2 m c (Proc.devRef .tc (Pipeline.arrRef spec0 w)) = (Sage0.dat (U1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev U2 : (c : Dev nD) → (b : Ref sig .tc) → Buf (Elt F) ((c : Thread nD τ).loc b) := fun c b => W2 m c b
theorem hF0 (c : Dev nD) (w : Fin cfg0.W) : (Sage0.dat (U1 m) c).arrAt w cfg0.N = U2 m c (Pipeline.arrRef spec0 w) :=
  (W2_arr m c w).symm
theorem hrest0 (c : Dev nD) : ∀ b, b ∉ Finset.univ.image (Pipeline.arrRef spec0) → U2 m c b = U1 m c b :=
  fun b hb => W2_of_ne m c b fun w e => hb (Finset.mem_image.mpr ⟨w, Finset.mem_univ _, e⟩)
/-- Region 0 changes no buffer but its output array main_v21: an input window's array is handed back as entered, a
    buffer that is no window's array is not touched. -/
theorem W2_keep (c : Dev nD) (b : Ref sig .tc) (hb : b ≠ main_v21) :
    W2 m c (Proc.devRef .tc b) = W1 m c (Proc.devRef .tc b) := by
  by_cases h : ∃ w, Pipeline.arrRef spec0 w = b
  · obtain ⟨w, rfl⟩ := h
    have hin : (cfg0.win w).isOut = false := by
      fin_cases w <;> first | rfl | exact absurd rfl hb
    exact (W2_arr m c w).trans (((Sage0.dat (U1 m) c).arrAt_in w hin _).trans (Sage0.A_eq (U1 m) c w))
  · exact W2_of_ne m c b fun w e => h ⟨w, e⟩
/-- Host stretch 0 changes only the buffers its operations write. -/
theorem W1_keep (c : Dev nD) (b : Ref sig .tc) (hb : b ∉ (hostOps0_W : List (Ref sig .tc))) :
    W1 m c (Proc.devRef .tc b) = W0 m c (Proc.devRef .tc b) :=
  StableHlo.after_of_writes_sub hostOps0 _ hostOps0_writes hb

/-- After host stretch 1 (region 1's entry), and the same read at the TensorCore's references. -/
abbrev W3 : Dev nD → Valuation τ sig (Elt F) := fun c => StableHlo.after hostOps1 (W2 m c)
abbrev U3 : (c : Dev nD) → (b : Ref sig .tc) → Buf (Elt F) ((c : Thread nD τ).loc b) := fun c b => W3 m c b
/-- At region 1's exit: its arrays at what the pipeline leaves, every other buffer as entered. -/
def W4 (c : Dev nD) : Valuation τ sig (Elt F) :=
  Pipeline.withArrays spec1 c (W3 m c) fun w => (Sage1.dat (U3 m) c).arrAt w cfg1.N
theorem W4_arr (c : Dev nD) (w : Fin cfg1.W) :
    W4 m c (Proc.devRef .tc (Pipeline.arrRef spec1 w)) = (Sage1.dat (U3 m) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m c (Proc.devRef .tc b) = W3 m c (Proc.devRef .tc b) := by
  unfold W4; exact Pipeline.withArrays_of_ne spec1 c _ _ b hb
abbrev U4 : (c : Dev nD) → (b : Ref sig .tc) → Buf (Elt F) ((c : Thread nD τ).loc b) := fun c b => W4 m c b
theorem hF1 (c : Dev nD) (w : Fin cfg1.W) : (Sage1.dat (U3 m) c).arrAt w cfg1.N = U4 m c (Pipeline.arrRef spec1 w) :=
  (W4_arr m c w).symm
theorem hrest1 (c : Dev nD) : ∀ b, b ∉ Finset.univ.image (Pipeline.arrRef spec1) → U4 m c b = U3 m c b :=
  fun b hb => W4_of_ne m c b fun w e => hb (Finset.mem_image.mpr ⟨w, Finset.mem_univ _, e⟩)
/-- Region 1 changes no buffer but its output array main_v33: an input window's array is handed back as entered, a
    buffer that is no window's array is not touched. -/
theorem W4_keep (c : Dev nD) (b : Ref sig .tc) (hb : b ≠ main_v33) :
    W4 m c (Proc.devRef .tc b) = W3 m c (Proc.devRef .tc b) := by
  by_cases h : ∃ w, Pipeline.arrRef spec1 w = b
  · obtain ⟨w, rfl⟩ := h
    have hin : (cfg1.win w).isOut = false := by
      fin_cases w <;> first | rfl | exact absurd rfl hb
    exact (W4_arr m c w).trans (((Sage1.dat (U3 m) c).arrAt_in w hin _).trans (Sage1.A_eq (U3 m) c w))
  · exact W4_of_ne m c b fun w e => h ⟨w, e⟩
/-- Host stretch 1 changes only the buffers its operations write. -/
theorem W3_keep (c : Dev nD) (b : Ref sig .tc) (hb : b ∉ (hostOps1_W : List (Ref sig .tc))) :
    W3 m c (Proc.devRef .tc b) = W2 m c (Proc.devRef .tc b) :=
  StableHlo.after_of_writes_sub hostOps1 _ hostOps1_writes hb

/-- After host stretch 2 (region 2's entry), and the same read at the TensorCore's references. -/
abbrev W5 : Dev nD → Valuation τ sig (Elt F) := fun c => StableHlo.after hostOps2 (W4 m c)
abbrev U5 : (c : Dev nD) → (b : Ref sig .tc) → Buf (Elt F) ((c : Thread nD τ).loc b) := fun c b => W5 m c b
/-- At region 2's exit: its arrays at what the pipeline leaves, every other buffer as entered. -/
def W6 (c : Dev nD) : Valuation τ sig (Elt F) :=
  Pipeline.withArrays spec2 c (W5 m c) fun w => (Sage2.dat (U5 m) c).arrAt w cfg2.N
theorem W6_arr (c : Dev nD) (w : Fin cfg2.W) :
    W6 m c (Proc.devRef .tc (Pipeline.arrRef spec2 w)) = (Sage2.dat (U5 m) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m c (Proc.devRef .tc b) = W5 m c (Proc.devRef .tc b) := by
  unfold W6; exact Pipeline.withArrays_of_ne spec2 c _ _ b hb
abbrev U6 : (c : Dev nD) → (b : Ref sig .tc) → Buf (Elt F) ((c : Thread nD τ).loc b) := fun c b => W6 m c b
theorem hF2 (c : Dev nD) (w : Fin cfg2.W) : (Sage2.dat (U5 m) c).arrAt w cfg2.N = U6 m c (Pipeline.arrRef spec2 w) :=
  (W6_arr m c w).symm
theorem hrest2 (c : Dev nD) : ∀ b, b ∉ Finset.univ.image (Pipeline.arrRef spec2) → U6 m c b = U5 m c b :=
  fun b hb => W6_of_ne m c b fun w e => hb (Finset.mem_image.mpr ⟨w, Finset.mem_univ _, e⟩)
/-- Region 2 changes no buffer but its output array main_v45: an input window's array is handed back as entered, a
    buffer that is no window's array is not touched. -/
theorem W6_keep (c : Dev nD) (b : Ref sig .tc) (hb : b ≠ main_v45) :
    W6 m c (Proc.devRef .tc b) = W5 m c (Proc.devRef .tc b) := by
  by_cases h : ∃ w, Pipeline.arrRef spec2 w = b
  · obtain ⟨w, rfl⟩ := h
    have hin : (cfg2.win w).isOut = false := by
      fin_cases w <;> first | rfl | exact absurd rfl hb
    exact (W6_arr m c w).trans (((Sage2.dat (U5 m) c).arrAt_in w hin _).trans (Sage2.A_eq (U5 m) c w))
  · exact W6_of_ne m c b fun w e => h ⟨w, e⟩
/-- Host stretch 2 changes only the buffers its operations write. -/
theorem W5_keep (c : Dev nD) (b : Ref sig .tc) (hb : b ∉ (hostOps2_W : List (Ref sig .tc))) :
    W5 m c (Proc.devRef .tc b) = W4 m c (Proc.devRef .tc b) :=
  StableHlo.after_of_writes_sub hostOps2 _ hostOps2_writes hb

/-- After host stretch 3 (region 3's entry), and the same read at the TensorCore's references. -/
abbrev W7 : Dev nD → Valuation τ sig (Elt F) := fun c => StableHlo.after hostOps3 (W6 m c)
abbrev U7 : (c : Dev nD) → (b : Ref sig .tc) → Buf (Elt F) ((c : Thread nD τ).loc b) := fun c b => W7 m c b
/-- At region 3's exit: its arrays at what the pipeline leaves, every other buffer as entered. -/
def W8 (c : Dev nD) : Valuation τ sig (Elt F) :=
  Pipeline.withArrays spec3 c (W7 m c) fun w => (Sage3.dat (U7 m) c).arrAt w cfg3.N
theorem W8_arr (c : Dev nD) (w : Fin cfg3.W) :
    W8 m c (Proc.devRef .tc (Pipeline.arrRef spec3 w)) = (Sage3.dat (U7 m) c).arrAt w cfg3.N := by
  unfold W8; exact Pipeline.withArrays_arr spec3 launch3.win.arr_inj c _ _ w
theorem W8_of_ne (c : Dev nD) (b : Ref sig .tc) (hb : ∀ w, Pipeline.arrRef spec3 w ≠ b) :
    W8 m c (Proc.devRef .tc b) = W7 m c (Proc.devRef .tc b) := by
  unfold W8; exact Pipeline.withArrays_of_ne spec3 c _ _ b hb
abbrev U8 : (c : Dev nD) → (b : Ref sig .tc) → Buf (Elt F) ((c : Thread nD τ).loc b) := fun c b => W8 m c b
theorem hF3 (c : Dev nD) (w : Fin cfg3.W) : (Sage3.dat (U7 m) c).arrAt w cfg3.N = U8 m c (Pipeline.arrRef spec3 w) :=
  (W8_arr m c w).symm
theorem hrest3 (c : Dev nD) : ∀ b, b ∉ Finset.univ.image (Pipeline.arrRef spec3) → U8 m c b = U7 m c b :=
  fun b hb => W8_of_ne m c b fun w e => hb (Finset.mem_image.mpr ⟨w, Finset.mem_univ _, e⟩)
/-- Region 3 changes no buffer but its output array main_v57: an input window's array is handed back as entered, a
    buffer that is no window's array is not touched. -/
theorem W8_keep (c : Dev nD) (b : Ref sig .tc) (hb : b ≠ main_v57) :
    W8 m c (Proc.devRef .tc b) = W7 m c (Proc.devRef .tc b) := by
  by_cases h : ∃ w, Pipeline.arrRef spec3 w = b
  · obtain ⟨w, rfl⟩ := h
    have hin : (cfg3.win w).isOut = false := by
      fin_cases w <;> first | rfl | exact absurd rfl hb
    exact (W8_arr m c w).trans (((Sage3.dat (U7 m) c).arrAt_in w hin _).trans (Sage3.A_eq (U7 m) c w))
  · exact W8_of_ne m c b fun w e => h ⟨w, e⟩
/-- Host stretch 3 changes only the buffers its operations write. -/
theorem W7_keep (c : Dev nD) (b : Ref sig .tc) (hb : b ∉ (hostOps3_W : List (Ref sig .tc))) :
    W7 m c (Proc.devRef .tc b) = W6 m c (Proc.devRef .tc b) :=
  StableHlo.after_of_writes_sub hostOps3 _ hostOps3_writes hb

/-- After host stretch 4 (region 4's entry), and the same read at the TensorCore's references. -/
abbrev W9 : Dev nD → Valuation τ sig (Elt F) := fun c => StableHlo.after hostOps4 (W8 m c)
abbrev U9 : (c : Dev nD) → (b : Ref sig .tc) → Buf (Elt F) ((c : Thread nD τ).loc b) := fun c b => W9 m c b
/-- At region 4's exit: its arrays at what the pipeline leaves, every other buffer as entered. -/
def W10 (c : Dev nD) : Valuation τ sig (Elt F) :=
  Pipeline.withArrays spec4 c (W9 m c) fun w => (Pool.dat (U9 m) c).arrAt w cfg4.N
theorem W10_arr (c : Dev nD) (w : Fin cfg4.W) :
    W10 m c (Proc.devRef .tc (Pipeline.arrRef spec4 w)) = (Pool.dat (U9 m) c).arrAt w cfg4.N := by
  unfold W10; exact Pipeline.withArrays_arr spec4 launch4.win.arr_inj c _ _ w
theorem W10_of_ne (c : Dev nD) (b : Ref sig .tc) (hb : ∀ w, Pipeline.arrRef spec4 w ≠ b) :
    W10 m c (Proc.devRef .tc b) = W9 m c (Proc.devRef .tc b) := by
  unfold W10; exact Pipeline.withArrays_of_ne spec4 c _ _ b hb
abbrev U10 : (c : Dev nD) → (b : Ref sig .tc) → Buf (Elt F) ((c : Thread nD τ).loc b) := fun c b => W10 m c b
theorem hF4 (c : Dev nD) (w : Fin cfg4.W) : (Pool.dat (U9 m) c).arrAt w cfg4.N = U10 m c (Pipeline.arrRef spec4 w) :=
  (W10_arr m c w).symm
theorem hrest4 (c : Dev nD) : ∀ b, b ∉ Finset.univ.image (Pipeline.arrRef spec4) → U10 m c b = U9 m c b :=
  fun b hb => W10_of_ne m c b fun w e => hb (Finset.mem_image.mpr ⟨w, Finset.mem_univ _, e⟩)
/-- Region 4 changes no buffer but its output array main_v59: an input window's array is handed back as entered, a
    buffer that is no window's array is not touched. -/
theorem W10_keep (c : Dev nD) (b : Ref sig .tc) (hb : b ≠ main_v59) :
    W10 m c (Proc.devRef .tc b) = W9 m c (Proc.devRef .tc b) := by
  by_cases h : ∃ w, Pipeline.arrRef spec4 w = b
  · obtain ⟨w, rfl⟩ := h
    have hin : (cfg4.win w).isOut = false := by
      fin_cases w <;> first | rfl | exact absurd rfl hb
    exact (W10_arr m c w).trans (((Pool.dat (U9 m) c).arrAt_in w hin _).trans (Pool.A_eq (U9 m) c w))
  · exact W10_of_ne m c b fun w e => h ⟨w, e⟩
/-- Host stretch 4 changes only the buffers its operations write. -/
theorem W9_keep (c : Dev nD) (b : Ref sig .tc) (hb : b ∉ (hostOps4_W : List (Ref sig .tc))) :
    W9 m c (Proc.devRef .tc b) = W8 m c (Proc.devRef .tc b) :=
  StableHlo.after_of_writes_sub hostOps4 _ hostOps4_writes hb

/-- A buffer that no host operation writes and that is no region's output ends as launched. -/
theorem W10_launch (c : Dev nD) (b : Ref sig .tc)
    (h0 : b ∉ (hostOps0_W : List (Ref sig .tc))) (g0 : b ≠ main_v21) (h1 : b ∉ (hostOps1_W : List (Ref sig .tc))) (g1 : b ≠ main_v33)
    (h2 : b ∉ (hostOps2_W : List (Ref sig .tc))) (g2 : b ≠ main_v45) (h3 : b ∉ (hostOps3_W : List (Ref sig .tc))) (g3 : b ≠ main_v57)
    (h4 : b ∉ (hostOps4_W : List (Ref sig .tc))) (g4 : b ≠ main_v59) :
    W10 m c (Proc.devRef .tc b) = m ((c : Thread nD τ).loc b) :=
  (W10_keep m c b g4).trans <| (W9_keep m c b h4).trans <| (W8_keep m c b g3).trans <| (W7_keep m c b h3).trans <|
    (W6_keep m c b g2).trans <| (W5_keep m c b h2).trans <| (W4_keep m c b g1).trans <| (W3_keep m c b h1).trans <|
    (W2_keep m c b g0).trans <| (W1_keep m c b h0).trans rfl

/-! ## The proof data family and the thread state -/

/-- The prefetched tables' admissible contents: no pallas_call has a table. -/
abbrev tabs : (p : Fin 5) → (pcfgs (F := F) p).Adm := fun p => (cfgs p).toPCfg_adm
/-- Every pipeline's proof data, each at its region's entry contents. -/
def pdats : (p : Fin 5) → (c : Dev nD) → Dat τ (Elt F) Unit ℕ (UR sig nD τ) ℕ (Pipeline.pin (pcfgs (F := F)) tabs p) c
  | ⟨0, _⟩ => fun c => Sage0.dat (U1 m) c
  | ⟨1, _⟩ => fun c => Sage1.dat (U3 m) c
  | ⟨2, _⟩ => fun c => Sage2.dat (U5 m) c
  | ⟨3, _⟩ => fun c => Sage3.dat (U7 m) c
  | ⟨4, _⟩ => fun c => Pool.dat (U9 m) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state and its dues, at
    nothing. -/
abbrev R (c : Dev nD) : sProp 𝕄 := iprop((∃ r, prngReg c r) ∗ ∃ W, owes (c : Thread nD τ) (0 : CellTallies nD τ sig Unit) W)
/-- A host stretch as a segment over the unscoped references from the contents W, R riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues: every unscoped buffer at the last boundary's contents, the generator
    register at some state. -/
abbrev Tₙ (c : Dev nD) : sProp 𝕄 := iprop(StableHlo.held (c : Thread nD τ) (Pipeline.ucRefs τ sig) (W10 m c) ∗ ∃ r, prngReg c r)

/-! ## The regions as segments -/

set_option backward.isDefEq.respectTransparency.types false in
/-- Region 0 over the thread state: entered from every unscoped buffer at W1, left at W2. Its arrays are split out
    of the unscoped buffers and put back at the exit contents; the generator register goes into the region's invariant
    and comes out; nothing is owed; the kernel has no semaphore of its own. -/
def reg0 : Pipeline.RegionSeg (pcfgs (F := F)) tabs (pdats m) () defs₀ 𝒱₀ L lv 0 where
  win := launch0.win.to₀
  block_pos := launch0.block_pos
  stage_whole := launch0.stage_whole
  K := PEmpty
  osem k := k.elim
  ho := Pipeline.OwnSemFacts.none _
  hbody c := (Sage0.body_obligation (U1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (U1 m c)
  hentry c := by
    rw [Pipeline.ownSems0_none]
    have hsplit := Pipeline.arrays_of_unscopedBufs (p := 0) (pcfgs (F := F)) tabs (pdats m) launch0.win launch0.arr_whole c
      ((pdats m 0 c).share_full fun _ => rfl) (U1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) tabs (Ix := Unit) (Name := ℕ) (U := UR sig nD τ) (Lvl := ℕ)
      launch0.win launch0.arr_whole c (pdats m) ((pdats m 0 c).share_full fun _ => rfl)
      (U1 m c) (U2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at W3, left at W4. Its arrays are split out
    of the unscoped buffers and put back at the exit contents; the generator register goes into the region's invariant
    and comes out; nothing is owed; the kernel has no semaphore of its own. -/
def reg1 : Pipeline.RegionSeg (pcfgs (F := F)) tabs (pdats m) () defs₀ 𝒱₀ L lv 1 where
  win := launch1.win.to₀
  block_pos := launch1.block_pos
  stage_whole := launch1.stage_whole
  K := PEmpty
  osem k := k.elim
  ho := Pipeline.OwnSemFacts.none _
  hbody c := (Sage1.body_obligation (U3 m) c).loose
  hwaits := Pipeline.hwaits_of_owed_zero _ _ _ _ L lv 1 fun _ _ => rfl
  pre c := iprop(StableHlo.held (c : Thread nD τ) (Pipeline.ucRefs τ sig) (W3 m c) ∗ R c)
  post c := iprop(StableHlo.held (c : Thread nD τ) (Pipeline.ucRefs τ sig) (W4 m c) ∗ R c)
  X c := iprop(∃ r, prngReg c r)
  Y c := iprop(∃ r, prngReg c r)
  Z c := Pipeline.unscopedRest (Ix := Unit) (Name := ℕ) (U := UR sig nD τ) (Lvl := ℕ) spec1 c (U3 m c)
  hentry c := by
    rw [Pipeline.ownSems0_none]
    have hsplit := Pipeline.arrays_of_unscopedBufs (p := 1) (pcfgs (F := F)) tabs (pdats m) launch1.win launch1.arr_whole c
      ((pdats m 1 c).share_full fun _ => rfl) (U3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) tabs (Ix := Unit) (Name := ℕ) (U := UR sig nD τ) (Lvl := ℕ)
      launch1.win launch1.arr_whole c (pdats m) ((pdats m 1 c).share_full fun _ => rfl)
      (U3 m c) (U4 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state: entered from every unscoped buffer at W5, left at W6. Its arrays are split out
    of the unscoped buffers and put back at the exit contents; the generator register goes into the region's invariant
    and comes out; nothing is owed; the kernel has no semaphore of its own. -/
def reg2 : Pipeline.RegionSeg (pcfgs (F := F)) tabs (pdats m) () defs₀ 𝒱₀ L lv 2 where
  win := launch2.win.to₀
  block_pos := launch2.block_pos
  stage_whole := launch2.stage_whole
  K := PEmpty
  osem k := k.elim
  ho := Pipeline.OwnSemFacts.none _
  hbody c := (Sage2.body_obligation (U5 m) c).loose
  hwaits := Pipeline.hwaits_of_owed_zero _ _ _ _ L lv 2 fun _ _ => rfl
  pre c := iprop(StableHlo.held (c : Thread nD τ) (Pipeline.ucRefs τ sig) (W5 m c) ∗ R c)
  post c := iprop(StableHlo.held (c : Thread nD τ) (Pipeline.ucRefs τ sig) (W6 m c) ∗ R c)
  X c := iprop(∃ r, prngReg c r)
  Y c := iprop(∃ r, prngReg c r)
  Z c := Pipeline.unscopedRest (Ix := Unit) (Name := ℕ) (U := UR sig nD τ) (Lvl := ℕ) spec2 c (U5 m c)
  hentry c := by
    rw [Pipeline.ownSems0_none]
    have hsplit := Pipeline.arrays_of_unscopedBufs (p := 2) (pcfgs (F := F)) tabs (pdats m) launch2.win launch2.arr_whole c
      ((pdats m 2 c).share_full fun _ => rfl) (U5 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) tabs (Ix := Unit) (Name := ℕ) (U := UR sig nD τ) (Lvl := ℕ)
      launch2.win launch2.arr_whole c (pdats m) ((pdats m 2 c).share_full fun _ => rfl)
      (U5 m c) (U6 m c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 3 over the thread state: entered from every unscoped buffer at W7, left at W8. Its arrays are split out
    of the unscoped buffers and put back at the exit contents; the generator register goes into the region's invariant
    and comes out; nothing is owed; the kernel has no semaphore of its own. -/
def reg3 : Pipeline.RegionSeg (pcfgs (F := F)) tabs (pdats m) () defs₀ 𝒱₀ L lv 3 where
  win := launch3.win.to₀
  block_pos := launch3.block_pos
  stage_whole := launch3.stage_whole
  K := PEmpty
  osem k := k.elim
  ho := Pipeline.OwnSemFacts.none _
  hbody c := (Sage3.body_obligation (U7 m) c).loose
  hwaits := Pipeline.hwaits_of_owed_zero _ _ _ _ L lv 3 fun _ _ => rfl
  pre c := iprop(StableHlo.held (c : Thread nD τ) (Pipeline.ucRefs τ sig) (W7 m c) ∗ R c)
  post c := iprop(StableHlo.held (c : Thread nD τ) (Pipeline.ucRefs τ sig) (W8 m c) ∗ R c)
  X c := iprop(∃ r, prngReg c r)
  Y c := iprop(∃ r, prngReg c r)
  Z c := Pipeline.unscopedRest (Ix := Unit) (Name := ℕ) (U := UR sig nD τ) (Lvl := ℕ) spec3 c (U7 m c)
  hentry c := by
    rw [Pipeline.ownSems0_none]
    have hsplit := Pipeline.arrays_of_unscopedBufs (p := 3) (pcfgs (F := F)) tabs (pdats m) launch3.win launch3.arr_whole c
      ((pdats m 3 c).share_full fun _ => rfl) (U7 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) tabs (Ix := Unit) (Name := ℕ) (U := UR sig nD τ) (Lvl := ℕ)
      launch3.win launch3.arr_whole c (pdats m) ((pdats m 3 c).share_full fun _ => rfl)
      (U7 m c) (U8 m c) ((pdats m 3 c).arrAt · cfg3.N) (hF3 m c) (hrest3 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 4 over the thread state: entered from every unscoped buffer at W9, left at W10. Its arrays are split out
    of the unscoped buffers and put back at the exit contents; the generator register goes into the region's invariant
    and comes out; nothing is owed; the kernel has no semaphore of its own. -/
def reg4 : Pipeline.RegionSeg (pcfgs (F := F)) tabs (pdats m) () defs₀ 𝒱₀ L lv 4 where
  win := launch4.win.to₀
  block_pos := launch4.block_pos
  stage_whole := launch4.stage_whole
  K := PEmpty
  osem k := k.elim
  ho := Pipeline.OwnSemFacts.none _
  hbody c := (Pool.body_obligation (U9 m) c).loose
  hwaits := Pipeline.hwaits_of_owed_zero _ _ _ _ L lv 4 fun _ _ => rfl
  pre c := iprop(StableHlo.held (c : Thread nD τ) (Pipeline.ucRefs τ sig) (W9 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec4 c (U9 m c)
  hentry c := by
    rw [Pipeline.ownSems0_none]
    have hsplit := Pipeline.arrays_of_unscopedBufs (p := 4) (pcfgs (F := F)) tabs (pdats m) launch4.win launch4.arr_whole c
      ((pdats m 4 c).share_full fun _ => rfl) (U9 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (Pool.Phi_in (U9 m) c)
    unfold Pipeline.ΦA
    iintro ⟨Hp, -, Hr⟩
    isplitl [Hr]; · iexact Hr
    iexact Hp
  hout c := by
    rw [Pipeline.ownSems0_none]
    refine BIBase.Entails.trans (Pool.Phi_out (U9 m) c) ?_
    unfold Pipeline.ΦA
    iintro ⟨Hr, Hp⟩
    isplitl [Hp]; · iexact Hp
    isplitr; · iempintro
    iexact Hr
  hexit c := by
    have hjoin := Pipeline.unscopedBufs_of_arrays (p := 4) (pcfgs (F := F)) tabs (Ix := Unit) (Name := ℕ) (U := UR sig nD τ) (Lvl := ℕ)
      launch4.win launch4.arr_whole c (pdats m) ((pdats m 4 c).share_full fun _ => rfl)
      (U9 m c) (U10 m c) ((pdats m 4 c).arrAt · cfg4.N) (hF4 m c) (hrest4 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

/-- @main's ten segments in order. -/
abbrev segs : List (Pipeline.Seg (pcfgs (F := F)) tabs (pdats m) () defs₀ 𝒱₀ L lv) :=
  [ .host (hseg hostOps0 hostOps0_sub hostOps0_fresh (W0 m)), .region (reg0 m),
    .host (hseg hostOps1 hostOps1_sub hostOps1_fresh (W2 m)), .region (reg1 m),
    .host (hseg hostOps2 hostOps2_sub hostOps2_fresh (W4 m)), .region (reg2 m),
    .host (hseg hostOps3 hostOps3_sub hostOps3_fresh (W6 m)), .region (reg3 m),
    .host (hseg hostOps4 hostOps4_sub hostOps4_fresh (W8 m)), .region (reg4 m) ]
/-- @main is the run of the segments. -/
theorem main_run (c : Dev nD) : main (F := F) c = Pipeline.Seg.run (segs m) := (main_chain c).trans (by chain_rfl)

set_option backward.isDefEq.respectTransparency.types false in
/-- From any memory with zero counters every weakly fair execution of @main terminates, nothing faulting, with every
    unscoped buffer of every core at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W10 m c b) :=
  Pipeline.θ_run_regions_kit (pcfgs (F := F)) tabs (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun _ => .rfl, fun _ => .rfl, fun _ => .rfl,
      fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W10 m c b)
    (hfin := fun c s' => by
      iintro ⟨⟨Hh, -⟩, HSI⟩
      unfold StableHlo.held
      imodintro
      iapply (pointsTo_read_all (Pipeline.ucRefs τ sig) (fun b => (((c : Thread nD τ)).1, b)) (W10 m c) s')
      isplitl [Hh] <;> iassumption)
    (hQ := fun s h => h)

/-- An argument array, or any buffer nothing writes, ends as launched. -/
theorem run_keeps {r : PUnit × MemSt nD τ sig (Elt F)} (h : ∀ c : Dev nD, ∀ b ∈ Pipeline.ucRefs τ sig, r.2.mem (((c : Thread nD τ)).1, b) = W10 m c b)
    (c : Dev nD) (b : Ref sig .tc) (hu : ¬ (Proc.devRef .tc b : DevRef τ sig).isScoped)
    (h0 : b ∉ (hostOps0_W : List (Ref sig .tc))) (g0 : b ≠ main_v21) (h1 : b ∉ (hostOps1_W : List (Ref sig .tc))) (g1 : b ≠ main_v33)
    (h2 : b ∉ (hostOps2_W : List (Ref sig .tc))) (g2 : b ≠ main_v45) (h3 : b ∉ (hostOps3_W : List (Ref sig .tc))) (g3 : b ≠ main_v57)
    (h4 : b ∉ (hostOps4_W : List (Ref sig .tc))) (g4 : b ≠ main_v59) :
    r.2.mem ((c.tc : Thread nD τ).loc b) = m ((c.tc : Thread nD τ).loc b) :=
  (h c _ (mem_uc b hu)).trans (W10_launch m c b h0 g0 h1 g1 h2 g2 h3 g3 h4 g4)

/-- Every argument array ends as launched: no host operation writes one and none is a region's output. -/
theorem args_kept {r : PUnit × MemSt nD τ sig (Elt F)} (h : ∀ c : Dev nD, ∀ b ∈ Pipeline.ucRefs τ sig, r.2.mem (((c : Thread nD τ)).1, b) = W10 m c b)
    (c : Dev nD) :
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16) :=
  ⟨run_keeps m h c main_arg0 (by decide) (by decide) (by decide) (by decide) (by decide) (by decide) (by decide) (by decide) (by decide) (by decide) (by decide),
    run_keeps m h c main_arg1 (by decide) (by decide) (by decide) (by decide) (by decide) (by decide) (by decide) (by decide) (by decide) (by decide) (by decide),
    run_keeps m h c main_arg2 (by decide) (by decide) (by decide) (by decide) (by decide) (by decide) (by decide) (by decide) (by decide) (by decide) (by decide),
    run_keeps m h c main_arg3 (by decide) (by decide) (by decide) (by decide) (by decide) (by decide) (by decide) (by decide) (by decide) (by decide) (by decide),
    run_keeps m h c main_arg4 (by decide) (by decide) (by decide) (by decide) (by decide) (by decide) (by decide) (by decide) (by decide) (by decide) (by decide),
    run_keeps m h c main_arg5 (by decide) (by decide) (by decide) (by decide) (by decide) (by decide) (by decide) (by decide) (by decide) (by decide) (by decide),
    run_keeps m h c main_arg6 (by decide) (by decide) (by decide) (by decide) (by decide) (by decide) (by decide) (by decide) (by decide) (by decide) (by decide),
    run_keeps m h c main_arg7 (by decide) (by decide) (by decide) (by decide) (by decide) (by decide) (by decide) (by decide) (by decide) (by decide) (by decide),
    run_keeps m h c main_arg8 (by decide) (by decide) (by decide) (by decide) (by decide) (by decide) (by decide) (by decide) (by decide) (by decide) (by decide),
    run_keeps m h c main_arg9 (by decide) (by decide) (by decide) (by decide) (by decide) (by decide) (by decide) (by decide) (by decide) (by decide) (by decide),
    run_keeps m h c main_arg10 (by decide) (by decide) (by decide) (by decide) (by decide) (by decide) (by decide) (by decide) (by decide) (by decide) (by decide),
    run_keeps m h c main_arg11 (by decide) (by decide) (by decide) (by decide) (by decide) (by decide) (by decide) (by decide) (by decide) (by decide) (by decide),
    run_keeps m h c main_arg12 (by decide) (by decide) (by decide) (by decide) (by decide) (by decide) (by decide) (by decide) (by decide) (by decide) (by decide),
    run_keeps m h c main_arg13 (by decide) (by decide) (by decide) (by decide) (by decide) (by decide) (by decide) (by decide) (by decide) (by decide) (by decide),
    run_keeps m h c main_arg14 (by decide) (by decide) (by decide) (by decide) (by decide) (by decide) (by decide) (by decide) (by decide) (by decide) (by decide),
    run_keeps m h c main_arg15 (by decide) (by decide) (by decide) (by decide) (by decide) (by decide) (by decide) (by decide) (by decide) (by decide) (by decide),
    run_keeps m h c main_arg16 (by decide) (by decide) (by decide) (by decide) (by decide) (by decide) (by decide) (by decide) (by decide) (by decide) (by decide)⟩

/-- The frame: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)) :=
  (θ_run defs _ _).mono (fun r h c => args_kept m h c) (run_all m ρ)

/-- The result array ends at what the last region's write-backs leave, and every argument array as launched. -/
theorem result (r : PUnit × MemSt nD τ sig (Elt F)) (h : ∀ c : Dev nD, ∀ b ∈ Pipeline.ucRefs τ sig, r.2.mem (((c : Thread nD τ)).1, b) = W10 m c b)
    (c : Dev nD) : r.2.mem ((c.tc : Thread nD τ).loc main_v59) = (Pool.dat (U9 m) c).arrAt 4 cfg4.N :=
  (h c _ (mem_uc main_v59 (by decide))).trans (W10_arr m c 4)

end Cert.KernelIdeal.Run

end
-- ==== Proof.KernelIdealHost.lean ====
import proofs.«406495_j16578573763454_3_alg».proof.Proof.Gen.KernelIdeal.Launch
import Idealize.ShloMosaic.Lib.StableHlo.Run

/-!
# The host stretches of the kernel program, as terms over a valuation

The kernel program's `@main` alternates five stretches of host operations with five kernel regions.
This module says what each stretch leaves in the buffers the regions read, as a closed term over the
valuation `W` the stretch starts from:

* the edge list's two rows, flattened (`edgeSrc`, `edgeDst`), and the graph ids as a column;
* the neighbour count of every node — the scatter-add of ones at the destination of every edge
  (`edgeCount`) — as a column;
* the neighbour SUM of a feature table `x` — the rows `x[src e]` (a negative source index wrapped by
  the table's height, as the gather's lowering does) added into a zero table at row `dst e`
  (`aggRows3` at 3 columns, `aggRows64` at 64);
* each layer's bias as a one-row table.

Every statement is generic in the float model `F` and in the starting valuation `W`.
-/

noncomputable section

namespace Cert.KernelIdeal.HostSide

open Cert.KernelIdeal Cert.KernelIdeal.Gen Idealize.ShloMosaic Idealize.ShloMosaic.TcCoe

variable {F : FTy → Type} [FloatOps F]

/-! ## The shared terms -/

/-- Row 0 of the edge list (the sources), flattened to a vector. -/
def edgeSrc (e : IVec S2x3200000 32) : IVec S3200000 32 :=
  shapeCast S3200000 (extractStridedSlice S1x3200000 ![0, 0] e slices_S2x3200000_S1x3200000_0_0)
    shapeCasts_S1x3200000_S3200000

/-- Row 1 of the edge list (the destinations), flattened to a vector. -/
def edgeDst (e : IVec S2x3200000 32) : IVec S3200000 32 :=
  shapeCast S3200000 (extractStridedSlice S1x3200000 ![1, 0] e slices_S2x3200000_S1x3200000_1_0)
    shapeCasts_S1x3200000_S3200000

/-- The gather's start indices: a negative source index has the table's height 100000 added (the
    wrap `x[i]` lowers to), then the vector is made a column. -/
def srcCol (src : IVec S3200000 32) : IVec S3200000x1 32 :=
  broadcastInDim S3200000x1 ![0] bcast_S3200000_S3200000x1_0
    (select (cmpi .slt src (broadcastInDim S3200000 ![] bcast_S_S3200000 (constantI S_ 32 0#32)))
      (addi src (broadcastInDim S3200000 ![] bcast_S_S3200000 (constantI S_ 32 100000#32)))
      src)

/-- The scatter's indices: the destinations as a column. -/
def dstCol (dst : IVec S3200000 32) : IVec S3200000x1 32 :=
  broadcastInDim S3200000x1 ![0] bcast_S3200000_S3200000x1_0 dst

/-- The neighbour sum of a 3-column table: into zeros, at row `dst e`, add row `src e` of `x`. -/
def aggRows3 (x : Vec F S100000x3 .f32) (src dst : IVec S3200000 32) : Vec F S100000x3 .f32 :=
  Host.scatterAdd scatter_S100000x3_S3200000x1_S3200000x3_1_0_0_1
    (broadcastInDim S100000x3 ![] bcast_S_S100000x3 (constant (F := F) S_ .f32 0x00000000#32))
    (dstCol dst)
    (Host.gather gather_S100000x3_S3200000x1_S3200000x3_1_0_n_n_0_1_13 x (srcCol src))

/-- The neighbour sum of a 64-column table. -/
def aggRows64 (h : Vec F S100000x64 .f32) (src dst : IVec S3200000 32) : Vec F S100000x64 .f32 :=
  Host.scatterAdd scatter_S100000x64_S3200000x1_S3200000x64_1_0_0_1
    (broadcastInDim S100000x64 ![] bcast_S_S100000x64 (constant (F := F) S_ .f32 0x00000000#32))
    (dstCol dst)
    (Host.gather gather_S100000x64_S3200000x1_S3200000x64_1_0_n_n_0_1_164 h (srcCol src))

/-- The neighbour count: into zeros, at `dst e`, add one per edge. Its index column is `dstCol dst`. -/
def edgeCount (dst : IVec S3200000 32) : Vec F S100000 .f32 :=
  Host.scatterAdd scatter_S100000_S3200000x1_S3200000_n_0_0_1
    (broadcastInDim S100000 ![] bcast_S_S100000 (constant (F := F) S_ .f32 0x00000000#32))
    (dstCol dst)
    (broadcastInDim S3200000 ![] bcast_S_S3200000 (constant (F := F) S_ .f32 0x3F800000#32))

variable (W : Valuation τ sig (Elt F))

/-! ## Stretch 0 -/

theorem s0_src : (StableHlo.after hostOps0 W main_v1 : IVec S3200000 32) = edgeSrc (W main_arg1) := by
  unfold edgeSrc; dsimp only [hostOps0]; after_results; rfl

theorem s0_dst : (StableHlo.after hostOps0 W main_v3 : IVec S3200000 32) = edgeDst (W main_arg1) := by
  unfold edgeDst; dsimp only [hostOps0]; after_results; rfl

theorem s0_ids : (StableHlo.after hostOps0 W main_v4 : IVec S100000x1 32)
    = shapeCast S100000x1 (W main_arg2 : IVec S100000 32) shapeCasts_S100000_S100000x1 := by
  dsimp only [hostOps0]; after_results; rfl

theorem s0_cnt : (StableHlo.after hostOps0 W main_v9 : Vec F S100000x1 .f32)
    = shapeCast S100000x1 (edgeCount (F := F) (edgeDst (W main_arg1))) shapeCasts_S100000_S100000x1 := by
  unfold edgeCount dstCol edgeDst; dsimp only [hostOps0]; after_results; rfl

theorem s0_agg : (StableHlo.after hostOps0 W main_v19 : Vec F S100000x3 .f32)
    = aggRows3 (W main_arg0) (edgeSrc (W main_arg1)) (edgeDst (W main_arg1)) := by
  unfold aggRows3 dstCol srcCol edgeSrc edgeDst; dsimp only [hostOps0]; after_results_simp <;> rfl

theorem s0_bias : (StableHlo.after hostOps0 W main_v20 : Vec F S1x64 .f32)
    = shapeCast S1x64 (W main_arg4 : Vec F S64 .f32) shapeCasts_S64_S1x64 := by
  dsimp only [hostOps0]; after_results; rfl

/-! ## Stretches 1, 2, 3 -/

theorem s1_agg : (StableHlo.after hostOps1 W main_v31 : Vec F S100000x64 .f32)
    = aggRows64 (W main_v21) (W main_v1) (W main_v3) := by
  unfold aggRows64 dstCol srcCol; dsimp only [hostOps1]; after_results_simp <;> rfl

theorem s1_bias : (StableHlo.after hostOps1 W main_v32 : Vec F S1x64 .f32)
    = shapeCast S1x64 (W main_arg7 : Vec F S64 .f32) shapeCasts_S64_S1x64 := by
  dsimp only [hostOps1]; after_results; rfl

theorem s2_agg : (StableHlo.after hostOps2 W main_v43 : Vec F S100000x64 .f32)
    = aggRows64 (W main_v33) (W main_v1) (W main_v3) := by
  unfold aggRows64 dstCol srcCol; dsimp only [hostOps2]; after_results_simp <;> rfl

theorem s2_bias : (StableHlo.after hostOps2 W main_v44 : Vec F S1x64 .f32)
    = shapeCast S1x64 (W main_arg10 : Vec F S64 .f32) shapeCasts_S64_S1x64 := by
  dsimp only [hostOps2]; after_results; rfl

theorem s3_agg : (StableHlo.after hostOps3 W main_v55 : Vec F S100000x64 .f32)
    = aggRows64 (W main_v45) (W main_v1) (W main_v3) := by
  unfold aggRows64 dstCol srcCol; dsimp only [hostOps3]; after_results_simp <;> rfl

theorem s3_bias : (StableHlo.after hostOps3 W main_v56 : Vec F S1x64 .f32)
    = shapeCast S1x64 (W main_arg13 : Vec F S64 .f32) shapeCasts_S64_S1x64 := by
  dsimp only [hostOps3]; after_results; rfl

/-! ## Stretch 4 -/

theorem s4_bias : (StableHlo.after hostOps4 W main_v58 : Vec F S1x128 .f32)
    = shapeCast S1x128 (W main_arg16 : Vec F S128 .f32) shapeCasts_S128_S1x128 := by
  dsimp only [hostOps4]; after_results; rfl

end Cert.KernelIdeal.HostSide
-- ==== Proof.Spec.lean ====
/-
  What both programs compute, index by index over the extended reals.

  A SAGE layer on N = 100000 nodes with D input channels and 64 output channels: at node p and channel o,
      relu ( Σ_k (agg p k / max (cnt p) 1) · Wl k o  +  Σ_k x p k · Wr k o  +  b o ),
  agg the sum of the neighbours' rows and cnt their number. The pooling tail on G = 128 graphs: the rows of the last
  layer summed per graph (a node belongs to graph g when its graph id, read as a signed word, is g; a node whose id is
  no graph belongs to none), divided by max (the graph's node count) 1, sent through the last linear layer, and each
  graph's row of 128 scaled by 1 / max (its Euclidean norm) ε. The constants 1, 0 and ε are kept as the words the two
  programs share.
-/
import Idealize.ShloMosaic.PureOps.Ideal
import Idealize.ShloMosaic.Lib.ValueIdx

noncomputable section

namespace Cert.Spec

open Idealize.ShloMosaic Idealize.ShloMosaic.ValueIdx

/-- The float words both programs share: 1, 0, and the normalisation's ε. -/
abbrev one : EReal := Ideal.ofBits .f32 0x3F800000#32
abbrev zero : EReal := Ideal.ofBits .f32 0x00000000#32
abbrev eps : EReal := Ideal.ofBits .f32 0x2B8CBCCC#32

/-- A vector of n entries as the column [n, 1], as the row [1, n], and a column [n, 1] of words flattened back. -/
def colOf {n : ℕ} (v : FVec Ideal ⟨1, ![n]⟩ .f32) : FVec Ideal ⟨2, ![n, 1]⟩ .f32 := fun i => v (ix1 (i 0))
def rowOf {n : ℕ} (v : FVec Ideal ⟨1, ![n]⟩ .f32) : FVec Ideal ⟨2, ![1, n]⟩ .f32 := fun i => v (ix1 (i 1))
def flatCol {n : ℕ} (b : IVec ⟨2, ![n, 1]⟩ 32) : IVec ⟨1, ![n]⟩ 32 := fun i => b (ix2 (i 0) (0 : Fin 1))

theorem colOf_apply {n : ℕ} (v : FVec Ideal ⟨1, ![n]⟩ .f32) (p : Fin n) (u : Fin 1) : colOf v (ix2 p u) = v (ix1 p) := rfl
theorem rowOf_apply {n : ℕ} (v : FVec Ideal ⟨1, ![n]⟩ .f32) (u : Fin 1) (o : Fin n) : rowOf v (ix2 u o) = v (ix1 o) := rfl
theorem flatCol_apply {n : ℕ} (b : IVec ⟨2, ![n, 1]⟩ 32) (p : Fin n) : flatCol b (ix1 p) = b (ix2 p (0 : Fin 1)) := rfl

/-- One SAGE layer at node p, output channel o: the mean of the neighbours through Wl, the node's own row through Wr,
    the bias, and the relu. -/
def sageAt {D : ℕ} (agg : FVec Ideal ⟨2, ![100000, D]⟩ .f32) (cnt : FVec Ideal ⟨2, ![100000, 1]⟩ .f32)
    (x : FVec Ideal ⟨2, ![100000, D]⟩ .f32) (Wl : FVec Ideal ⟨2, ![D, 64]⟩ .f32) (bl : FVec Ideal ⟨2, ![1, 64]⟩ .f32)
    (Wr : FVec Ideal ⟨2, ![D, 64]⟩ .f32) (p : Fin 100000) (o : Fin 64) : EReal :=
  max (((∑ k : Fin D, Ideal.div (agg (ix2 p k)) (max (cnt (ix2 p (0 : Fin 1))) one) * Wl (ix2 k o))
        + ∑ k : Fin D, x (ix2 p k) * Wr (ix2 k o)) + bl (ix2 (0 : Fin 1) o)) zero

/-- The layer as an array. -/
def sage {D : ℕ} (agg : FVec Ideal ⟨2, ![100000, D]⟩ .f32) (cnt : FVec Ideal ⟨2, ![100000, 1]⟩ .f32)
    (x : FVec Ideal ⟨2, ![100000, D]⟩ .f32) (Wl : FVec Ideal ⟨2, ![D, 64]⟩ .f32) (bl : FVec Ideal ⟨2, ![1, 64]⟩ .f32)
    (Wr : FVec Ideal ⟨2, ![D, 64]⟩ .f32) : FVec Ideal ⟨2, ![100000, 64]⟩ .f32 :=
  fun i => sageAt agg cnt x Wl bl Wr (i 0) (i 1)

theorem sage_apply {D : ℕ} (agg : FVec Ideal ⟨2, ![100000, D]⟩ .f32) (cnt : FVec Ideal ⟨2, ![100000, 1]⟩ .f32)
    (x : FVec Ideal ⟨2, ![100000, D]⟩ .f32) (Wl : FVec Ideal ⟨2, ![D, 64]⟩ .f32) (bl : FVec Ideal ⟨2, ![1, 64]⟩ .f32)
    (Wr : FVec Ideal ⟨2, ![D, 64]⟩ .f32) (p : Fin 100000) (o : Fin 64) :
    sage agg cnt x Wl bl Wr (ix2 p o) = sageAt agg cnt x Wl bl Wr p o := rfl

/-- Node n belongs to graph g. -/
abbrev inGraph (batch : IVec ⟨1, ![100000]⟩ 32) (n : Fin 100000) (g : Fin 128) : Prop :=
  (batch (ix1 n)).toInt = (g.val : ℤ)

/-- The sum of channel j over the nodes of graph g. -/
def poolSumAt (h : FVec Ideal ⟨2, ![100000, 64]⟩ .f32) (batch : IVec ⟨1, ![100000]⟩ 32) (g : Fin 128) (j : Fin 64) : EReal :=
  ∑ n : Fin 100000, if inGraph batch n g then h (ix2 n j) else 0

/-- The number of nodes of graph g. -/
def poolCntAt (batch : IVec ⟨1, ![100000]⟩ 32) (g : Fin 128) : EReal :=
  ∑ n : Fin 100000, if inGraph batch n g then (1 : EReal) else 0

/-- The last linear layer on the pooled mean, at graph g and output o. -/
def fcAt (h : FVec Ideal ⟨2, ![100000, 64]⟩ .f32) (batch : IVec ⟨1, ![100000]⟩ 32) (Wfc : FVec Ideal ⟨2, ![64, 128]⟩ .f32)
    (bfc : FVec Ideal ⟨2, ![1, 128]⟩ .f32) (g : Fin 128) (o : Fin 128) : EReal :=
  (∑ j : Fin 64, Ideal.div (poolSumAt h batch g j) (max (poolCntAt batch g) one) * Wfc (ix2 j o)) + bfc (ix2 (0 : Fin 1) o)

/-- The result: graph g's row scaled by the reciprocal of its norm, the norm kept above ε. -/
def headAt (h : FVec Ideal ⟨2, ![100000, 64]⟩ .f32) (batch : IVec ⟨1, ![100000]⟩ 32) (Wfc : FVec Ideal ⟨2, ![64, 128]⟩ .f32)
    (bfc : FVec Ideal ⟨2, ![1, 128]⟩ .f32) (g : Fin 128) (o : Fin 128) : EReal :=
  Ideal.div (fcAt h batch Wfc bfc g o)
    (max (Ideal.sqrt (∑ o' : Fin 128, fcAt h batch Wfc bfc g o' * fcAt h batch Wfc bfc g o')) eps)

/-- The result as an array. -/
def head (h : FVec Ideal ⟨2, ![100000, 64]⟩ .f32) (batch : IVec ⟨1, ![100000]⟩ 32) (Wfc : FVec Ideal ⟨2, ![64, 128]⟩ .f32)
    (bfc : FVec Ideal ⟨2, ![1, 128]⟩ .f32) : FVec Ideal ⟨2, ![128, 128]⟩ .f32 :=
  fun i => headAt h batch Wfc bfc (i 0) (i 1)

theorem head_apply (h : FVec Ideal ⟨2, ![100000, 64]⟩ .f32) (batch : IVec ⟨1, ![100000]⟩ 32) (Wfc : FVec Ideal ⟨2, ![64, 128]⟩ .f32)
    (bfc : FVec Ideal ⟨2, ![1, 128]⟩ .f32) (g : Fin 128) (o : Fin 128) :
    head h batch Wfc bfc (ix2 g o) = headAt h batch Wfc bfc g o := rfl

end Cert.Spec

end
-- ==== Proof.KernelIdealLayers.lean ====
/-
  The kernel program's value as functions of plain arrays: the four SAGE layers of the specification, each on the
  neighbour sums the host stretch before it forms (the scatter-add at the edges' destination nodes of the rows gathered at
  their source nodes) and on the neighbour counts as a column, and the pooling tail on the last of them.
-/
import proofs.«406495_j16578573763454_3_alg».proof.Proof.KernelIdealHost
import proofs.«406495_j16578573763454_3_alg».proof.Proof.Spec

noncomputable section

namespace Cert.KernelIdeal.Layers

open Cert.KernelIdeal Cert.KernelIdeal.Gen Cert.KernelIdeal.HostSide
open Idealize.ShloMosaic

/-- The number of edges into every node, as a column. -/
def cntCol (e : IVec S2x3200000 32) : Vec Ideal S100000x1 .f32 :=
  shapeCast S100000x1 (edgeCount (F := Ideal) (edgeDst e)) shapeCasts_S100000_S100000x1

/-- The first layer on the node features. -/
def kh1 (x : Vec Ideal S100000x3 .f32) (e : IVec S2x3200000 32) (wl : Vec Ideal S3x64 .f32) (bl : Vec Ideal S64 .f32) (wr : Vec Ideal S3x64 .f32) :
    Vec Ideal S100000x64 .f32 :=
  Spec.sage (aggRows3 x (edgeSrc e) (edgeDst e)) (cntCol e) x wl (shapeCast S1x64 bl shapeCasts_S64_S1x64) wr

/-- A later layer on the layer before it. -/
def khNext (h : Vec Ideal S100000x64 .f32) (e : IVec S2x3200000 32) (wl : Vec Ideal S64x64 .f32) (bl : Vec Ideal S64 .f32) (wr : Vec Ideal S64x64 .f32) :
    Vec Ideal S100000x64 .f32 :=
  Spec.sage (aggRows64 h (edgeSrc e) (edgeDst e)) (cntCol e) h wl (shapeCast S1x64 bl shapeCasts_S64_S1x64) wr

/-- The pooling tail on the last layer. -/
def kTail (h : Vec Ideal S100000x64 .f32) (ids : IVec S100000 32) (wfc : Vec Ideal S64x128 .f32) (bfc : Vec Ideal S128 .f32) : Vec Ideal S128x128 .f32 :=
  Spec.head h (Spec.flatCol (shapeCast S100000x1 ids shapeCasts_S100000_S100000x1)) wfc (shapeCast S1x128 bfc shapeCasts_S128_S1x128)

/-- The whole program. -/
def kout (x0 : Vec Ideal S100000x3 .f32) (x1 : IVec S2x3200000 32) (x2 : IVec S100000 32)
    (x3 : Vec Ideal S3x64 .f32) (x4 : Vec Ideal S64 .f32) (x5 : Vec Ideal S3x64 .f32)
    (x6 : Vec Ideal S64x64 .f32) (x7 : Vec Ideal S64 .f32) (x8 : Vec Ideal S64x64 .f32)
    (x9 : Vec Ideal S64x64 .f32) (x10 : Vec Ideal S64 .f32) (x11 : Vec Ideal S64x64 .f32)
    (x12 : Vec Ideal S64x64 .f32) (x13 : Vec Ideal S64 .f32) (x14 : Vec Ideal S64x64 .f32)
    (x15 : Vec Ideal S64x128 .f32) (x16 : Vec Ideal S128 .f32) : Vec Ideal S128x128 .f32 :=
  kTail (khNext (khNext (khNext (kh1 x0 x1 x3 x4 x5) x1 x6 x7 x8) x1 x9 x10 x11) x1 x12 x13 x14) x2 x15 x16

end Cert.KernelIdeal.Layers

end
-- ==== Proof.LibPlainMatmul.lean ====
/-
  A plain matrix product read at an index, at the ideal values.

  For dimension numbers `d` over shapes [M, K] × [K, N] → [M, N] that contract the left operand's axis 1 with the right
  operand's axis 0 and keep the left rows and the right columns — stated here as the four facts about the record's index
  maps that say so, so that the lemma serves any record, whatever its generated name — the product accumulated into the
  zero splat, read at `(p, o)`, is `∑ k, A (p, k) · B (k, o)`: the library's sum over the record's contraction index set,
  re-indexed by that set's one coordinate.
-/
import Idealize.ShloMosaic.PureOps.Ideal.Laws
import Idealize.ShloMosaic.Lib.ValueIdx

noncomputable section

open scoped BigOperators
open Idealize.ShloMosaic Idealize.ShloMosaic.ValueIdx

namespace Cert.LibPlainMatmul

/-- `FloatOps.matmul d prec A B 0 (p, o) = ∑ k : Fin K, A (p, k) * B (k, o)` for a record `d` with one contracted axis of
    extent `K` whose left index at `(i, q)` is `(i 0, q)` and whose right index is `(q, i 1)` (`hl0`, `hl1`, `hr0`, `hr1`:
    for a generated record the first and last are a `dif_neg` / `dif_pos` on its literal axis lists, the middle two are
    `DotDims.lhsIdx_val_of_single` / `rhsIdx_val_of_single`). -/
theorem matmul_zero_apply {M K N : ℕ} {φ₁ φ₂ : FTy}
    (d : DotDims ⟨2, ![M, K]⟩ ⟨2, ![K, N]⟩ ⟨2, ![M, N]⟩) (prec : Option ContractPrecision)
    (hr : d.contr.rank = 1) (hs : d.contr.size ⟨0, by omega⟩ = K)
    (hl0 : ∀ (i : (⟨2, ![M, N]⟩ : Shape).Idx) (q : d.contr.Idx), (d.lhsIdx i q 0).val = (i 0).val)
    (hl1 : ∀ (i : (⟨2, ![M, N]⟩ : Shape).Idx) (q : d.contr.Idx), (d.lhsIdx i q 1).val = (q ⟨0, by omega⟩).val)
    (hr0 : ∀ (i : (⟨2, ![M, N]⟩ : Shape).Idx) (q : d.contr.Idx), (d.rhsIdx i q 0).val = (q ⟨0, by omega⟩).val)
    (hr1 : ∀ (i : (⟨2, ![M, N]⟩ : Shape).Idx) (q : d.contr.Idx), (d.rhsIdx i q 1).val = (i 1).val)
    (A : FVec Ideal ⟨2, ![M, K]⟩ φ₁) (B : FVec Ideal ⟨2, ![K, N]⟩ φ₂) (p : Fin M) (o : Fin N) :
    FloatOps.matmul d prec A B (constant (F := Ideal) ⟨2, ![M, N]⟩ .f32 0x00000000#32) (ix2 p o)
      = ∑ k : Fin K, A (ix2 p k) * B (ix2 k o) := by
  rw [Ideal.matmul_constant_zero_apply, ← Equiv.sum_comp (contrEquiv1 d K hr hs).symm]
  refine Finset.sum_congr rfl fun k _ => ?_
  have hk := contrEquiv1_symm_val d K hr hs k
  have el : d.lhsIdx (ix2 p o) ((contrEquiv1 d K hr hs).symm k) = ix2 p k := funext fun a => Fin.ext (by
    match a with
    | ⟨0, _⟩ => exact hl0 _ _
    | ⟨1, _⟩ => exact (hl1 _ _).trans hk)
  have er : d.rhsIdx (ix2 p o) ((contrEquiv1 d K hr hs).symm k) = ix2 k o := funext fun a => Fin.ext (by
    match a with
    | ⟨0, _⟩ => exact (hr0 _ _).trans hk
    | ⟨1, _⟩ => exact hr1 _ _)
  rw [el, er]

end Cert.LibPlainMatmul

end
-- ==== Proof.LibColumnForms.lean ====
/-
  The two layout steps of a `keepdims` reduction along the lanes, read at an index: a vector of `a` row results cast to
  the column `[a, 1]`, and that column broadcast along the lanes to `[a, b]`. Composed, every entry of row `p` of the
  result is the row's one reduced value.
-/
import Idealize.ShloMosaic.Lib.Pipeline.Value
import Idealize.ShloMosaic.Lib.ValueIdx

noncomputable section

open Idealize.ShloMosaic Idealize.ShloMosaic.ValueIdx

namespace Cert.LibColumnForms

variable {α : Type}

/-- An `[a]` array cast to the column `[a, 1]` reads, at `(i, u)`, the operand at `i`, whatever the unit coordinate. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast along the lanes to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.LibColumnForms

end
-- ==== Proof.KernelIdealSageValue1.lean ====
/-
  The value of one SAGE layer's linear stage, tile by tile and then as an array, over the extended reals.

  The body stores one payload over the whole output tile of 4000 nodes. Read at row r and output channel o that payload
  is relu (Σ_k (agg r k / max (cnt r) 1) · Wl k o + Σ_k x r k · Wr k o + b o): the two matrix products are the rows' dot
  products with the weights' columns, the narrowing of their operands is the identity on the extended reals, the count's
  column is broadcast along the channels and the bias's row along the nodes (tile_apply). At grid point t the three tiles
  of rows are rows 4000 t … 4000 t + 3999 of their arrays and the weights and the bias are resident, so what point t
  writes back is block t of the layer of the arrays the region was entered with; node p lies in the block of point
  p / 4000, so the blocks cover the array and the array the write-backs leave is that layer (arr_out).
-/
import proofs.«406495_j16578573763454_3_alg».proof.Proof.KernelIdealSage1
import proofs.«406495_j16578573763454_3_alg».proof.Proof.Spec
import proofs.«406495_j16578573763454_3_alg».proof.Proof.LibPlainMatmul
import proofs.«406495_j16578573763454_3_alg».proof.Proof.LibColumnForms
import Idealize.ShloMosaic.Lib.ValueIdx
import Idealize.ShloMosaic.Lib.Pipeline.Value
import Idealize.ShloMosaic.Lib.ValueLayout
import Idealize.ShloMosaic.PureOps.Ideal.Laws

set_option maxRecDepth 16384

noncomputable section

namespace Cert.KernelIdeal.SageValue1

open Cert.KernelIdeal Cert.KernelIdeal.Gen
open Idealize.ShloMosaic Idealize.ShloMosaic.ValueIdx Idealize.ShloMosaic.TcCoe
open Idealize.SL.Sem
open Idealize.ShloMosaic.Pipeline (Dat)
open scoped BigOperators

/-- The layer's input width; the shapes of a tile of input rows, of a weight matrix and of the input array. -/
abbrev DIN : ℕ := 64
abbrev STile : Shape := S4000x64
abbrev SW : Shape := S64x64
abbrev SArr : Shape := S100000x64

/-! ## The product's record: which operand index an output index and a contraction index name -/

theorem dot_lhs_0 (i : S4000x64.Idx) (q : dot_S4000x64_S64x64_S4000x64_1_0_0_1_n_n.contr.Idx) :
    (dot_S4000x64_S64x64_S4000x64_1_0_0_1_n_n.lhsIdx i q 0).val = (i 0).val := by
  unfold DotDims.lhsIdx
  rw [dif_neg (show ¬(0 : Fin STile.rank) ∈ dot_S4000x64_S64x64_S4000x64_1_0_0_1_n_n.lhsBatch by decide), dif_pos (show (0 : Fin STile.rank) ∈ dot_S4000x64_S64x64_S4000x64_1_0_0_1_n_n.lhsNonContracting by decide)]
  rfl
theorem dot_lhs_1 (i : S4000x64.Idx) (q : dot_S4000x64_S64x64_S4000x64_1_0_0_1_n_n.contr.Idx) :
    (dot_S4000x64_S64x64_S4000x64_1_0_0_1_n_n.lhsIdx i q 1).val = (q ⟨0, by decide⟩).val :=
  dot_S4000x64_S64x64_S4000x64_1_0_0_1_n_n.lhsIdx_val_of_single rfl i q
theorem dot_rhs_0 (i : S4000x64.Idx) (q : dot_S4000x64_S64x64_S4000x64_1_0_0_1_n_n.contr.Idx) :
    (dot_S4000x64_S64x64_S4000x64_1_0_0_1_n_n.rhsIdx i q 0).val = (q ⟨0, by decide⟩).val :=
  dot_S4000x64_S64x64_S4000x64_1_0_0_1_n_n.rhsIdx_val_of_single rfl i q
theorem dot_rhs_1 (i : S4000x64.Idx) (q : dot_S4000x64_S64x64_S4000x64_1_0_0_1_n_n.contr.Idx) :
    (dot_S4000x64_S64x64_S4000x64_1_0_0_1_n_n.rhsIdx i q 1).val = (i 1).val := by
  unfold DotDims.rhsIdx
  rw [dif_neg (show ¬(1 : Fin SW.rank) ∈ dot_S4000x64_S64x64_S4000x64_1_0_0_1_n_n.rhsBatch by decide), dif_pos (show (1 : Fin SW.rank) ∈ dot_S4000x64_S64x64_S4000x64_1_0_0_1_n_n.rhsNonContracting by decide)]
  rfl

/-- A tile of rows times a weight matrix, accumulated into zero, at row r and channel o: the row's dot product with
    the matrix's column o. -/
theorem rows_matmul_apply {φ₁ φ₂ : FTy} (A : FVec Ideal STile φ₁) (B : FVec Ideal SW φ₂) (r : Fin 4000) (o : Fin 64) :
    FloatOps.matmul dot_S4000x64_S64x64_S4000x64_1_0_0_1_n_n none A B (constant (F := Ideal) S4000x64 .f32 0x00000000#32) (ix2 r o)
      = ∑ k : Fin DIN, A (ix2 r k) * B (ix2 k o) :=
  Cert.LibPlainMatmul.matmul_zero_apply dot_S4000x64_S64x64_S4000x64_1_0_0_1_n_n none rfl rfl dot_lhs_0 dot_lhs_1 dot_rhs_0 dot_rhs_1 A B r o

/-! ## The body's arithmetic at an index -/

/-- At row r of the tile and output channel o the body computes relu (mean · Wl + x · Wr + b): the narrowing of the
    products' operands is the identity on the extended reals, the count's column is read at the row, the bias's one row
    at the channel. -/
theorem pay_apply (xagg : Vec Ideal STile .f32) (xcnt : Vec Ideal S4000x1 .f32) (xin : Vec Ideal STile .f32)
    (xwl : Vec Ideal SW .f32) (xbl : Vec Ideal S1x64 .f32) (xwr : Vec Ideal SW .f32) (r : Fin 4000) (o : Fin 64) :
    k1_pay1 (F := Ideal) xcnt xagg xin xwl xwr xbl (ix2 r o)
      = max (((∑ k : Fin DIN, Ideal.div (xagg (ix2 r k)) (max (xcnt (ix2 r (0 : Fin 1))) Spec.one) * xwl (ix2 k o))
          + ∑ k : Fin DIN, xin (ix2 r k) * xwr (ix2 k o)) + xbl (ix2 (0 : Fin 1) o)) Spec.zero := by
  unfold k1_pay1
  simp only [maximumf_apply, addf_apply, broadcast_apply]
  refine congrArg₂ max (congrArg₂ (· + ·) (congrArg₂ (· + ·) ?_ ?_) ?_) rfl
  · -- the neighbours' mean through Wl
    refine (rows_matmul_apply _ _ r o).trans (Finset.sum_congr rfl fun k _ => ?_)
    simp only [truncf_apply, divf_apply, shapeCast_self, maximumf_apply, broadcast_apply,
      Cert.LibColumnForms.broadcastTo_a1_ab_apply]
    rfl
  · -- the node's own row through Wr
    refine (rows_matmul_apply _ _ r o).trans (Finset.sum_congr rfl fun k _ => ?_)
    simp only [truncf_apply, shapeCast_self]
  · -- the bias, its one row over all rows
    simp only [shapeCast_self, broadcastTo_1b_ab_apply]

/-- The store's rectangle starts at the tile's origin. -/
theorem origin : (![0, 0] : Fin 2 → Nat) = fun _ => 0 := funext fun a => by
  match a with
  | ⟨0, _⟩ => rfl
  | ⟨1, _⟩ => rfl

/-- What the body leaves in the output tile, at row r and channel o: the one store covers the tile, so the tile holds
    the store's payload. -/
theorem tile_apply (xagg : Vec Ideal STile .f32) (xcnt : Vec Ideal S4000x1 .f32) (xin : Vec Ideal STile .f32)
    (xwl : Vec Ideal SW .f32) (xbl : Vec Ideal S1x64 .f32) (xwr : Vec Ideal SW .f32) (r : Fin 4000) (o : Fin 64) :
    Sage1.outTile (F := Ideal) xagg xcnt xin xwl xbl xwr (ix2 r o)
      = max (((∑ k : Fin DIN, Ideal.div (xagg (ix2 r k)) (max (xcnt (ix2 r (0 : Fin 1))) Spec.one) * xwl (ix2 k o))
          + ∑ k : Fin DIN, xin (ix2 r k) * xwr (ix2 k o)) + xbl (ix2 (0 : Fin 1) o)) Spec.zero := by
  unfold Sage1.outTile
  rw [View.canon_unit_zero origin]
  exact pay_apply xagg xcnt xin xwl xbl xwr r o

/-! ## From tiles to the array -/

/-- The printed index maps over the grid: at point t the tiles of rows (neighbour sums, counts, input rows, output) are
    block (t, 0) of their arrays; the two weight matrices and the bias are block (0, 0), the whole array. -/
theorem index_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = t.val ∧ win1_6.index t (1 : Fin 2) = 0 :=
  (by decide +kernel : ∀ t : Fin grid1.N, _)

-- the TensorCore's buffer contents when the region is entered
variable (V : (c : Dev nD) → (b : Ref sig .tc) → Buf (Elt Ideal) ((c : Thread nD τ).loc b))

/-- The six arrays the region is entered with, at their literal shapes: the neighbour sums, the neighbour counts, the
    layer's input, the two weight matrices and the bias. -/
abbrev aggArr (c : Dev nD) : Vec Ideal SArr .f32 := V c (Pipeline.arrRef spec1 0)
abbrev cntArr (c : Dev nD) : Vec Ideal S100000x1 .f32 := V c (Pipeline.arrRef spec1 1)
abbrev inArr (c : Dev nD) : Vec Ideal SArr .f32 := V c (Pipeline.arrRef spec1 2)
abbrev wlArr (c : Dev nD) : Vec Ideal SW .f32 := V c (Pipeline.arrRef spec1 3)
abbrev blArr (c : Dev nD) : Vec Ideal S1x64 .f32 := V c (Pipeline.arrRef spec1 4)
abbrev wrArr (c : Dev nD) : Vec Ideal SW .f32 := V c (Pipeline.arrRef spec1 5)

/-- Their blocks at grid point t, at their literal shapes. -/
abbrev aggTile (c : Dev nD) (t : Fin cfg1.N) : Vec Ideal STile .f32 := Sage1.iblk V c 0 t
abbrev cntTile (c : Dev nD) (t : Fin cfg1.N) : Vec Ideal S4000x1 .f32 := Sage1.iblk V c 1 t
abbrev inTile (c : Dev nD) (t : Fin cfg1.N) : Vec Ideal STile .f32 := Sage1.iblk V c 2 t
abbrev wlBlk (c : Dev nD) (t : Fin cfg1.N) : Vec Ideal SW .f32 := Sage1.iblk V c 3 t
abbrev blBlk (c : Dev nD) (t : Fin cfg1.N) : Vec Ideal S1x64 .f32 := Sage1.iblk V c 4 t
abbrev wrBlk (c : Dev nD) (t : Fin cfg1.N) : Vec Ideal SW .f32 := Sage1.iblk V c 5 t

/-- Row r of the tile of neighbour sums at point t is row 4000 t + r of the array. -/
theorem aggTile_apply (c : Dev nD) (t : Fin cfg1.N) (r : Fin 4000) (k : Fin DIN) (p : Fin 100000)
    (hp : p.val = t.val * 4000 + r.val) : aggTile V c t (ix2 r k) = aggArr V c (ix2 p k) := by
  obtain ⟨e0, e1, -⟩ := index_facts t
  show V c (Pipeline.arrRef spec1 0) (((cfg1.win 0).blk t).view.emb (ix2 r k)) = V c (Pipeline.arrRef spec1 0) (ix2 p k)
  refine congrArg _ (funext fun a => Fin.ext ?_)
  match a with
  | ⟨0, _⟩ => show win1_0.index t (0 : Fin 2) * 4000 + 1 * r.val = p.val; omega
  | ⟨1, _⟩ => show win1_0.index t (1 : Fin 2) * DIN + 1 * k.val = k.val; rw [e1, Nat.zero_mul]; omega

/-- Row r of the tile of counts at point t is row 4000 t + r of the counts' column. -/
theorem cntTile_apply (c : Dev nD) (t : Fin cfg1.N) (r : Fin 4000) (p : Fin 100000)
    (hp : p.val = t.val * 4000 + r.val) : cntTile V c t (ix2 r (0 : Fin 1)) = cntArr V c (ix2 p (0 : Fin 1)) := by
  obtain ⟨-, -, e0, e1, -⟩ := index_facts t
  show V c (Pipeline.arrRef spec1 1) (((cfg1.win 1).blk t).view.emb (ix2 r (0 : Fin 1))) = V c (Pipeline.arrRef spec1 1) (ix2 p (0 : Fin 1))
  refine congrArg _ (funext fun a => Fin.ext ?_)
  match a with
  | ⟨0, _⟩ => show win1_1.index t (0 : Fin 2) * 4000 + 1 * r.val = p.val; omega
  | ⟨1, _⟩ => show win1_1.index t (1 : Fin 2) * 1 + 1 * (0 : Fin 1).val = (0 : Fin 1).val; omega

/-- Row r of the tile of input rows at point t is row 4000 t + r of the layer's input. -/
theorem inTile_apply (c : Dev nD) (t : Fin cfg1.N) (r : Fin 4000) (k : Fin DIN) (p : Fin 100000)
    (hp : p.val = t.val * 4000 + r.val) : inTile V c t (ix2 r k) = inArr V c (ix2 p k) := by
  obtain ⟨-, -, -, -, e0, e1, -⟩ := index_facts t
  show V c (Pipeline.arrRef spec1 2) (((cfg1.win 2).blk t).view.emb (ix2 r k)) = V c (Pipeline.arrRef spec1 2) (ix2 p k)
  refine congrArg _ (funext fun a => Fin.ext ?_)
  match a with
  | ⟨0, _⟩ => show win1_2.index t (0 : Fin 2) * 4000 + 1 * r.val = p.val; omega
  | ⟨1, _⟩ => show win1_2.index t (1 : Fin 2) * DIN + 1 * k.val = k.val; rw [e1, Nat.zero_mul]; omega

/-- The weights and the bias are resident: at every point the block is the whole array. -/
theorem wlBlk_eq (c : Dev nD) (t : Fin cfg1.N) : wlBlk V c t = wlArr V c := by
  obtain ⟨-, -, -, -, -, -, e0, e1, -⟩ := index_facts t
  funext j
  show V c (Pipeline.arrRef spec1 3) (((cfg1.win 3).blk t).view.emb j) = V c (Pipeline.arrRef spec1 3) j
  refine congrArg _ (funext fun a => Fin.ext ?_)
  match a with
  | ⟨0, _⟩ => show win1_3.index t (0 : Fin 2) * DIN + 1 * (j 0).val = (j 0).val; rw [e0, Nat.zero_mul]; omega
  | ⟨1, _⟩ => show win1_3.index t (1 : Fin 2) * 64 + 1 * (j 1).val = (j 1).val; omega
theorem blBlk_eq (c : Dev nD) (t : Fin cfg1.N) : blBlk V c t = blArr V c := by
  obtain ⟨-, -, -, -, -, -, -, -, e0, e1, -⟩ := index_facts t
  funext j
  show V c (Pipeline.arrRef spec1 4) (((cfg1.win 4).blk t).view.emb j) = V c (Pipeline.arrRef spec1 4) j
  refine congrArg _ (funext fun a => Fin.ext ?_)
  match a with
  | ⟨0, _⟩ => show win1_4.index t (0 : Fin 2) * 1 + 1 * (j 0).val = (j 0).val; omega
  | ⟨1, _⟩ => show win1_4.index t (1 : Fin 2) * 64 + 1 * (j 1).val = (j 1).val; omega
theorem wrBlk_eq (c : Dev nD) (t : Fin cfg1.N) : wrBlk V c t = wrArr V c := by
  obtain ⟨-, -, -, -, -, -, -, -, -, -, e0, e1, -⟩ := index_facts t
  funext j
  show V c (Pipeline.arrRef spec1 5) (((cfg1.win 5).blk t).view.emb j) = V c (Pipeline.arrRef spec1 5) j
  refine congrArg _ (funext fun a => Fin.ext ?_)
  match a with
  | ⟨0, _⟩ => show win1_5.index t (0 : Fin 2) * DIN + 1 * (j 0).val = (j 0).val; rw [e0, Nat.zero_mul]; omega
  | ⟨1, _⟩ => show win1_5.index t (1 : Fin 2) * 64 + 1 * (j 1).val = (j 1).val; omega

/-- One tile is the layer's rows: if the three tiles of rows are rows 4000 b + r of their arrays and the weights and
    bias are the arrays', the output tile at row r is the layer at node 4000 b + r. -/
theorem tile_is_layer_rows (agg : Vec Ideal SArr .f32) (cnt : Vec Ideal S100000x1 .f32) (x : Vec Ideal SArr .f32)
    (wl : Vec Ideal SW .f32) (bl : Vec Ideal S1x64 .f32) (wr : Vec Ideal SW .f32)
    (xagg : Vec Ideal STile .f32) (xcnt : Vec Ideal S4000x1 .f32) (xin : Vec Ideal STile .f32)
    (xwl : Vec Ideal SW .f32) (xbl : Vec Ideal S1x64 .f32) (xwr : Vec Ideal SW .f32)
    (r : Fin 4000) (o : Fin 64) (p : Fin 100000)
    (hagg : ∀ k : Fin DIN, xagg (ix2 r k) = agg (ix2 p k)) (hcnt : xcnt (ix2 r (0 : Fin 1)) = cnt (ix2 p (0 : Fin 1)))
    (hin : ∀ k : Fin DIN, xin (ix2 r k) = x (ix2 p k)) (hwl : xwl = wl) (hbl : xbl = bl) (hwr : xwr = wr) :
    Sage1.outTile (F := Ideal) xagg xcnt xin xwl xbl xwr (ix2 r o) = Spec.sage agg cnt x wl bl wr (ix2 p o) := by
  rw [tile_apply, Spec.sage_apply]
  unfold Spec.sageAt
  subst hwl hbl hwr
  simp only [hagg, hcnt, hin]

/-- The layer of the arrays the region is entered with. -/
abbrev layer (c : Dev nD) : Vec Ideal S100000x64 .f32 :=
  Spec.sage (aggArr V c) (cntArr V c) (inArr V c) (wlArr V c) (blArr V c) (wrArr V c)

/-- What point t writes back is block t of the layer: rows 4000 t … 4000 t + 3999. -/
theorem flushed_eq (c : Dev nD) (t : Fin cfg1.N) :
    (Sage1.dat (F := Ideal) V c).flushed 6 t = ((cfg1.win 6).blk t).view.read (Elt Ideal) (layer V c) := by
  obtain ⟨-, -, -, -, -, -, -, -, -, -, -, -, e0, e1⟩ := index_facts t
  have ht : t.val < 25 := Nat.lt_of_lt_of_eq t.isLt N_1
  show (cfg1.win 6).cut (grid1.coords t) ((Sage1.dat (F := Ideal) V c).after 6 t) = _
  rw [Sage1.after_6]
  funext j
  obtain ⟨r, o, rfl⟩ : ∃ (r : Fin 4000) (o : Fin 64), j = ix2 r o := ⟨j 0, j 1, eq_ix2 j⟩
  have hr : r.val < 4000 := r.isLt
  have hemb : ((cfg1.win 6).blk t).view.emb (ix2 r o) = ix2 (⟨t.val * 4000 + r.val, by omega⟩ : Fin 100000) o :=
    funext fun a => Fin.ext (by
      match a with
      | ⟨0, _⟩ => show win1_6.index t (0 : Fin 2) * 4000 + 1 * r.val = t.val * 4000 + r.val; omega
      | ⟨1, _⟩ => show win1_6.index t (1 : Fin 2) * 64 + 1 * o.val = o.val; omega)
  show Sage1.outTile (F := Ideal) (aggTile V c t) (cntTile V c t) (inTile V c t) (wlBlk V c t) (blBlk V c t) (wrBlk V c t) (ix2 r o)
    = layer V c (((cfg1.win 6).blk t).view.emb (ix2 r o))
  refine (tile_is_layer_rows (aggArr V c) (cntArr V c) (inArr V c) (wlArr V c) (blArr V c) (wrArr V c)
    (aggTile V c t) (cntTile V c t) (inTile V c t) (wlBlk V c t) (blBlk V c t) (wrBlk V c t) r o ⟨t.val * 4000 + r.val, by omega⟩
    (fun k => aggTile_apply V c t r k _ rfl) (cntTile_apply V c t r _ rfl) (fun k => inTile_apply V c t r k _ rfl)
    (wlBlk_eq V c t) (blBlk_eq V c t) (wrBlk_eq V c t)).trans (congrArg (layer V c) hemb).symm

/-- An index of the output array is in point t's block iff each coordinate is in the block's range on its axis. -/
theorem mem_out_blk (t : Fin cfg1.N) (i : S100000x64.Idx) :
    i ∈ ((cfg1.win 6).blk t).view.set ↔ ∀ a : Fin 2, win1_6.index t a * S4000x64.size a ≤ (i a).val ∧ (i a).val < win1_6.index t a * S4000x64.size a + S4000x64.size a := by
  show i ∈ ((View.whole (Pipeline.arrRef spec1 6)).slice (win1_6.rect t)).set ↔ _
  rw [View.set_slice_whole, Rect.mem_set_unit]
  exact Iff.rfl

/-- Every node's row is written back: node p by the point p / 4000. -/
theorem covered (i : S100000x64.Idx) :
    ∃ t : Fin cfg1.N, (cfg1.win 6).flush t = true ∧ i ∈ ((cfg1.win 6).blk t).view.set := by
  have hi0 : (i 0).val < 100000 := (i 0).isLt
  have hi1 : (i 1).val < 64 := (i 1).isLt
  have hN : cfg1.N = 25 := N_1
  obtain ⟨-, -, -, -, -, -, -, -, -, -, -, -, e0, e1⟩ := index_facts ⟨(i 0).val / 4000, by omega⟩
  refine ⟨⟨(i 0).val / 4000, by omega⟩, flush1_6 _, ?_⟩
  rw [mem_out_blk]
  intro a
  match a with
  | ⟨0, _⟩ =>
    show win1_6.index ⟨(i 0).val / 4000, _⟩ (0 : Fin 2) * 4000 ≤ (i 0).val ∧ (i 0).val < win1_6.index ⟨(i 0).val / 4000, _⟩ (0 : Fin 2) * 4000 + 4000
    rw [e0]; show (i 0).val / 4000 * 4000 ≤ (i 0).val ∧ (i 0).val < (i 0).val / 4000 * 4000 + 4000; omega
  | ⟨1, _⟩ =>
    show win1_6.index ⟨(i 0).val / 4000, _⟩ (1 : Fin 2) * 64 ≤ (i 1).val ∧ (i 1).val < win1_6.index ⟨(i 0).val / 4000, _⟩ (1 : Fin 2) * 64 + 64
    rw [e1]; omega

/-- The array the write-backs leave is the layer of the arrays the region was entered with. -/
theorem arr_out (c : Dev nD) :
    (Sage1.dat (F := Ideal) V c).arrAt 6 cfg1.N
      = Spec.sage (V c (Pipeline.arrRef spec1 0)) (V c (Pipeline.arrRef spec1 1)) (V c (Pipeline.arrRef spec1 2))
          (V c (Pipeline.arrRef spec1 3)) (V c (Pipeline.arrRef spec1 4)) (V c (Pipeline.arrRef spec1 5)) :=
  (Sage1.dat (F := Ideal) V c).arrAt_eq_of_cover 6 (layer V c) (fun t _ => flushed_eq V c t) covered

end Cert.KernelIdeal.SageValue1

end
-- ==== Proof.KernelIdealPoolPay.lean ====
/-
  The arithmetic of the pooling tail's tile body, read entry by entry over the extended reals.

  The last region visits 25 tiles of 4000 nodes. Per tile it forms the one-hot matrix of the tile's graph ids
  (row r has a one in lane g exactly when node r's id, read as a signed word, is g), adds one-hotᵀ · x to the running
  per-graph feature sums and the one-hot's column sums to the running per-graph node counts; after the last tile it
  divides each graph's sums by max (count, 1), sends the mean through the last linear layer, and divides each graph's
  row of 128 by max (its Euclidean norm, ε). Here each of those steps is read at one entry: the two zero
  initialisations, the two accumulator updates as "old entry + a sum over the tile's 4000 rows of an if", and the
  final step as the specification's quotient.
-/
import proofs.«406495_j16578573763454_3_alg».proof.Proof.Gen.KernelIdeal.Skeleton
import proofs.«406495_j16578573763454_3_alg».proof.Proof.Spec
import proofs.«406495_j16578573763454_3_alg».proof.Proof.LibPlainMatmul
import proofs.«406495_j16578573763454_3_alg».proof.Proof.LibColumnForms
import Idealize.ShloMosaic.Lib.ValueIdx
import Idealize.ShloMosaic.Lib.Pipeline.Value
import Idealize.ShloMosaic.Lib.ValueLayout
import Idealize.ShloMosaic.PureOps.Ideal.Laws
import Idealize.ShloMosaic.Lib.IdealHost

noncomputable section

open scoped BigOperators

namespace Cert.KernelIdeal.PoolPay

open Cert.KernelIdeal Cert.KernelIdeal.Gen
open Idealize.ShloMosaic Idealize.ShloMosaic.ValueIdx

/-! ## The two zero initialisations -/

/-- The feature-sum accumulator starts as the zero word everywhere. -/
theorem pay1_apply (g : Fin 128) (j : Fin 64) : k4_pay1 (F := Ideal) (ix2 g j) = 0 := by
  unfold k4_pay1
  rw [shapeCast_self]
  exact Ideal.ofBits_zero_f32

/-- The node-count accumulator starts as the zero word everywhere. -/
theorem pay2_apply (g : Fin 128) : k4_pay2 (F := Ideal) (ix2 (0 : Fin 1) g) = 0 := by
  unfold k4_pay2
  rw [shapeCast_self]
  exact Ideal.ofBits_zero_f32

/-! ## The one-hot matrix of a tile's graph ids -/

/-- A lane number below 128, as a 32-bit word read signed, is itself. -/
theorem toInt_lane (g : Fin 128) : (BitVec.ofNat 32 g.val).toInt = (g.val : ℤ) := by
  have hg := g.isLt
  rw [BitVec.toInt_eq_toNat_cond, BitVec.toNat_ofNat]
  have e : g.val % 2 ^ 32 = g.val := Nat.mod_eq_of_lt (by omega)
  rw [e, if_pos (by omega)]

/-- The mask bit at (r, g): the id of row r compared with the lane's number. -/
theorem mask_apply (ids : Vec Ideal S4000x1 .i32) (r : Fin 4000) (g : Fin 128) :
    k4_pay3 (F := Ideal) ids (ix2 r g) = IntOp.cmpi .eq (ids (ix2 r (0 : Fin 1))) (BitVec.ofNat 32 g.val) := by
  unfold k4_pay3
  show IntOp.cmpi .eq (broadcastTo S4000x128 (shapeCast S4000x1 ids shapeCasts_S4000x1_S4000x1) broadcasts_S4000x1_S4000x128 (ix2 r g))
      (broadcastTo S4000x128 (iota .tc S1x128 32 [1] iota_S1x128_d1_w32) broadcasts_S1x128_S4000x128 (ix2 r g)) = _
  rw [shapeCast_self, Cert.LibColumnForms.broadcastTo_a1_ab_apply, broadcastTo_1b_ab_apply, iota_single_apply]

/-- The one-hot as a float at (r, g): the real one where node r's id, read signed, is g, and zero elsewhere. -/
theorem onehot_apply (ids : Vec Ideal S4000x1 .i32) (r : Fin 4000) (g : Fin 128) :
    (sitofp .f32 (extui 32 (k4_pay3 (F := Ideal) ids) natLt_1_32) : FVec Ideal S4000x128 .f32) (ix2 r g)
      = if (ids (ix2 r (0 : Fin 1))).toInt = (g.val : ℤ) then (1 : EReal) else 0 := by
  rw [sitofp_apply, extui_apply, mask_apply]
  show (((((BitVec.ofBool (ids (ix2 r (0 : Fin 1)) == BitVec.ofNat 32 g.val)).setWidth 32).toInt : ℤ) : ℝ) : EReal) = _
  by_cases h : ids (ix2 r (0 : Fin 1)) = BitVec.ofNat 32 g.val
  · rw [if_pos (by rw [h]; exact toInt_lane g), beq_iff_eq.mpr h,
      show ((BitVec.ofBool true).setWidth 32).toInt = 1 by decide, Int.cast_one, EReal.coe_one]
  · rw [if_neg (fun hi => h (BitVec.eq_of_toInt_eq (hi.trans (toInt_lane g).symm))), beq_eq_false_iff_ne.mpr h,
      show ((BitVec.ofBool false).setWidth 32).toInt = 0 by decide, Int.cast_zero, EReal.coe_zero]

/-! ## The node counts' update -/

/-- A graph's index with a tile row put back on the reduced axis 0 is the entry (r, g). -/
theorem lift_rows (g : Fin 128) (r : Fin 4000) : reduces_S4000x128_S128.lift (ix1 g) r = ix2 r g :=
  funext fun a => Fin.ext (by match a with | ⟨0, _⟩ => rfl | ⟨1, _⟩ => rfl)

/-- The counts after a tile: the old count of graph g plus the number of the tile's rows whose id is g. -/
theorem pay5_apply (ids : Vec Ideal S4000x1 .i32) (S1 : Vec Ideal S1x128 .f32) (g : Fin 128) :
    k4_pay5 (F := Ideal) ids S1 (ix2 (0 : Fin 1) g)
      = S1 (ix2 (0 : Fin 1) g) + ∑ r : Fin 4000, if (ids (ix2 r (0 : Fin 1))).toInt = (g.val : ℤ) then (1 : EReal) else 0 := by
  unfold k4_pay5
  rw [shapeCast_self, addf_apply, shapeCast_a_1a_apply]
  refine congrArg (S1 (ix2 (0 : Fin 1) g) + ·) ?_
  refine (Ideal.multiReduction_add_single _ _ reduces_S4000x128_S128 _ _ (ix1 g)).trans ?_
  refine Finset.sum_congr rfl fun r _ => ?_
  exact (congrArg _ (lift_rows g r)).trans (onehot_apply ids r g)

/-! ## The feature sums' update -/

/-- The product one-hotᵀ · x contracts the tile's row axis of both operands: its left index at output (g, j) and row
    r is (r, g), its right index (r, j). The four coordinate facts of the record's index maps. -/
theorem lhsT_0 (i : S128x64.Idx) (q : dot_S4000x128_S4000x64_S128x64_0_0_1_1_n_n.contr.Idx) :
    (dot_S4000x128_S4000x64_S128x64_0_0_1_1_n_n.lhsIdx i q 0).val = (q ⟨0, by decide⟩).val :=
  dot_S4000x128_S4000x64_S128x64_0_0_1_1_n_n.lhsIdx_val_of_single rfl i q
theorem lhsT_1 (i : S128x64.Idx) (q : dot_S4000x128_S4000x64_S128x64_0_0_1_1_n_n.contr.Idx) :
    (dot_S4000x128_S4000x64_S128x64_0_0_1_1_n_n.lhsIdx i q 1).val = (i 0).val := by
  unfold DotDims.lhsIdx
  rw [dif_neg (show ¬(1 : Fin S4000x128.rank) ∈ dot_S4000x128_S4000x64_S128x64_0_0_1_1_n_n.lhsBatch by decide), dif_pos (show (1 : Fin S4000x128.rank) ∈ dot_S4000x128_S4000x64_S128x64_0_0_1_1_n_n.lhsNonContracting by decide)]
  rfl
theorem rhsT_0 (i : S128x64.Idx) (q : dot_S4000x128_S4000x64_S128x64_0_0_1_1_n_n.contr.Idx) :
    (dot_S4000x128_S4000x64_S128x64_0_0_1_1_n_n.rhsIdx i q 0).val = (q ⟨0, by decide⟩).val :=
  dot_S4000x128_S4000x64_S128x64_0_0_1_1_n_n.rhsIdx_val_of_single rfl i q
theorem rhsT_1 (i : S128x64.Idx) (q : dot_S4000x128_S4000x64_S128x64_0_0_1_1_n_n.contr.Idx) :
    (dot_S4000x128_S4000x64_S128x64_0_0_1_1_n_n.rhsIdx i q 1).val = (i 1).val := by
  unfold DotDims.rhsIdx
  rw [dif_neg (show ¬(1 : Fin S4000x64.rank) ∈ dot_S4000x128_S4000x64_S128x64_0_0_1_1_n_n.rhsBatch by decide), dif_pos (show (1 : Fin S4000x64.rank) ∈ dot_S4000x128_S4000x64_S128x64_0_0_1_1_n_n.rhsNonContracting by decide)]
  rfl

/-- Aᵀ · B into the zero accumulator at (g, j): the sum over the tile's rows r of A (r, g) · B (r, j). -/
theorem matmulT_zero_apply (A : FVec Ideal S4000x128 .bf16) (B : FVec Ideal S4000x64 .bf16) (g : Fin 128) (j : Fin 64) :
    FloatOps.matmul dot_S4000x128_S4000x64_S128x64_0_0_1_1_n_n none A B (constant (F := Ideal) S128x64 .f32 0x00000000#32) (ix2 g j)
      = ∑ r : Fin 4000, A (ix2 r g) * B (ix2 r j) := by
  rw [Ideal.matmul_constant_zero_apply, ← Equiv.sum_comp (contrEquiv1 dot_S4000x128_S4000x64_S128x64_0_0_1_1_n_n 4000 rfl rfl).symm]
  refine Finset.sum_congr rfl fun r _ => ?_
  have hk := contrEquiv1_symm_val dot_S4000x128_S4000x64_S128x64_0_0_1_1_n_n 4000 rfl rfl r
  have el : dot_S4000x128_S4000x64_S128x64_0_0_1_1_n_n.lhsIdx (ix2 g j) ((contrEquiv1 dot_S4000x128_S4000x64_S128x64_0_0_1_1_n_n 4000 rfl rfl).symm r) = ix2 r g := funext fun a => Fin.ext (by
    match a with
    | ⟨0, _⟩ => exact (lhsT_0 _ _).trans hk
    | ⟨1, _⟩ => exact lhsT_1 _ _)
  have er : dot_S4000x128_S4000x64_S128x64_0_0_1_1_n_n.rhsIdx (ix2 g j) ((contrEquiv1 dot_S4000x128_S4000x64_S128x64_0_0_1_1_n_n 4000 rfl rfl).symm r) = ix2 r j := funext fun a => Fin.ext (by
    match a with
    | ⟨0, _⟩ => exact (rhsT_0 _ _).trans hk
    | ⟨1, _⟩ => exact rhsT_1 _ _)
  rw [el, er]

/-- The sums after a tile: the old sum of graph g, channel j, plus channel j of the tile's rows whose id is g. A one
    times a value is the value and a zero times it is zero at every extended real, the infinities included. -/
theorem pay4_apply (ids : Vec Ideal S4000x1 .i32) (x : Vec Ideal S4000x64 .f32) (S : Vec Ideal S128x64 .f32) (g : Fin 128) (j : Fin 64) :
    k4_pay4 (F := Ideal) ids x S (ix2 g j)
      = S (ix2 g j) + ∑ r : Fin 4000, if (ids (ix2 r (0 : Fin 1))).toInt = (g.val : ℤ) then x (ix2 r j) else 0 := by
  unfold k4_pay4
  rw [shapeCast_self, addf_apply]
  refine congrArg (S (ix2 g j) + ·) ?_
  refine (matmulT_zero_apply _ _ g j).trans ?_
  refine Finset.sum_congr rfl fun r _ => ?_
  rw [truncf_apply, truncf_apply, onehot_apply, shapeCast_self]
  split
  · exact one_mul _
  · exact zero_mul _

/-! ## The last tile's result -/

/-- The plain product (pooled mean) · W keeps the left rows and the right columns and contracts the 64 channels: the
    four coordinate facts of its record's index maps. -/
theorem lhsP_0 (i : S128x128.Idx) (q : dot_S128x64_S64x128_S128x128_1_0_0_1_n_n.contr.Idx) :
    (dot_S128x64_S64x128_S128x128_1_0_0_1_n_n.lhsIdx i q 0).val = (i 0).val := by
  unfold DotDims.lhsIdx
  rw [dif_neg (show ¬(0 : Fin S128x64.rank) ∈ dot_S128x64_S64x128_S128x128_1_0_0_1_n_n.lhsBatch by decide), dif_pos (show (0 : Fin S128x64.rank) ∈ dot_S128x64_S64x128_S128x128_1_0_0_1_n_n.lhsNonContracting by decide)]
  rfl
theorem lhsP_1 (i : S128x128.Idx) (q : dot_S128x64_S64x128_S128x128_1_0_0_1_n_n.contr.Idx) :
    (dot_S128x64_S64x128_S128x128_1_0_0_1_n_n.lhsIdx i q 1).val = (q ⟨0, by decide⟩).val :=
  dot_S128x64_S64x128_S128x128_1_0_0_1_n_n.lhsIdx_val_of_single rfl i q
theorem rhsP_0 (i : S128x128.Idx) (q : dot_S128x64_S64x128_S128x128_1_0_0_1_n_n.contr.Idx) :
    (dot_S128x64_S64x128_S128x128_1_0_0_1_n_n.rhsIdx i q 0).val = (q ⟨0, by decide⟩).val :=
  dot_S128x64_S64x128_S128x128_1_0_0_1_n_n.rhsIdx_val_of_single rfl i q
theorem rhsP_1 (i : S128x128.Idx) (q : dot_S128x64_S64x128_S128x128_1_0_0_1_n_n.contr.Idx) :
    (dot_S128x64_S64x128_S128x128_1_0_0_1_n_n.rhsIdx i q 1).val = (i 1).val := by
  unfold DotDims.rhsIdx
  rw [dif_neg (show ¬(1 : Fin S64x128.rank) ∈ dot_S128x64_S64x128_S128x128_1_0_0_1_n_n.rhsBatch by decide), dif_pos (show (1 : Fin S64x128.rank) ∈ dot_S128x64_S64x128_S128x128_1_0_0_1_n_n.rhsNonContracting by decide)]
  rfl

/-- The last linear layer on the pooled mean, at graph g and output o: Σ_j (sum (g, j) / max (cnt g) 1) · W (j, o) + b o. -/
def fcOf (cnt : Vec Ideal S1x128 .f32) (sum : Vec Ideal S128x64 .f32) (wfc : Vec Ideal S64x128 .f32) (bfc : Vec Ideal S1x128 .f32)
    (g o : Fin 128) : EReal :=
  (∑ j : Fin 64, Ideal.div (sum (ix2 g j)) (max (cnt (ix2 (0 : Fin 1) g)) Spec.one) * wfc (ix2 j o)) + bfc (ix2 (0 : Fin 1) o)

/-- The same layer as the array the tile body forms: the counts turned into a column and kept above one, the sums
    divided by that column, the product with the weights, the bias row added to every row. -/
def fcVec (cnt : Vec Ideal S1x128 .f32) (sum : Vec Ideal S128x64 .f32) (wfc : Vec Ideal S64x128 .f32) (bfc : Vec Ideal S1x128 .f32) :
    FVec Ideal S128x128 .f32 :=
  addf
    (matmul dot_S128x64_S64x128_S128x128_1_0_0_1_n_n none
      (truncf .bf16 (divf sum (broadcastTo S128x64 (maximumf (transpose S128x1 [1, 0] cnt transposes_S1x128_p1_0_S128x1)
        (broadcast S128x1 (Scalar.ofBits .f32 0x3F800000#32))) broadcasts_S128x1_S128x64)) bitsLt_bf16_f32)
      (truncf .bf16 wfc bitsLt_bf16_f32) (constant S128x128 .f32 0x00000000#32))
    (broadcastTo S128x128 (shapeCast S1x128 bfc shapeCasts_S1x128_S1x128) broadcasts_S1x128_S128x128)

theorem fcVec_apply (cnt : Vec Ideal S1x128 .f32) (sum : Vec Ideal S128x64 .f32) (wfc : Vec Ideal S64x128 .f32) (bfc : Vec Ideal S1x128 .f32)
    (g o : Fin 128) : fcVec cnt sum wfc bfc (ix2 g o) = fcOf cnt sum wfc bfc g o := by
  unfold fcVec fcOf
  rw [addf_apply, broadcastTo_1b_ab_apply, shapeCast_self]
  refine congrArg (· + bfc (ix2 (0 : Fin 1) o)) ?_
  refine (Cert.LibPlainMatmul.matmul_zero_apply dot_S128x64_S64x128_S128x128_1_0_0_1_n_n none rfl rfl lhsP_0 lhsP_1 rhsP_0 rhsP_1 _ _ g o).trans ?_
  refine Finset.sum_congr rfl fun k _ => ?_
  rw [truncf_apply, truncf_apply, divf_apply, Cert.LibColumnForms.broadcastTo_a1_ab_apply, maximumf_apply, transpose_ix2_apply,
    broadcast_apply]
  rfl

/-- A graph's index with an output lane put back on the reduced axis 1 is the entry (g, o). -/
theorem lift_lanes (g : Fin 128) (o : Fin 128) : reduces_S128x128_S128.lift (ix1 g) o = ix2 g o :=
  funext fun a => Fin.ext (by match a with | ⟨0, _⟩ => rfl | ⟨1, _⟩ => rfl)

/-- The sum of squares along a row of a [128, 128] array, at row g. -/
theorem sumsq_apply (v : FVec Ideal S128x128 .f32) (g : Fin 128) :
    multiReduction (F := Ideal) .add [1] S128 (mulf v v) 0x00000000#32 reduces_S128x128_S128 (.inl rfl) rfl (ix1 g)
      = ∑ o : Fin 128, v (ix2 g o) * v (ix2 g o) := by
  refine (Ideal.multiReduction_add_single _ _ reduces_S128x128_S128 _ _ (ix1 g)).trans ?_
  refine Finset.sum_congr rfl fun o _ => ?_
  exact (congrArg _ (lift_lanes g o)).trans (mulf_apply v v (ix2 g o))

/-- The tile body's last value is the quotient of that layer's array by its rows' norms kept above ε. -/
theorem pay6_eq (cnt : Vec Ideal S1x128 .f32) (sum : Vec Ideal S128x64 .f32) (wfc : Vec Ideal S64x128 .f32) (bfc : Vec Ideal S1x128 .f32) :
    k4_pay6 (F := Ideal) cnt sum wfc bfc
      = divf (fcVec cnt sum wfc bfc)
          (broadcastTo S128x128
            (maximumf
              (sqrt (shapeCast S128x1
                (multiReduction .add [1] S128 (mulf (fcVec cnt sum wfc bfc) (fcVec cnt sum wfc bfc)) 0x00000000#32
                  reduces_S128x128_S128 (.inl rfl) rfl) shapeCasts_S128_S128x1))
              (broadcast S128x1 (Scalar.ofBits .f32 0x2B8CBCCC#32))) broadcasts_S128x1_S128x128) := rfl

/-- The result at graph g, output o: the layer's entry divided by max (the Euclidean norm of the layer's row g) ε. -/
theorem pay6_apply (cnt : Vec Ideal S1x128 .f32) (sum : Vec Ideal S128x64 .f32) (wfc : Vec Ideal S64x128 .f32) (bfc : Vec Ideal S1x128 .f32)
    (g o : Fin 128) :
    k4_pay6 (F := Ideal) cnt sum wfc bfc (ix2 g o)
      = Ideal.div (fcOf cnt sum wfc bfc g o)
          (max (Ideal.sqrt (∑ o' : Fin 128, fcOf cnt sum wfc bfc g o' * fcOf cnt sum wfc bfc g o')) Spec.eps) := by
  rw [pay6_eq, divf_apply, fcVec_apply, Cert.LibColumnForms.broadcastTo_a1_ab_apply, maximumf_apply, broadcast_apply]
  refine congrArg (fun z => Ideal.div (fcOf cnt sum wfc bfc g o) (max z Spec.eps)) ?_
  show Ideal.sqrt (shapeCast S128x1 _ shapeCasts_S128_S128x1 (ix2 g (0 : Fin 1))) = _
  rw [Cert.LibColumnForms.shapeCast_a_a1_apply, sumsq_apply]
  refine congrArg Ideal.sqrt (Finset.sum_congr rfl fun o' _ => ?_)
  rw [fcVec_apply]

end Cert.KernelIdeal.PoolPay

end
-- ==== Proof.KernelIdealPoolValue.lean ====
/-
  Region 4 of the program, read as values over the extended reals: the array the region's one write-back leaves is
  the pooling tail of the arrays the region is entered with.

  The region runs over 25 tiles of 4000 nodes. The blocks it reads are, index by index, the arrays' own entries: row r
  of tile t is node 4000 t + r, and the weights and the bias row are read whole. By induction over the points, after
  point n the two accumulators hold, for each graph, the sum of the features and the number of its nodes below
  4000 (n + 1); a sum over the nodes below 4000 (n + 1) splits into the sum below 4000 n and the sum over tile n's rows.
  After point 24 every node is counted, so the accumulators are the graphs' sums and counts; the last point's linear
  layer and normalisation of them are the specification's, entry by entry; and the output window's one block is its
  whole array, written back at the last point only, so the array ends holding exactly that.
-/
import proofs.«406495_j16578573763454_3_alg».proof.Proof.KernelIdealPool
import proofs.«406495_j16578573763454_3_alg».proof.Proof.KernelIdealPoolPay
import proofs.«406495_j16578573763454_3_alg».proof.Proof.Spec
import Idealize.ShloMosaic.Lib.Pipeline.Value
import Idealize.ShloMosaic.Lib.ValueIdx
import Idealize.ShloMosaic.PureOps.Ideal
import Mathlib.Algebra.BigOperators.Fin
import Mathlib.Algebra.BigOperators.Intervals

set_option maxRecDepth 16384

noncomputable section

open scoped BigOperators

namespace Cert.KernelIdeal.PoolValue

open Cert Cert.KernelIdeal Cert.KernelIdeal.Gen
open Cert.KernelIdeal.Pool Cert.KernelIdeal.PoolPay
open Idealize.ShloMosaic Idealize.ShloMosaic.TcCoe Idealize.ShloMosaic.ValueIdx
open Idealize.ShloMosaic.Pipeline (Dat Cfg Window)

/-! ## Sums over the nodes, tile by tile -/

/-- The rows of tile n among the nodes. -/
def tileEmb (n : ℕ) (hn : n < 25) : Fin 4000 ↪ Fin 100000 where
  toFun r := ⟨4000 * n + r.val, by have := r.isLt; omega⟩
  inj' := by
    intro r r' h
    have h' : 4000 * n + r.val = 4000 * n + r'.val := congrArg Fin.val h
    exact Fin.ext (by omega)

theorem tileEmb_apply (n : ℕ) (hn : n < 25) (r : Fin 4000) :
    tileEmb n hn r = ⟨4000 * n + r.val, by have := r.isLt; omega⟩ := rfl

/-- The nodes from 4000 n up to 4000 (n + 1) are the rows of tile n. -/
theorem filter_tile (n : ℕ) (hn : n < 25) :
    Finset.univ.filter (fun p : Fin 100000 => 4000 * n ≤ p.val ∧ p.val < 4000 * (n + 1)) = Finset.univ.map (tileEmb n hn) := by
  ext p
  rw [Finset.mem_filter, Finset.mem_map]
  constructor
  · rintro ⟨-, h1, h2⟩
    exact ⟨⟨p.val - 4000 * n, by omega⟩, Finset.mem_univ _, Fin.ext (by rw [tileEmb_apply]; show 4000 * n + (p.val - 4000 * n) = p.val; omega)⟩
  · rintro ⟨r, -, rfl⟩
    have := r.isLt
    rw [tileEmb_apply]
    exact ⟨Finset.mem_univ _, by show 4000 * n ≤ 4000 * n + r.val; omega, by show 4000 * n + r.val < 4000 * (n + 1); omega⟩

/-- A sum over the nodes below 4000 (n + 1) is the sum over the nodes below 4000 n plus the sum over tile n's rows. -/
theorem sum_below_succ {M : Type*} [AddCommMonoid M] (f : Fin 100000 → M) (n : ℕ) (hn : n < 25) :
    (∑ p : Fin 100000, if p.val < 4000 * (n + 1) then f p else 0)
      = (∑ p : Fin 100000, if p.val < 4000 * n then f p else 0)
        + ∑ r : Fin 4000, f ⟨4000 * n + r.val, by have := r.isLt; omega⟩ := by
  have hsplit : ∀ p : Fin 100000, (if p.val < 4000 * (n + 1) then f p else 0)
      = (if p.val < 4000 * n then f p else 0) + (if 4000 * n ≤ p.val ∧ p.val < 4000 * (n + 1) then f p else 0) := by
    intro p
    by_cases h1 : p.val < 4000 * n
    · rw [if_pos (show p.val < 4000 * (n + 1) by omega), if_pos h1, if_neg (show ¬(4000 * n ≤ p.val ∧ p.val < 4000 * (n + 1)) by omega), add_zero]
    · by_cases h2 : p.val < 4000 * (n + 1)
      · rw [if_pos h2, if_neg h1, if_pos (show 4000 * n ≤ p.val ∧ p.val < 4000 * (n + 1) from ⟨by omega, h2⟩), zero_add]
      · rw [if_neg h2, if_neg h1, if_neg (show ¬(4000 * n ≤ p.val ∧ p.val < 4000 * (n + 1)) by omega), add_zero]
  have htile : (∑ p : Fin 100000, if 4000 * n ≤ p.val ∧ p.val < 4000 * (n + 1) then f p else 0)
      = ∑ r : Fin 4000, f ⟨4000 * n + r.val, by have := r.isLt; omega⟩ := by
    rw [← Finset.sum_filter, filter_tile n hn, Finset.sum_map]
    exact Finset.sum_congr rfl fun r _ => by rw [tileEmb_apply]
  rw [Finset.sum_congr rfl (fun p _ => hsplit p), Finset.sum_add_distrib, htile]

/-- Below node 0 there is nothing to sum. -/
theorem sum_below_zero {M : Type*} [AddCommMonoid M] (f : Fin 100000 → M) :
    (∑ p : Fin 100000, if p.val < 4000 * 0 then f p else 0) = 0 :=
  Finset.sum_eq_zero fun p _ => if_neg (by omega)

/-- Every node is below 4000 · 25. -/
theorem sum_below_all {M : Type*} [AddCommMonoid M] (f : Fin 100000 → M) :
    (∑ p : Fin 100000, if p.val < 4000 * (24 + 1) then f p else 0) = ∑ p : Fin 100000, f p :=
  Finset.sum_congr rfl fun p _ => if_pos (by have := p.isLt; omega)

variable (V : (c : Dev nD) → (b : Ref sig .tc) → Buf (Elt Ideal) ((c : Thread nD τ).loc b)) (c : Dev nD)

/-! ## The blocks read at an index -/

/-- The grid has 25 points. -/
theorem lt25 (t : Fin cfg4.N) : t.val < 25 := lt_of_lt_of_eq t.isLt (show cfg4.N = 25 from N_4)

/-- The printed index maps over the grid: the two tiles' block index is the point on the node axis and 0 on the other;
    the weights', the bias row's and the output's is 0 on both. -/
theorem idx_facts : ∀ t : Fin cfg4.N, win4_0.index t (0 : Fin 2) = t.val ∧ win4_0.index t (1 : Fin 2) = 0
    ∧ win4_1.index t (0 : Fin 2) = t.val ∧ win4_1.index t (1 : Fin 2) = 0
    ∧ win4_2.index t (0 : Fin 2) = 0 ∧ win4_2.index t (1 : Fin 2) = 0
    ∧ win4_3.index t (0 : Fin 2) = 0 ∧ win4_3.index t (1 : Fin 2) = 0
    ∧ win4_4.index t (0 : Fin 2) = 0 ∧ win4_4.index t (1 : Fin 2) = 0 :=
  (by decide +kernel : ∀ t : Fin grid4.N, _)

/-- Node r of tile t: node 4000 t + r of the 100000. -/
def node (t : Fin cfg4.N) (r : Fin 4000) : Fin 100000 := ⟨4000 * t.val + r.val, by have := lt25 t; omega⟩

theorem node_val (t : Fin cfg4.N) (r : Fin 4000) : (node t r).val = 4000 * t.val + r.val := rfl

/-- The feature tile at point t, row r, channel j: the features of node 4000 t + r. -/
theorem iblk0_apply (t : Fin cfg4.N) (r : Fin 4000) (j : Fin 64) :
    iblk V c 0 t (ix2 r j) = V c (Pipeline.arrRef spec4 0) (ix2 (node t r) j) := by
  obtain ⟨e0, e1, -⟩ := idx_facts t
  unfold iblk
  rw [View.read_apply]
  show V c (Pipeline.arrRef spec4 0) _ = V c (Pipeline.arrRef spec4 0) _
  congr 1
  funext a; apply Fin.ext
  match a with
  | ⟨0, _⟩ => show win4_0.index t (0 : Fin 2) * 4000 + 1 * r.val = 4000 * t.val + r.val; rw [e0]; omega
  | ⟨1, _⟩ => show win4_0.index t (1 : Fin 2) * 64 + 1 * j.val = j.val; rw [e1]; omega

/-- The graph-id tile at point t, row r: the id of node 4000 t + r. -/
theorem iblk1_apply (t : Fin cfg4.N) (r : Fin 4000) :
    iblk V c 1 t (ix2 r (0 : Fin 1)) = V c (Pipeline.arrRef spec4 1) (ix2 (node t r) (0 : Fin 1)) := by
  obtain ⟨-, -, e0, e1, -⟩ := idx_facts t
  unfold iblk
  rw [View.read_apply]
  show V c (Pipeline.arrRef spec4 1) _ = V c (Pipeline.arrRef spec4 1) _
  congr 1
  funext a; apply Fin.ext
  match a with
  | ⟨0, _⟩ => show win4_1.index t (0 : Fin 2) * 4000 + 1 * r.val = 4000 * t.val + r.val; rw [e0]; omega
  | ⟨1, _⟩ => show win4_1.index t (1 : Fin 2) * 1 + 1 * 0 = 0; rw [e1]

/-- The weight block at any point is the whole weight matrix. -/
theorem iblk2_apply (t : Fin cfg4.N) (j : Fin 64) (o : Fin 128) :
    iblk V c 2 t (ix2 j o) = V c (Pipeline.arrRef spec4 2) (ix2 j o) := by
  obtain ⟨-, -, -, -, e0, e1, -⟩ := idx_facts t
  unfold iblk
  rw [View.read_apply]
  show V c (Pipeline.arrRef spec4 2) _ = V c (Pipeline.arrRef spec4 2) _
  congr 1
  funext a; apply Fin.ext
  match a with
  | ⟨0, _⟩ => show win4_2.index t (0 : Fin 2) * 64 + 1 * j.val = j.val; rw [e0]; omega
  | ⟨1, _⟩ => show win4_2.index t (1 : Fin 2) * 128 + 1 * o.val = o.val; rw [e1]; omega

/-- The bias block at any point is the whole bias row. -/
theorem iblk3_apply (t : Fin cfg4.N) (o : Fin 128) :
    iblk V c 3 t (ix2 (0 : Fin 1) o) = V c (Pipeline.arrRef spec4 3) (ix2 (0 : Fin 1) o) := by
  obtain ⟨-, -, -, -, -, -, e0, e1, -⟩ := idx_facts t
  unfold iblk
  rw [View.read_apply]
  show V c (Pipeline.arrRef spec4 3) _ = V c (Pipeline.arrRef spec4 3) _
  congr 1
  funext a; apply Fin.ext
  match a with
  | ⟨0, _⟩ => show win4_3.index t (0 : Fin 2) * 1 + 1 * 0 = 0; rw [e0]
  | ⟨1, _⟩ => show win4_3.index t (1 : Fin 2) * 128 + 1 * o.val = o.val; rw [e1]; omega

/-! ## The accumulators after each point -/

/-- The arrays the region is entered with: the last layer's output, the graph ids as a flat vector, the weights and
    the bias row of the linear layer. -/
abbrev hArr : FVec Ideal ⟨2, ![100000, 64]⟩ .f32 := V c (Pipeline.arrRef spec4 0)
abbrev idArr : IVec ⟨1, ![100000]⟩ 32 := Spec.flatCol (V c (Pipeline.arrRef spec4 1))
abbrev wArr : FVec Ideal ⟨2, ![64, 128]⟩ .f32 := V c (Pipeline.arrRef spec4 2)
abbrev bArr : FVec Ideal ⟨2, ![1, 128]⟩ .f32 := V c (Pipeline.arrRef spec4 3)

/-- Node p's contribution to graph g's sum of channel j, and to graph g's node count. -/
def sumTerm (g : Fin 128) (j : Fin 64) (p : Fin 100000) : EReal :=
  if Spec.inGraph (idArr V c) p g then hArr V c (ix2 p j) else 0
def cntTerm (g : Fin 128) (p : Fin 100000) : EReal :=
  if Spec.inGraph (idArr V c) p g then (1 : EReal) else 0

/-- What a point adds to graph g's sum of channel j: the contributions of its tile's nodes. -/
theorem tile_sum (t : Fin cfg4.N) (g : Fin 128) (j : Fin 64) (ids : Vec Ideal S4000x1 .i32) (x : Vec Ideal S4000x64 .f32)
    (hids : ids = iblk V c 1 t) (hx : x = iblk V c 0 t) :
    (∑ r : Fin 4000, if (ids (ix2 r (0 : Fin 1))).toInt = (g.val : ℤ) then x (ix2 r j) else 0)
      = ∑ r : Fin 4000, sumTerm V c g j (node t r) := by
  subst hids; subst hx
  refine Finset.sum_congr rfl fun r _ => ?_
  rw [iblk0_apply, iblk1_apply]
  rfl

/-- What a point adds to graph g's count: one for each of its tile's nodes in the graph. -/
theorem tile_cnt (t : Fin cfg4.N) (g : Fin 128) (ids : Vec Ideal S4000x1 .i32) (hids : ids = iblk V c 1 t) :
    (∑ r : Fin 4000, if (ids (ix2 r (0 : Fin 1))).toInt = (g.val : ℤ) then (1 : EReal) else 0)
      = ∑ r : Fin 4000, cntTerm V c g (node t r) := by
  subst hids
  refine Finset.sum_congr rfl fun r _ => ?_
  rw [iblk1_apply]
  rfl

/-- After point n the sums accumulator holds, at graph g and channel j, the contributions of the nodes below
    4000 (n + 1). -/
theorem acc_sum : ∀ (n : ℕ) (hn : n < cfg4.N) (g : Fin 128) (j : Fin 64),
    (accAt V c n hn).1 (ix2 g j) = ∑ p : Fin 100000, if p.val < 4000 * (n + 1) then sumTerm V c g j p else 0
  | 0, h0, g, j => by
    show k4_pay4 (iblk V c 1 ⟨0, h0⟩) (iblk V c 0 ⟨0, h0⟩) (k4_pay1 (F := Ideal)) (ix2 g j) = _
    rw [pay4_apply, pay1_apply, zero_add, tile_sum V c ⟨0, h0⟩ g j _ _ rfl rfl, sum_below_succ _ 0 (by omega), sum_below_zero, zero_add]
    rfl
  | n + 1, hn, g, j => by
    have h25 : n + 1 < 25 := lt_of_lt_of_eq hn (show cfg4.N = 25 from N_4)
    show k4_pay4 (iblk V c 1 ⟨n + 1, hn⟩) (iblk V c 0 ⟨n + 1, hn⟩) (accAt V c n (Nat.lt_of_succ_lt hn)).1 (ix2 g j) = _
    rw [pay4_apply, acc_sum n _ g j, tile_sum V c ⟨n + 1, hn⟩ g j _ _ rfl rfl, sum_below_succ _ (n + 1) h25]
    rfl

/-- After point n the counts accumulator holds, at graph g, the number of its nodes below 4000 (n + 1). -/
theorem acc_cnt : ∀ (n : ℕ) (hn : n < cfg4.N) (g : Fin 128),
    (accAt V c n hn).2 (ix2 (0 : Fin 1) g) = ∑ p : Fin 100000, if p.val < 4000 * (n + 1) then cntTerm V c g p else 0
  | 0, h0, g => by
    show k4_pay5 (iblk V c 1 ⟨0, h0⟩) (k4_pay2 (F := Ideal)) (ix2 (0 : Fin 1) g) = _
    rw [pay5_apply, pay2_apply, zero_add, tile_cnt V c ⟨0, h0⟩ g _ rfl, sum_below_succ _ 0 (by omega), sum_below_zero, zero_add]
    rfl
  | n + 1, hn, g => by
    have h25 : n + 1 < 25 := lt_of_lt_of_eq hn (show cfg4.N = 25 from N_4)
    show k4_pay5 (iblk V c 1 ⟨n + 1, hn⟩) (accAt V c n (Nat.lt_of_succ_lt hn)).2 (ix2 (0 : Fin 1) g) = _
    rw [pay5_apply, acc_cnt n _ g, tile_cnt V c ⟨n + 1, hn⟩ g _ rfl, sum_below_succ _ (n + 1) h25]
    rfl

/-- After the last point the accumulators hold every graph's sums and count. -/
theorem acc_sum_last (g : Fin 128) (j : Fin 64) :
    (accAt V c 24 lt24).1 (ix2 g j) = Spec.poolSumAt (hArr V c) (idArr V c) g j := by
  rw [acc_sum, sum_below_all]; rfl

theorem acc_cnt_last (g : Fin 128) :
    (accAt V c 24 lt24).2 (ix2 (0 : Fin 1) g) = Spec.poolCntAt (idArr V c) g := by
  rw [acc_cnt, sum_below_all]; rfl

/-! ## What the last point stores -/

/-- The linear layer of the accumulated means is the specification's. -/
theorem fcOf_last (g o : Fin 128) :
    fcOf (accAt V c 24 lt24).2 (accAt V c 24 lt24).1 (iblk V c 2 ⟨24, lt24⟩) (iblk V c 3 ⟨24, lt24⟩) g o
      = Spec.fcAt (hArr V c) (idArr V c) (wArr V c) (bArr V c) g o := by
  unfold fcOf Spec.fcAt
  simp only [acc_cnt_last, acc_sum_last, iblk2_apply, iblk3_apply]

/-- What the last point stores, at graph g and output o, is the specification's normalised row. -/
theorem outLast_apply (g o : Fin 128) :
    outLast V c (ix2 g o) = Spec.headAt (hArr V c) (idArr V c) (wArr V c) (bArr V c) g o := by
  rw [outLast_eq V c lt24, pay6_apply]
  unfold Spec.headAt
  simp only [fcOf_last]

/-- So the last point stores the specification's array. -/
theorem outLast_eq_head : outLast V c = Spec.head (hArr V c) (idArr V c) (wArr V c) (bArr V c) := by
  funext i
  obtain ⟨g, o, rfl⟩ : ∃ g o, i = ix2 g o := ⟨i 0, i 1, eq_ix2 i⟩
  rw [outLast_apply, Spec.head_apply]

/-! ## The output array after the run -/

/-- The output window's one block at zero offsets is its whole array: what a write-back writes is the array's contents. -/
theorem flushed_eq (t : Fin cfg4.N) (hf : (cfg4.win 4).flush t = true) :
    (dat V c).flushed 4 t
      = ((cfg4.win 4).blk t).view.read (Elt Ideal) (Spec.head (hArr V c) (idArr V c) (wArr V c) (bArr V c)) := by
  obtain ⟨-, -, -, -, -, -, -, -, e0, e1⟩ := idx_facts t
  show (cfg4.win 4).cut (grid4.coords t) ((dat V c).after 4 t) = _
  rw [after_4, outLast_eq_head]
  have hz' : (fun a => win4_4.index t a * main_v59.ty.shape.size a) = fun _ => 0 := funext fun a => by
    match a with
    | ⟨0, _⟩ => show win4_4.index t (0 : Fin 2) * 128 = 0; rw [e0]
    | ⟨1, _⟩ => show win4_4.index t (1 : Fin 2) * 128 = 0; rw [e1]
  exact (Memref.read_access_unit_zero (Elt Ideal) main_v59 hz' (fun a => by rw [congrFun hz' a]; simp) _).symm

/-- The array the region's one write-back leaves is the pooling tail of the arrays the region is entered with: the
    last point covers the whole output array and writes the specification's array into it. -/
theorem arr_out :
    (Pool.dat (F := Ideal) V c).arrAt 4 cfg4.N = Spec.head (V c (Pipeline.arrRef spec4 0)) (Spec.flatCol (V c (Pipeline.arrRef spec4 1))) (V c (Pipeline.arrRef spec4 2)) (V c (Pipeline.arrRef spec4 3)) :=
  (dat V c).arrAt_eq_of_cover 4 _ (flushed_eq V c) fun i =>
    ⟨⟨24, lt24⟩, (flush4_4 ⟨24, lt24⟩).mpr rfl, by
      obtain ⟨-, -, -, -, -, -, -, -, e0, e1⟩ := idx_facts ⟨24, lt24⟩
      show i ∈ ((View.whole main_v59).slice (win4_4.rect ⟨24, lt24⟩)).set
      rw [View.set_slice_whole, Rect.mem_set_unit]
      intro a
      have h0 : (i 0 : Nat) < 128 := (i 0).isLt
      have h1 : (i 1 : Nat) < 128 := (i 1).isLt
      match a with
      | ⟨0, _⟩ =>
        show win4_4.index ⟨24, lt24⟩ (0 : Fin 2) * 128 ≤ (i 0 : Nat) ∧ (i 0 : Nat) < win4_4.index ⟨24, lt24⟩ (0 : Fin 2) * 128 + 128
        rw [e0]; omega
      | ⟨1, _⟩ =>
        show win4_4.index ⟨24, lt24⟩ (1 : Fin 2) * 128 ≤ (i 1 : Nat) ∧ (i 1 : Nat) < win4_4.index ⟨24, lt24⟩ (1 : Fin 2) * 128 + 128
        rw [e1]; omega⟩

end Cert.KernelIdeal.PoolValue

end
-- ==== Proof.Layouts.lean ====
/-
  Three reshapes read as the specification's layout forms: a vector of n entries reshaped to the column [n, 1] is its
  column form, reshaped to the row [1, n] its row form, and a vector of words reshaped to a column and flattened back is
  itself. A reshape keeps the row-major position, and on these shapes the position is the one non-unit coordinate.
-/
import proofs.«406495_j16578573763454_3_alg».proof.Proof.Spec
import proofs.«406495_j16578573763454_3_alg».proof.Proof.LibColumnForms
import Idealize.ShloMosaic.Lib.Pipeline.Value
import Idealize.ShloMosaic.Lib.ValueIdx

noncomputable section

namespace Cert.Layouts

open Idealize.ShloMosaic Idealize.ShloMosaic.ValueIdx

/-- A vector reshaped to a column is its column form. -/
theorem shapeCast_col {n : ℕ} (v : FVec Ideal ⟨1, ![n]⟩ .f32) (h : (⟨1, ![n]⟩ : Shape).ShapeCasts ⟨2, ![n, 1]⟩) :
    shapeCast ⟨2, ![n, 1]⟩ v h = Spec.colOf v := by
  funext i
  obtain ⟨p, u, rfl⟩ : ∃ (p : Fin n) (u : Fin 1), i = ix2 p u := ⟨i 0, i 1, eq_ix2 i⟩
  exact LibColumnForms.shapeCast_a_a1_apply v h p u

/-- A vector reshaped to a row is its row form: the position of (0, o) in [1, n] is o. -/
theorem shapeCast_row {n : ℕ} (v : FVec Ideal ⟨1, ![n]⟩ .f32) (h : (⟨1, ![n]⟩ : Shape).ShapeCasts ⟨2, ![1, n]⟩) :
    shapeCast ⟨2, ![1, n]⟩ v h = Spec.rowOf v := by
  funext i
  obtain ⟨u, o, rfl⟩ : ∃ (u : Fin 1) (o : Fin n), i = ix2 u o := ⟨i 0, i 1, eq_ix2 i⟩
  refine shapeCast_apply v h _ (ix1 o) ?_
  have hu : u.val = 0 := by omega
  rw [Shape.rowMajor_val_two, Shape.rowMajor_val_one]
  show o.val = u.val * n + o.val
  rw [hu, Nat.zero_mul, Nat.zero_add]

/-- A vector of words reshaped to a column and flattened back is itself. -/
theorem flatCol_shapeCast {n : ℕ} (b : IVec ⟨1, ![n]⟩ 32) (h : (⟨1, ![n]⟩ : Shape).ShapeCasts ⟨2, ![n, 1]⟩) :
    Spec.flatCol (shapeCast ⟨2, ![n, 1]⟩ b h) = b := by
  funext i
  obtain ⟨p, rfl⟩ : ∃ p : Fin n, i = ix1 p := ⟨i 0, eq_ix1 i⟩
  exact LibColumnForms.shapeCast_a_a1_apply b h p (0 : Fin 1)

end Cert.Layouts

end
-- ==== Proof.KernelIdealResult.lean ====
/-
  The kernel program's result as a function of its argument arrays, over the extended reals: the four SAGE layers and
  the pooling tail of the specification, composed. Each region's output array is the specification's layer of the
  arrays the region is entered with; those are what the host stretch before it computes from the previous region's
  output — the scatter-add at the destination nodes of the rows gathered at the source nodes — beside buffers that
  nothing has written since an earlier stretch made them (the edge list's two rows, the neighbour counts) and argument
  arrays nothing ever writes.
-/
import proofs.«406495_j16578573763454_3_alg».proof.Proof.KernelIdealRun
import proofs.«406495_j16578573763454_3_alg».proof.Proof.KernelIdealHost
import proofs.«406495_j16578573763454_3_alg».proof.Proof.KernelIdealLayers
import proofs.«406495_j16578573763454_3_alg».proof.Proof.KernelIdealSageValue0
import proofs.«406495_j16578573763454_3_alg».proof.Proof.KernelIdealSageValue1
import proofs.«406495_j16578573763454_3_alg».proof.Proof.KernelIdealSageValue2
import proofs.«406495_j16578573763454_3_alg».proof.Proof.KernelIdealSageValue3
import proofs.«406495_j16578573763454_3_alg».proof.Proof.KernelIdealPoolValue
import proofs.«406495_j16578573763454_3_alg».proof.Proof.Layouts

set_option maxRecDepth 16384

noncomputable section

namespace Cert.KernelIdeal.Result

open Cert.KernelIdeal Cert.KernelIdeal.Gen Cert.KernelIdeal.Run Cert.KernelIdeal.HostSide
open Idealize.ShloMosaic Idealize.ShloMosaic.TcCoe Idealize.ShloMosaic.ValueIdx
open Idealize.SL.Sem

variable (m : (ℓ : Loc nD τ sig) → Buf (Elt Ideal) ℓ) (c : Dev nD)

/-! ## The argument arrays, and what the first host stretch makes of the edge list -/

abbrev xArr : Vec Ideal S100000x3 .f32 := m ((c : Thread nD τ).loc main_arg0)
abbrev edges : IVec S2x3200000 32 := m ((c : Thread nD τ).loc main_arg1)
abbrev ids : IVec S100000 32 := m ((c : Thread nD τ).loc main_arg2)
/-- The source and the destination node of every edge, and the number of edges into every node as a column. -/
abbrev src : IVec S3200000 32 := edgeSrc (edges m c)
abbrev dst : IVec S3200000 32 := edgeDst (edges m c)
abbrev cntCol : Vec Ideal S100000x1 .f32 := Layers.cntCol (edges m c)

/-! ## The layers -/

/-- The layers and the result of the composition, at the launch memory's argument arrays. -/
def h1 : Vec Ideal S100000x64 .f32 := Layers.kh1 (xArr m c) (edges m c) (m ((c : Thread nD τ).loc main_arg3)) (m ((c : Thread nD τ).loc main_arg4)) (m ((c : Thread nD τ).loc main_arg5))
def h2 : Vec Ideal S100000x64 .f32 := Layers.khNext (h1 m c) (edges m c) (m ((c : Thread nD τ).loc main_arg6)) (m ((c : Thread nD τ).loc main_arg7)) (m ((c : Thread nD τ).loc main_arg8))
def h3 : Vec Ideal S100000x64 .f32 := Layers.khNext (h2 m c) (edges m c) (m ((c : Thread nD τ).loc main_arg9)) (m ((c : Thread nD τ).loc main_arg10)) (m ((c : Thread nD τ).loc main_arg11))
def h4 : Vec Ideal S100000x64 .f32 := Layers.khNext (h3 m c) (edges m c) (m ((c : Thread nD τ).loc main_arg12)) (m ((c : Thread nD τ).loc main_arg13)) (m ((c : Thread nD τ).loc main_arg14))
def out : Vec Ideal S128x128 .f32 := Layers.kTail (h4 m c) (ids m c) (m ((c : Thread nD τ).loc main_arg15)) (m ((c : Thread nD τ).loc main_arg16))

/-- The composition is the whole program's value at the launch memory. -/
theorem out_eq : out m c = Layers.kout (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) := rfl

/-! ## Buffers nothing has written since the first stretch -/

/-- An argument array read at any boundary is the launch memory's. -/
theorem main_arg3_at1 : W1 m c main_arg3 = m ((c : Thread nD τ).loc main_arg3) :=
  (W1_keep m c main_arg3 (by decide)).trans rfl
theorem main_arg5_at1 : W1 m c main_arg5 = m ((c : Thread nD τ).loc main_arg5) :=
  (W1_keep m c main_arg5 (by decide)).trans rfl
theorem main_arg4_at0 : W0 m c main_arg4 = m ((c : Thread nD τ).loc main_arg4) :=
  rfl
theorem main_arg6_at3 : W3 m c main_arg6 = m ((c : Thread nD τ).loc main_arg6) :=
  (W3_keep m c main_arg6 (by decide)).trans <| (W2_keep m c main_arg6 (by decide)).trans <| (W1_keep m c main_arg6 (by decide)).trans rfl
theorem main_arg8_at3 : W3 m c main_arg8 = m ((c : Thread nD τ).loc main_arg8) :=
  (W3_keep m c main_arg8 (by decide)).trans <| (W2_keep m c main_arg8 (by decide)).trans <| (W1_keep m c main_arg8 (by decide)).trans rfl
theorem main_arg7_at2 : W2 m c main_arg7 = m ((c : Thread nD τ).loc main_arg7) :=
  (W2_keep m c main_arg7 (by decide)).trans <| (W1_keep m c main_arg7 (by decide)).trans rfl
theorem main_arg9_at5 : W5 m c main_arg9 = m ((c : Thread nD τ).loc main_arg9) :=
  (W5_keep m c main_arg9 (by decide)).trans <| (W4_keep m c main_arg9 (by decide)).trans <| (W3_keep m c main_arg9 (by decide)).trans <| (W2_keep m c main_arg9 (by decide)).trans <| (W1_keep m c main_arg9 (by decide)).trans rfl
theorem main_arg11_at5 : W5 m c main_arg11 = m ((c : Thread nD τ).loc main_arg11) :=
  (W5_keep m c main_arg11 (by decide)).trans <| (W4_keep m c main_arg11 (by decide)).trans <| (W3_keep m c main_arg11 (by decide)).trans <| (W2_keep m c main_arg11 (by decide)).trans <| (W1_keep m c main_arg11 (by decide)).trans rfl
theorem main_arg10_at4 : W4 m c main_arg10 = m ((c : Thread nD τ).loc main_arg10) :=
  (W4_keep m c main_arg10 (by decide)).trans <| (W3_keep m c main_arg10 (by decide)).trans <| (W2_keep m c main_arg10 (by decide)).trans <| (W1_keep m c main_arg10 (by decide)).trans rfl
theorem main_arg12_at7 : W7 m c main_arg12 = m ((c : Thread nD τ).loc main_arg12) :=
  (W7_keep m c main_arg12 (by decide)).trans <| (W6_keep m c main_arg12 (by decide)).trans <| (W5_keep m c main_arg12 (by decide)).trans <| (W4_keep m c main_arg12 (by decide)).trans <| (W3_keep m c main_arg12 (by decide)).trans <| (W2_keep m c main_arg12 (by decide)).trans <| (W1_keep m c main_arg12 (by decide)).trans rfl
theorem main_arg14_at7 : W7 m c main_arg14 = m ((c : Thread nD τ).loc main_arg14) :=
  (W7_keep m c main_arg14 (by decide)).trans <| (W6_keep m c main_arg14 (by decide)).trans <| (W5_keep m c main_arg14 (by decide)).trans <| (W4_keep m c main_arg14 (by decide)).trans <| (W3_keep m c main_arg14 (by decide)).trans <| (W2_keep m c main_arg14 (by decide)).trans <| (W1_keep m c main_arg14 (by decide)).trans rfl
theorem main_arg13_at6 : W6 m c main_arg13 = m ((c : Thread nD τ).loc main_arg13) :=
  (W6_keep m c main_arg13 (by decide)).trans <| (W5_keep m c main_arg13 (by decide)).trans <| (W4_keep m c main_arg13 (by decide)).trans <| (W3_keep m c main_arg13 (by decide)).trans <| (W2_keep m c main_arg13 (by decide)).trans <| (W1_keep m c main_arg13 (by decide)).trans rfl
theorem main_arg0_at1 : W1 m c main_arg0 = m ((c : Thread nD τ).loc main_arg0) :=
  (W1_keep m c main_arg0 (by decide)).trans rfl
theorem main_arg0_at0 : W0 m c main_arg0 = m ((c : Thread nD τ).loc main_arg0) :=
  rfl
theorem main_arg1_at0 : W0 m c main_arg1 = m ((c : Thread nD τ).loc main_arg1) :=
  rfl
theorem main_arg2_at0 : W0 m c main_arg2 = m ((c : Thread nD τ).loc main_arg2) :=
  rfl
theorem main_arg15_at9 : W9 m c main_arg15 = m ((c : Thread nD τ).loc main_arg15) :=
  (W9_keep m c main_arg15 (by decide)).trans <| (W8_keep m c main_arg15 (by decide)).trans <| (W7_keep m c main_arg15 (by decide)).trans <| (W6_keep m c main_arg15 (by decide)).trans <| (W5_keep m c main_arg15 (by decide)).trans <| (W4_keep m c main_arg15 (by decide)).trans <| (W3_keep m c main_arg15 (by decide)).trans <| (W2_keep m c main_arg15 (by decide)).trans <| (W1_keep m c main_arg15 (by decide)).trans rfl
theorem main_arg16_at8 : W8 m c main_arg16 = m ((c : Thread nD τ).loc main_arg16) :=
  (W8_keep m c main_arg16 (by decide)).trans <| (W7_keep m c main_arg16 (by decide)).trans <| (W6_keep m c main_arg16 (by decide)).trans <| (W5_keep m c main_arg16 (by decide)).trans <| (W4_keep m c main_arg16 (by decide)).trans <| (W3_keep m c main_arg16 (by decide)).trans <| (W2_keep m c main_arg16 (by decide)).trans <| (W1_keep m c main_arg16 (by decide)).trans rfl

/-- The edge list's two rows and the neighbour counts, made by the first stretch and never written again. -/
theorem src_at1 : (W1 m c main_v1 : IVec S3200000 32) = src m c := (s0_src (W0 m c)).trans rfl
theorem dst_at1 : (W1 m c main_v3 : IVec S3200000 32) = dst m c := (s0_dst (W0 m c)).trans rfl
theorem cnt_at1 : (W1 m c main_v9 : Vec Ideal S100000x1 .f32) = cntCol m c := (s0_cnt (W0 m c)).trans rfl
theorem ids_at1 : (W1 m c main_v4 : IVec S100000x1 32) = shapeCast S100000x1 (ids m c) shapeCasts_S100000_S100000x1 :=
  (s0_ids (W0 m c)).trans rfl
theorem src_at2 : (W2 m c main_v1 : IVec S3200000 32) = src m c := ((W2_keep m c main_v1 (by decide))).trans (src_at1 m c)
theorem dst_at2 : (W2 m c main_v3 : IVec S3200000 32) = dst m c := ((W2_keep m c main_v3 (by decide))).trans (dst_at1 m c)
theorem src_at4 : (W4 m c main_v1 : IVec S3200000 32) = src m c := ((W4_keep m c main_v1 (by decide)).trans <| (W3_keep m c main_v1 (by decide)).trans <| (W2_keep m c main_v1 (by decide))).trans (src_at1 m c)
theorem dst_at4 : (W4 m c main_v3 : IVec S3200000 32) = dst m c := ((W4_keep m c main_v3 (by decide)).trans <| (W3_keep m c main_v3 (by decide)).trans <| (W2_keep m c main_v3 (by decide))).trans (dst_at1 m c)
theorem src_at6 : (W6 m c main_v1 : IVec S3200000 32) = src m c := ((W6_keep m c main_v1 (by decide)).trans <| (W5_keep m c main_v1 (by decide)).trans <| (W4_keep m c main_v1 (by decide)).trans <| (W3_keep m c main_v1 (by decide)).trans <| (W2_keep m c main_v1 (by decide))).trans (src_at1 m c)
theorem dst_at6 : (W6 m c main_v3 : IVec S3200000 32) = dst m c := ((W6_keep m c main_v3 (by decide)).trans <| (W5_keep m c main_v3 (by decide)).trans <| (W4_keep m c main_v3 (by decide)).trans <| (W3_keep m c main_v3 (by decide)).trans <| (W2_keep m c main_v3 (by decide))).trans (dst_at1 m c)
theorem cnt_at3 : (W3 m c main_v9 : Vec Ideal S100000x1 .f32) = cntCol m c := ((W3_keep m c main_v9 (by decide)).trans <| (W2_keep m c main_v9 (by decide))).trans (cnt_at1 m c)
theorem cnt_at5 : (W5 m c main_v9 : Vec Ideal S100000x1 .f32) = cntCol m c := ((W5_keep m c main_v9 (by decide)).trans <| (W4_keep m c main_v9 (by decide)).trans <| (W3_keep m c main_v9 (by decide)).trans <| (W2_keep m c main_v9 (by decide))).trans (cnt_at1 m c)
theorem cnt_at7 : (W7 m c main_v9 : Vec Ideal S100000x1 .f32) = cntCol m c := ((W7_keep m c main_v9 (by decide)).trans <| (W6_keep m c main_v9 (by decide)).trans <| (W5_keep m c main_v9 (by decide)).trans <| (W4_keep m c main_v9 (by decide)).trans <| (W3_keep m c main_v9 (by decide)).trans <| (W2_keep m c main_v9 (by decide))).trans (cnt_at1 m c)
theorem ids_at9 : (W9 m c main_v4 : IVec S100000x1 32) = shapeCast S100000x1 (ids m c) shapeCasts_S100000_S100000x1 := ((W9_keep m c main_v4 (by decide)).trans <| (W8_keep m c main_v4 (by decide)).trans <| (W7_keep m c main_v4 (by decide)).trans <| (W6_keep m c main_v4 (by decide)).trans <| (W5_keep m c main_v4 (by decide)).trans <| (W4_keep m c main_v4 (by decide)).trans <| (W3_keep m c main_v4 (by decide)).trans <| (W2_keep m c main_v4 (by decide))).trans (ids_at1 m c)

/-! ## Each region's output array -/

/-- The layer and the tail respect equality of their arguments (stated over variables, so that an equation between two
    applications is split without ever opening an argument). -/
theorem sage_congr {D : ℕ} {a a' : FVec Ideal ⟨2, ![100000, D]⟩ .f32} {b b' : FVec Ideal ⟨2, ![100000, 1]⟩ .f32}
    {x x' : FVec Ideal ⟨2, ![100000, D]⟩ .f32} {wl wl' : FVec Ideal ⟨2, ![D, 64]⟩ .f32} {bl bl' : FVec Ideal ⟨2, ![1, 64]⟩ .f32}
    {wr wr' : FVec Ideal ⟨2, ![D, 64]⟩ .f32} (h0 : a = a') (h1 : b = b') (h2 : x = x') (h3 : wl = wl') (h4 : bl = bl') (h5 : wr = wr') :
    Spec.sage a b x wl bl wr = Spec.sage a' b' x' wl' bl' wr' := by
  subst h0 h1 h2 h3 h4 h5; rfl
theorem head_congr {h h' : FVec Ideal ⟨2, ![100000, 64]⟩ .f32} {b b' : IVec ⟨1, ![100000]⟩ 32} {w w' : FVec Ideal ⟨2, ![64, 128]⟩ .f32}
    {r r' : FVec Ideal ⟨2, ![1, 128]⟩ .f32} (h0 : h = h') (h1 : b = b') (h2 : w = w') (h3 : r = r') :
    Spec.head h b w r = Spec.head h' b' w' r' := by
  subst h0 h1 h2 h3; rfl

/-- What the first stretch makes for region 0: the neighbour sums of the node features and the first bias as a row. -/
theorem agg_at1 : (W1 m c main_v19 : Vec Ideal S100000x3 .f32) = aggRows3 (xArr m c) (src m c) (dst m c) := s0_agg (W0 m c)
theorem bias_at1 : (W1 m c main_v20 : Vec Ideal S1x64 .f32)
    = shapeCast S1x64 (m ((c : Thread nD τ).loc main_arg4) : Vec Ideal S64 .f32) shapeCasts_S64_S1x64 := s0_bias (W0 m c)

/-- Region 0 leaves the first layer. -/
theorem out0 : (W2 m c main_v21 : Vec Ideal S100000x64 .f32) = h1 m c :=
  (W2_arr m c 6).trans <| (SageValue0.arr_out (U1 m) c).trans <|
    sage_congr (agg_at1 m c) (cnt_at1 m c) (main_arg0_at1 m c) (main_arg3_at1 m c) (bias_at1 m c) (main_arg5_at1 m c)

/-- What stretch 1 makes for region 1: the neighbour sums of region 0's output and the layer's bias as a row. -/
theorem agg_at3 : (W3 m c main_v31 : Vec Ideal S100000x64 .f32) = aggRows64 (h1 m c) (src m c) (dst m c) :=
  (s1_agg (W2 m c)).trans (by rw [out0, src_at2, dst_at2])
theorem bias_at3 : (W3 m c main_v32 : Vec Ideal S1x64 .f32)
    = shapeCast S1x64 (m ((c : Thread nD τ).loc main_arg7) : Vec Ideal S64 .f32) shapeCasts_S64_S1x64 :=
  (s1_bias (W2 m c)).trans (by rw [main_arg7_at2])
theorem prev_at3 : (W3 m c main_v21 : Vec Ideal S100000x64 .f32) = h1 m c :=
  (W3_keep m c main_v21 (by decide)).trans (out0 m c)

/-- Region 1 leaves the next layer. -/
theorem out1 : (W4 m c main_v33 : Vec Ideal S100000x64 .f32) = h2 m c :=
  (W4_arr m c 6).trans <| (SageValue1.arr_out (U3 m) c).trans <|
    sage_congr (agg_at3 m c) (cnt_at3 m c) (prev_at3 m c) (main_arg6_at3 m c) (bias_at3 m c) (main_arg8_at3 m c)

/-- What stretch 2 makes for region 2: the neighbour sums of region 1's output and the layer's bias as a row. -/
theorem agg_at5 : (W5 m c main_v43 : Vec Ideal S100000x64 .f32) = aggRows64 (h2 m c) (src m c) (dst m c) :=
  (s2_agg (W4 m c)).trans (by rw [out1, src_at4, dst_at4])
theorem bias_at5 : (W5 m c main_v44 : Vec Ideal S1x64 .f32)
    = shapeCast S1x64 (m ((c : Thread nD τ).loc main_arg10) : Vec Ideal S64 .f32) shapeCasts_S64_S1x64 :=
  (s2_bias (W4 m c)).trans (by rw [main_arg10_at4])
theorem prev_at5 : (W5 m c main_v33 : Vec Ideal S100000x64 .f32) = h2 m c :=
  (W5_keep m c main_v33 (by decide)).trans (out1 m c)

/-- Region 2 leaves the next layer. -/
theorem out2 : (W6 m c main_v45 : Vec Ideal S100000x64 .f32) = h3 m c :=
  (W6_arr m c 6).trans <| (SageValue2.arr_out (U5 m) c).trans <|
    sage_congr (agg_at5 m c) (cnt_at5 m c) (prev_at5 m c) (main_arg9_at5 m c) (bias_at5 m c) (main_arg11_at5 m c)

/-- What stretch 3 makes for region 3: the neighbour sums of region 2's output and the layer's bias as a row. -/
theorem agg_at7 : (W7 m c main_v55 : Vec Ideal S100000x64 .f32) = aggRows64 (h3 m c) (src m c) (dst m c) :=
  (s3_agg (W6 m c)).trans (by rw [out2, src_at6, dst_at6])
theorem bias_at7 : (W7 m c main_v56 : Vec Ideal S1x64 .f32)
    = shapeCast S1x64 (m ((c : Thread nD τ).loc main_arg13) : Vec Ideal S64 .f32) shapeCasts_S64_S1x64 :=
  (s3_bias (W6 m c)).trans (by rw [main_arg13_at6])
theorem prev_at7 : (W7 m c main_v45 : Vec Ideal S100000x64 .f32) = h3 m c :=
  (W7_keep m c main_v45 (by decide)).trans (out2 m c)

/-- Region 3 leaves the next layer. -/
theorem out3 : (W8 m c main_v57 : Vec Ideal S100000x64 .f32) = h4 m c :=
  (W8_arr m c 6).trans <| (SageValue3.arr_out (U7 m) c).trans <|
    sage_congr (agg_at7 m c) (cnt_at7 m c) (prev_at7 m c) (main_arg12_at7 m c) (bias_at7 m c) (main_arg14_at7 m c)

/-- What the last stretch makes for the pooling region, and what reaches it unwritten. -/
theorem bias_at9 : (W9 m c main_v58 : Vec Ideal S1x128 .f32)
    = shapeCast S1x128 (m ((c : Thread nD τ).loc main_arg16) : Vec Ideal S128 .f32) shapeCasts_S128_S1x128 :=
  (s4_bias (W8 m c)).trans (by rw [main_arg16_at8])
theorem prev_at9 : (W9 m c main_v57 : Vec Ideal S100000x64 .f32) = h4 m c :=
  (W9_keep m c main_v57 (by decide)).trans (out3 m c)
theorem flat_at9 : Spec.flatCol (W9 m c main_v4 : IVec S100000x1 32) = Spec.flatCol (shapeCast S100000x1 (ids m c) shapeCasts_S100000_S100000x1) :=
  congrArg Spec.flatCol (ids_at9 m c)

/-- The last region leaves the pooling tail of the fourth layer: the result. -/
theorem result_eq : (W10 m c main_v59 : Vec Ideal S128x128 .f32) = out m c := by
  have e1 := W10_arr m c 4
  have e2 := PoolValue.arr_out (U9 m) c
  have e3 := head_congr (prev_at9 m c) (flat_at9 m c) (main_arg15_at9 m c) (bias_at9 m c)
  have e23 := e2.trans e3
  exact e1.trans e23

end Cert.KernelIdeal.Result

end
-- ==== Proof.RefLayers.lean ====
/-
  The reference's four SAGE layers are the specification's layers.

  Each layer of the reference computes, at node p and output channel o,
      relu ( ( Σ_k (agg p k / max (cnt p) 1) · Wl k o  +  b o )  +  Σ_k x p k · Wr k o ),
  with agg the layer's neighbour sums, cnt the neighbour counts (a vector over the nodes, read as a column), and b the bias
  (a vector over the channels, read as a row): the bias joins the neighbours' product before the node's own product does.
  The specification adds the two products first and the bias last. Addition of extended reals is commutative and
  associative, so the two agree, with no finiteness needed. Layer 1 has 3 input channels, layers 2 to 4 have 64; each layer's
  input x is the previous layer's output.
-/
import proofs.«406495_j16578573763454_3_alg».proof.Proof.Gen.ReferenceIdeal.Read
import proofs.«406495_j16578573763454_3_alg».proof.Proof.Spec

noncomputable section

namespace Cert.ReferenceIdeal.Layers

open Cert.ReferenceIdeal Cert.ReferenceIdeal.Gen Cert.ReferenceIdeal.Read Idealize.ShloMosaic Idealize.ShloMosaic.ValueIdx

/-! ## The reference's order of additions -/

/-- The relu of a sum of three terms does not depend on which of the last two is added first. -/
theorem relu_add_right_comm (a b c z : EReal) : max (a + b + c) z = max (a + c + b) z := by
  rw [add_right_comm]

/-- One layer as the reference adds it up, at node p and output channel o: the mean of the neighbours through Wl, then the
    bias, then the node's own row through Wr, then the relu. The counts are a vector over the nodes and the bias a vector
    over the channels. -/
def refAt {D : ℕ} (agg : FVec Ideal ⟨2, ![100000, D]⟩ .f32) (cnt : FVec Ideal ⟨1, ![100000]⟩ .f32)
    (x : FVec Ideal ⟨2, ![100000, D]⟩ .f32) (Wl : FVec Ideal ⟨2, ![D, 64]⟩ .f32) (b : FVec Ideal ⟨1, ![64]⟩ .f32)
    (Wr : FVec Ideal ⟨2, ![D, 64]⟩ .f32) (p : Fin 100000) (o : Fin 64) : EReal :=
  max (((∑ k : Fin D, Ideal.div (agg (ix2 p k)) (max (cnt (ix1 p)) Spec.one) * Wl (ix2 k o)) + b (ix1 o))
        + ∑ k : Fin D, x (ix2 p k) * Wr (ix2 k o)) Spec.zero

/-- An array that is `refAt` at every node and channel is the specification's layer, the counts read as a column and the
    bias as a row. -/
theorem sage_of_refAt {D : ℕ} (out : FVec Ideal ⟨2, ![100000, 64]⟩ .f32) (agg : FVec Ideal ⟨2, ![100000, D]⟩ .f32)
    (cnt : FVec Ideal ⟨1, ![100000]⟩ .f32) (x : FVec Ideal ⟨2, ![100000, D]⟩ .f32) (Wl : FVec Ideal ⟨2, ![D, 64]⟩ .f32)
    (b : FVec Ideal ⟨1, ![64]⟩ .f32) (Wr : FVec Ideal ⟨2, ![D, 64]⟩ .f32)
    (h : ∀ (p : Fin 100000) (o : Fin 64), out (ix2 p o) = refAt agg cnt x Wl b Wr p o) :
    out = Spec.sage agg (Spec.colOf cnt) x Wl (Spec.rowOf b) Wr := by
  funext i
  obtain ⟨p, o, rfl⟩ : ∃ (p : Fin 100000) (o : Fin 64), i = ix2 p o := ⟨i 0, i 1, eq_ix2 i⟩
  rw [h, Spec.sage_apply, Spec.sageAt, Spec.colOf_apply, Spec.rowOf_apply, refAt]
  exact relu_add_right_comm _ _ _ _

/-! ## Layer 1 (3 input channels) -/

/-- Layer 1's index arithmetic. At node p and output channel o, the k-th term of the neighbours' product reads the mean at
    (p, k) and Wl at (k, o); the k-th term of the node's own product reads x at (p, k) and Wr at (k, o); the divisor at
    (p, k) is the count of node p; the bias at (p, o) is the bias of channel o. -/
theorem l1_aggL (p : Fin 100000) (o : Fin 64) (k : Fin 3) : lidx_main_v23 (ix2 p o) k = ix2 p k :=
  funext fun a => Fin.ext (by match a with | ⟨0, _⟩ => rfl | ⟨1, _⟩ => rfl)
theorem l1_aggR (p : Fin 100000) (o : Fin 64) (k : Fin 3) : ridx_main_v23 (ix2 p o) k = ix2 k o :=
  funext fun a => Fin.ext (by match a with | ⟨0, _⟩ => rfl | ⟨1, _⟩ => rfl)
theorem l1_selfL (p : Fin 100000) (o : Fin 64) (k : Fin 3) : lidx_main_v27 (ix2 p o) k = ix2 p k :=
  funext fun a => Fin.ext (by match a with | ⟨0, _⟩ => rfl | ⟨1, _⟩ => rfl)
theorem l1_selfR (p : Fin 100000) (o : Fin 64) (k : Fin 3) : ridx_main_v27 (ix2 p o) k = ix2 k o :=
  funext fun a => Fin.ext (by match a with | ⟨0, _⟩ => rfl | ⟨1, _⟩ => rfl)
theorem l1_cnt (p : Fin 100000) (k : Fin 3) : idx_main_v20 (idx_main_v21 (ix2 p k)) = ix1 p :=
  funext fun a => Fin.ext (by match a with | ⟨0, _⟩ => rfl)
theorem l1_bias (p : Fin 100000) (o : Fin 64) : idx_main_v24 (idx_main_v25 (ix2 p o)) = ix1 o :=
  funext fun a => Fin.ext (by match a with | ⟨0, _⟩ => rfl)

/-- Layer 1 of the reference is the specification's layer on the layer's neighbour sums and counts and the node features. -/
theorem layer1 (x0 : (⟨S100000x3, .f32⟩ : BufTy).Contents (Elt Ideal)) (x1 : (⟨S2x3200000, .i32⟩ : BufTy).Contents (Elt Ideal)) (x3 : (⟨S3x64, .f32⟩ : BufTy).Contents (Elt Ideal)) (x4 : (⟨S64, .f32⟩ : BufTy).Contents (Elt Ideal)) (x5 : (⟨S3x64, .f32⟩ : BufTy).Contents (Elt Ideal)) :
    val_main_v29 (F := Ideal) x0 x1 x3 x4 x5
      = Spec.sage (val_main_v13 (F := Ideal) x0 x1) (Spec.colOf (val_main_v17 (F := Ideal) x1))
          x0 x3 (Spec.rowOf x4) x5 := by
  refine sage_of_refAt _ _ _ _ _ _ _ (fun p o => ?_)
  rw [val_main_v29_apply, val_main_v28_apply, val_main_v26_apply, val_main_v23_apply, val_main_v25_apply, val_main_v24_apply,
    val_main_v27_apply, val_main_call0_v0_apply, val_main_call0_cst_apply, refAt, Spec.one, Spec.zero]
  simp -implicitDefEqProofs only [val_main_v22_apply, val_main_v21_apply, val_main_v20_apply, val_main_v19_apply, val_main_v18_apply,
    val_main_cst_3_apply, l1_aggL, l1_aggR, l1_selfL, l1_selfR, l1_cnt, l1_bias,
    Ideal.addf_def, Ideal.hostDivf_def, Ideal.maximumf_def, Ideal.ofBits_def]

/-! ## Layer 2 (64 input channels) -/

/-- Layer 2's index arithmetic. At node p and output channel o, the k-th term of the neighbours' product reads the mean at
    (p, k) and Wl at (k, o); the k-th term of the node's own product reads x at (p, k) and Wr at (k, o); the divisor at
    (p, k) is the count of node p; the bias at (p, o) is the bias of channel o. -/
theorem l2_aggL (p : Fin 100000) (o : Fin 64) (k : Fin 64) : lidx_main_v49 (ix2 p o) k = ix2 p k :=
  funext fun a => Fin.ext (by match a with | ⟨0, _⟩ => rfl | ⟨1, _⟩ => rfl)
theorem l2_aggR (p : Fin 100000) (o : Fin 64) (k : Fin 64) : ridx_main_v49 (ix2 p o) k = ix2 k o :=
  funext fun a => Fin.ext (by match a with | ⟨0, _⟩ => rfl | ⟨1, _⟩ => rfl)
theorem l2_selfL (p : Fin 100000) (o : Fin 64) (k : Fin 64) : lidx_main_v53 (ix2 p o) k = ix2 p k :=
  funext fun a => Fin.ext (by match a with | ⟨0, _⟩ => rfl | ⟨1, _⟩ => rfl)
theorem l2_selfR (p : Fin 100000) (o : Fin 64) (k : Fin 64) : ridx_main_v53 (ix2 p o) k = ix2 k o :=
  funext fun a => Fin.ext (by match a with | ⟨0, _⟩ => rfl | ⟨1, _⟩ => rfl)
theorem l2_cnt (p : Fin 100000) (k : Fin 64) : idx_main_v46 (idx_main_v47 (ix2 p k)) = ix1 p :=
  funext fun a => Fin.ext (by match a with | ⟨0, _⟩ => rfl)
theorem l2_bias (p : Fin 100000) (o : Fin 64) : idx_main_v50 (idx_main_v51 (ix2 p o)) = ix1 o :=
  funext fun a => Fin.ext (by match a with | ⟨0, _⟩ => rfl)

/-- Layer 2 of the reference is the specification's layer on the layer's neighbour sums and counts and layer 1's output. -/
theorem layer2 (x0 : (⟨S100000x3, .f32⟩ : BufTy).Contents (Elt Ideal)) (x1 : (⟨S2x3200000, .i32⟩ : BufTy).Contents (Elt Ideal)) (x3 : (⟨S3x64, .f32⟩ : BufTy).Contents (Elt Ideal)) (x4 : (⟨S64, .f32⟩ : BufTy).Contents (Elt Ideal)) (x5 : (⟨S3x64, .f32⟩ : BufTy).Contents (Elt Ideal)) (x6 : (⟨S64x64, .f32⟩ : BufTy).Contents (Elt Ideal)) (x7 : (⟨S64, .f32⟩ : BufTy).Contents (Elt Ideal)) (x8 : (⟨S64x64, .f32⟩ : BufTy).Contents (Elt Ideal)) :
    val_main_v55 (F := Ideal) x0 x1 x3 x4 x5 x6 x7 x8
      = Spec.sage (val_main_v39 (F := Ideal) x0 x1 x3 x4 x5) (Spec.colOf (val_main_v43 (F := Ideal) x1))
          (val_main_v29 (F := Ideal) x0 x1 x3 x4 x5) x6 (Spec.rowOf x7) x8 := by
  refine sage_of_refAt _ _ _ _ _ _ _ (fun p o => ?_)
  rw [val_main_v55_apply, val_main_v54_apply, val_main_v52_apply, val_main_v49_apply, val_main_v51_apply, val_main_v50_apply,
    val_main_v53_apply, val_main_call1_v0_apply, val_main_call1_cst_apply, refAt, Spec.one, Spec.zero]
  simp -implicitDefEqProofs only [val_main_v48_apply, val_main_v47_apply, val_main_v46_apply, val_main_v45_apply, val_main_v44_apply,
    val_main_cst_9_apply, l2_aggL, l2_aggR, l2_selfL, l2_selfR, l2_cnt, l2_bias,
    Ideal.addf_def, Ideal.hostDivf_def, Ideal.maximumf_def, Ideal.ofBits_def]

/-! ## Layer 3 (64 input channels) -/

/-- Layer 3's index arithmetic. At node p and output channel o, the k-th term of the neighbours' product reads the mean at
    (p, k) and Wl at (k, o); the k-th term of the node's own product reads x at (p, k) and Wr at (k, o); the divisor at
    (p, k) is the count of node p; the bias at (p, o) is the bias of channel o. -/
theorem l3_aggL (p : Fin 100000) (o : Fin 64) (k : Fin 64) : lidx_main_v75 (ix2 p o) k = ix2 p k :=
  funext fun a => Fin.ext (by match a with | ⟨0, _⟩ => rfl | ⟨1, _⟩ => rfl)
theorem l3_aggR (p : Fin 100000) (o : Fin 64) (k : Fin 64) : ridx_main_v75 (ix2 p o) k = ix2 k o :=
  funext fun a => Fin.ext (by match a with | ⟨0, _⟩ => rfl | ⟨1, _⟩ => rfl)
theorem l3_selfL (p : Fin 100000) (o : Fin 64) (k : Fin 64) : lidx_main_v79 (ix2 p o) k = ix2 p k :=
  funext fun a => Fin.ext (by match a with | ⟨0, _⟩ => rfl | ⟨1, _⟩ => rfl)
theorem l3_selfR (p : Fin 100000) (o : Fin 64) (k : Fin 64) : ridx_main_v79 (ix2 p o) k = ix2 k o :=
  funext fun a => Fin.ext (by match a with | ⟨0, _⟩ => rfl | ⟨1, _⟩ => rfl)
theorem l3_cnt (p : Fin 100000) (k : Fin 64) : idx_main_v72 (idx_main_v73 (ix2 p k)) = ix1 p :=
  funext fun a => Fin.ext (by match a with | ⟨0, _⟩ => rfl)
theorem l3_bias (p : Fin 100000) (o : Fin 64) : idx_main_v76 (idx_main_v77 (ix2 p o)) = ix1 o :=
  funext fun a => Fin.ext (by match a with | ⟨0, _⟩ => rfl)

/-- Layer 3 of the reference is the specification's layer on the layer's neighbour sums and counts and layer 2's output. -/
theorem layer3 (x0 : (⟨S100000x3, .f32⟩ : BufTy).Contents (Elt Ideal)) (x1 : (⟨S2x3200000, .i32⟩ : BufTy).Contents (Elt Ideal)) (x3 : (⟨S3x64, .f32⟩ : BufTy).Contents (Elt Ideal)) (x4 : (⟨S64, .f32⟩ : BufTy).Contents (Elt Ideal)) (x5 : (⟨S3x64, .f32⟩ : BufTy).Contents (Elt Ideal)) (x6 : (⟨S64x64, .f32⟩ : BufTy).Contents (Elt Ideal)) (x7 : (⟨S64, .f32⟩ : BufTy).Contents (Elt Ideal)) (x8 : (⟨S64x64, .f32⟩ : BufTy).Contents (Elt Ideal)) (x9 : (⟨S64x64, .f32⟩ : BufTy).Contents (Elt Ideal)) (x10 : (⟨S64, .f32⟩ : BufTy).Contents (Elt Ideal)) (x11 : (⟨S64x64, .f32⟩ : BufTy).Contents (Elt Ideal)) :
    val_main_v81 (F := Ideal) x0 x1 x3 x4 x5 x6 x7 x8 x9 x10 x11
      = Spec.sage (val_main_v65 (F := Ideal) x0 x1 x3 x4 x5 x6 x7 x8) (Spec.colOf (val_main_v69 (F := Ideal) x1))
          (val_main_v55 (F := Ideal) x0 x1 x3 x4 x5 x6 x7 x8) x9 (Spec.rowOf x10) x11 := by
  refine sage_of_refAt _ _ _ _ _ _ _ (fun p o => ?_)
  rw [val_main_v81_apply, val_main_v80_apply, val_main_v78_apply, val_main_v75_apply, val_main_v77_apply, val_main_v76_apply,
    val_main_v79_apply, val_main_call2_v0_apply, val_main_call2_cst_apply, refAt, Spec.one, Spec.zero]
  simp -implicitDefEqProofs only [val_main_v74_apply, val_main_v73_apply, val_main_v72_apply, val_main_v71_apply, val_main_v70_apply,
    val_main_cst_15_apply, l3_aggL, l3_aggR, l3_selfL, l3_selfR, l3_cnt, l3_bias,
    Ideal.addf_def, Ideal.hostDivf_def, Ideal.maximumf_def, Ideal.ofBits_def]

/-! ## Layer 4 (64 input channels) -/

/-- Layer 4's index arithmetic. At node p and output channel o, the k-th term of the neighbours' product reads the mean at
    (p, k) and Wl at (k, o); the k-th term of the node's own product reads x at (p, k) and Wr at (k, o); the divisor at
    (p, k) is the count of node p; the bias at (p, o) is the bias of channel o. -/
theorem l4_aggL (p : Fin 100000) (o : Fin 64) (k : Fin 64) : lidx_main_v101 (ix2 p o) k = ix2 p k :=
  funext fun a => Fin.ext (by match a with | ⟨0, _⟩ => rfl | ⟨1, _⟩ => rfl)
theorem l4_aggR (p : Fin 100000) (o : Fin 64) (k : Fin 64) : ridx_main_v101 (ix2 p o) k = ix2 k o :=
  funext fun a => Fin.ext (by match a with | ⟨0, _⟩ => rfl | ⟨1, _⟩ => rfl)
theorem l4_selfL (p : Fin 100000) (o : Fin 64) (k : Fin 64) : lidx_main_v105 (ix2 p o) k = ix2 p k :=
  funext fun a => Fin.ext (by match a with | ⟨0, _⟩ => rfl | ⟨1, _⟩ => rfl)
theorem l4_selfR (p : Fin 100000) (o : Fin 64) (k : Fin 64) : ridx_main_v105 (ix2 p o) k = ix2 k o :=
  funext fun a => Fin.ext (by match a with | ⟨0, _⟩ => rfl | ⟨1, _⟩ => rfl)
theorem l4_cnt (p : Fin 100000) (k : Fin 64) : idx_main_v98 (idx_main_v99 (ix2 p k)) = ix1 p :=
  funext fun a => Fin.ext (by match a with | ⟨0, _⟩ => rfl)
theorem l4_bias (p : Fin 100000) (o : Fin 64) : idx_main_v102 (idx_main_v103 (ix2 p o)) = ix1 o :=
  funext fun a => Fin.ext (by match a with | ⟨0, _⟩ => rfl)

/-- Layer 4 of the reference is the specification's layer on the layer's neighbour sums and counts and layer 3's output. -/
theorem layer4 (x0 : (⟨S100000x3, .f32⟩ : BufTy).Contents (Elt Ideal)) (x1 : (⟨S2x3200000, .i32⟩ : BufTy).Contents (Elt Ideal)) (x3 : (⟨S3x64, .f32⟩ : BufTy).Contents (Elt Ideal)) (x4 : (⟨S64, .f32⟩ : BufTy).Contents (Elt Ideal)) (x5 : (⟨S3x64, .f32⟩ : BufTy).Contents (Elt Ideal)) (x6 : (⟨S64x64, .f32⟩ : BufTy).Contents (Elt Ideal)) (x7 : (⟨S64, .f32⟩ : BufTy).Contents (Elt Ideal)) (x8 : (⟨S64x64, .f32⟩ : BufTy).Contents (Elt Ideal)) (x9 : (⟨S64x64, .f32⟩ : BufTy).Contents (Elt Ideal)) (x10 : (⟨S64, .f32⟩ : BufTy).Contents (Elt Ideal)) (x11 : (⟨S64x64, .f32⟩ : BufTy).Contents (Elt Ideal)) (x12 : (⟨S64x64, .f32⟩ : BufTy).Contents (Elt Ideal)) (x13 : (⟨S64, .f32⟩ : BufTy).Contents (Elt Ideal)) (x14 : (⟨S64x64, .f32⟩ : BufTy).Contents (Elt Ideal)) :
    val_main_v107 (F := Ideal) x0 x1 x3 x4 x5 x6 x7 x8 x9 x10 x11 x12 x13 x14
      = Spec.sage (val_main_v91 (F := Ideal) x0 x1 x3 x4 x5 x6 x7 x8 x9 x10 x11) (Spec.colOf (val_main_v95 (F := Ideal) x1))
          (val_main_v81 (F := Ideal) x0 x1 x3 x4 x5 x6 x7 x8 x9 x10 x11) x12 (Spec.rowOf x13) x14 := by
  refine sage_of_refAt _ _ _ _ _ _ _ (fun p o => ?_)
  rw [val_main_v107_apply, val_main_v106_apply, val_main_v104_apply, val_main_v101_apply, val_main_v103_apply, val_main_v102_apply,
    val_main_v105_apply, val_main_call3_v0_apply, val_main_call3_cst_apply, refAt, Spec.one, Spec.zero]
  simp -implicitDefEqProofs only [val_main_v100_apply, val_main_v99_apply, val_main_v98_apply, val_main_v97_apply, val_main_v96_apply,
    val_main_cst_21_apply, l4_aggL, l4_aggR, l4_selfL, l4_selfR, l4_cnt, l4_bias,
    Ideal.addf_def, Ideal.hostDivf_def, Ideal.maximumf_def, Ideal.ofBits_def]

end Cert.ReferenceIdeal.Layers

end
-- ==== Proof.LibScatterRows.lean ====
/-
  AN ACCUMULATING ROW SCATTER READ AT AN INDEX, at the ideal instance. `stablehlo.scatter` with an `add` body of updates
  `upd : [E, C]` into an operand `x : [N, C]` at a column of scatter indices `idx : [E, 1]` with update_window_dims `[1]`,
  inserted_window_dims `[0]`, scatter_dims_to_operand_dims `[0]` and index_vector_dim `1` — what `x.at[idx].add(upd)` of
  a table of rows lowers to. Update element `(e, j')` lands on operand element `(idx[e, 0], j')`, the scatter index read
  as a SIGNED integer and NOT clamped: an update whose row is outside `[0, N)` is dropped. Over the extended reals the
  result at `(n, j)` is therefore `x (n, j)` plus the sum of `upd (e, j)` over the update rows `e` whose index is `n`.
  The same for a flat operand `[N]` and updates `[E]` (no window axis). General in the sizes.
-/
import Idealize.ShloMosaic.Lib.ValueIdx

noncomputable section

open scoped BigOperators

namespace Idealize.ShloMosaic.ValueIdx

open Idealize.ShloMosaic

/-! ## Where an update lands, in general -/

section General
variable {s si u : Shape}

/-- An axis is kept exactly when it is not among the removed ones. -/
theorem mem_kept_iff (axes : List (Fin s.rank)) (a : Fin s.rank) : a ∈ s.kept axes ↔ a ∉ axes := by
  simp [Shape.kept, List.mem_filter, List.mem_finRange]

/-- Update index `j` lands at operand index `i` exactly when on every axis the (signed, unclamped) start plus the
    window coordinate is `i`'s coordinate. -/
theorem resultIdx?_eq_some_iff (d : ScatterDims s si u) {w : Nat} (j : u.Idx) (idx : IVec si w) (i : s.Idx) :
    d.resultIdx? j idx = some i ↔ ∀ a, d.start j idx a + (d.window j a : ℤ) = ((i a).val : ℤ) := by
  unfold ScatterDims.resultIdx?
  constructor
  · intro h a
    split at h
    · rename_i hc
      have hf := Option.some.inj h
      have ha : (d.start j idx a + (d.window j a : ℤ)).toNat = (i a).val := congrArg (fun f => (f a).val) hf
      have := (hc a).1
      omega
    · exact absurd h (by simp)
  · intro h
    have hc : ∀ a, 0 ≤ d.start j idx a + (d.window j a : ℤ) ∧ d.start j idx a + (d.window j a : ℤ) < (s.size a : ℤ) := by
      intro a
      have := (i a).isLt
      rw [h a]
      omega
    rw [dif_pos hc]
    congr 1
    funext a
    refine Fin.ext ?_
    show (d.start j idx a + (d.window j a : ℤ)).toNat = (i a).val
    rw [h a]
    exact Int.toNat_natCast _

end General

/-! ## Rows: operand `[N, C]`, scatter indices `[E, 1]`, updates `[E, C]` -/

section RowsScatter

/-- The dimension numbers of an accumulating scatter of whole rows: the updates' axis 1 is the window axis (it runs
    over a row), the operand's axis 0 is the inserted one and the one a scatter index addresses, and the index vector
    lies along the scatter indices' axis 1. The conditions `wf` are decided (or assumed) on a program's literal
    shapes. -/
abbrev rowsScatterDims (N E C : Nat)
    (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

variable {N E C w : Nat} (wf : ScatterDims.WF ⟨2, ![N, C]⟩ ⟨2, ![E, 1]⟩ ⟨2, ![E, C]⟩ [1] [0] [0] 1)
  (idx : IVec ⟨2, ![E, 1]⟩ w) (e : Fin E) (j' : Fin C)

/-- On the row axis the start of update `(e, j')` is the scatter index `idx[e, 0]`, read signed. -/
theorem rowsScatter_start_row :
    (rowsScatterDims N E C wf).start (ix2 e j') idx 0 = (idx (ix2 e (0 : Fin 1))).toInt := by
  unfold ScatterDims.start
  rw [dif_pos (show (0 : Fin 2) ∈ (rowsScatterDims N E C wf).scatterDimsToOperandDims from List.mem_singleton.mpr rfl)]
  have hsi : (rowsScatterDims N E C wf).siIdx (ix2 e j')
      ⟨List.idxOf (0 : Fin 2) (rowsScatterDims N E C wf).scatterDimsToOperandDims,
        List.idxOf_lt_length_iff.2 (List.mem_singleton.mpr rfl)⟩ = ix2 e (0 : Fin 1) := by
    funext b; refine Fin.ext ?_
    match b with
    | ⟨0, _⟩ => rfl
    | ⟨1, _⟩ => rfl
  rw [hsi]

/-- On the column axis, which no scatter index addresses, the start is `0`. -/
theorem rowsScatter_start_col : (rowsScatterDims N E C wf).start (ix2 e j') idx 1 = 0 := by
  unfold ScatterDims.start
  rw [dif_neg (show (1 : Fin 2) ∉ (rowsScatterDims N E C wf).scatterDimsToOperandDims from
    fun h => Nat.one_ne_zero (congrArg Fin.val (List.mem_singleton.mp h)))]

/-- The row axis is inserted: no window coordinate there. -/
theorem rowsScatter_window_row : (rowsScatterDims N E C wf).window (ix2 e j') 0 = 0 := by
  unfold ScatterDims.window
  rw [dif_neg (show (0 : Fin 2) ∉ (rowsScatterDims N E C wf).sKept from
    fun h => (mem_kept_iff _ _).mp h (List.mem_singleton.mpr rfl))]

/-- On the column axis the window coordinate of update `(e, j')` is `j'`. -/
theorem rowsScatter_window_col : (rowsScatterDims N E C wf).window (ix2 e j') 1 = j'.val := by
  unfold ScatterDims.window
  rw [dif_pos (show (1 : Fin 2) ∈ (rowsScatterDims N E C wf).sKept from
    (mem_kept_iff _ _).mpr fun h => Nat.one_ne_zero (congrArg Fin.val (List.mem_singleton.mp h)))]
  rfl

/-- WHERE A ROW UPDATE LANDS: update `(e, j')` lands on operand element `(n, j)` exactly when the scatter index
    `idx[e, 0]`, read signed, is `n`, and the columns agree. -/
theorem rowsScatter_resultIdx?_eq_some (n : Fin N) (j : Fin C) :
    (rowsScatterDims N E C wf).resultIdx? (ix2 e j') idx = some (ix2 n j)
      ↔ (idx (ix2 e (0 : Fin 1))).toInt = (n.val : ℤ) ∧ j' = j := by
  rw [resultIdx?_eq_some_iff]
  constructor
  · intro h
    have h0 := h 0
    have h1 := h 1
    rw [rowsScatter_start_row, rowsScatter_window_row] at h0
    rw [rowsScatter_start_col, rowsScatter_window_col] at h1
    have h0' : (idx (ix2 e (0 : Fin 1))).toInt + ((0 : Nat) : ℤ) = (n.val : ℤ) := h0
    have h1' : (0 : ℤ) + (j'.val : ℤ) = (j.val : ℤ) := h1
    exact ⟨by omega, Fin.ext (by omega)⟩
  · rintro ⟨h0, rfl⟩ a
    match a with
    | ⟨0, _⟩ =>
      show (rowsScatterDims N E C wf).start (ix2 e j') idx 0 + ((rowsScatterDims N E C wf).window (ix2 e j') 0 : ℤ) = (n.val : ℤ)
      rw [rowsScatter_start_row, rowsScatter_window_row, h0]
      simp
    | ⟨1, _⟩ =>
      show (rowsScatterDims N E C wf).start (ix2 e j') idx 1 + ((rowsScatterDims N E C wf).window (ix2 e j') 1 : ℤ) = (j'.val : ℤ)
      rw [rowsScatter_start_col, rowsScatter_window_col]
      simp

end RowsScatter

section RowsScatterRead

/-- THE ACCUMULATING ROW SCATTER READ AT `(n, j)`, over the extended reals: the operand's element plus the sum, over
    the update rows `e` whose scatter index `idx[e, 0]` (read signed) is `n`, of the update's element `(e, j)`. -/
theorem scatterAdd_rows_apply {N E C w : Nat} {φ : FTy}
    (wf : ScatterDims.WF ⟨2, ![N, C]⟩ ⟨2, ![E, 1]⟩ ⟨2, ![E, C]⟩ [1] [0] [0] 1)
    (x : FVec Ideal ⟨2, ![N, C]⟩ φ) (idx : IVec ⟨2, ![E, 1]⟩ w) (upd : FVec Ideal ⟨2, ![E, C]⟩ φ)
    (n : Fin N) (j : Fin C) :
    Host.scatterAdd (F := Ideal) (rowsScatterDims N E C wf) x idx upd (ix2 n j)
      = x (ix2 n j)
        + ∑ e ∈ Finset.univ.filter (fun e : Fin E => (idx (ix2 e (0 : Fin 1))).toInt = (n.val : ℤ)), upd (ix2 e j) := by
  show x (ix2 n j) + ∑ v ∈ Finset.univ.filter
      (fun v => (rowsScatterDims N E C wf).resultIdx? v idx = some (ix2 n j)), upd v = _
  congr 1
  rw [Finset.sum_filter, sum_idx2, Finset.sum_filter]
  refine Finset.sum_congr rfl fun e _ => ?_
  simp only [rowsScatter_resultIdx?_eq_some]
  by_cases ht : (idx (ix2 e (0 : Fin 1))).toInt = (n.val : ℤ)
  · simp only [ht, true_and, if_true]
    exact Finset.sum_ite_eq' Finset.univ j (fun c => upd (ix2 e c)) |>.trans (if_pos (Finset.mem_univ j))
  · simp only [ht, false_and, if_false, Finset.sum_const_zero]

end RowsScatterRead

/-! ## Flat: operand `[N]`, scatter indices `[E, 1]`, updates `[E]` -/

section FlatScatter

/-- A rank-1 index is its one coordinate … -/
def idxEquiv1 {n : Nat} : (⟨1, ![n]⟩ : Shape).Idx ≃ Fin n where
  toFun i := i 0
  invFun a := ix1 a
  left_inv i := (eq_ix1 i).symm
  right_inv _ := rfl
/-- … so a sum over the rank-1 index set is the sum over the coordinate. -/
theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

/-- The dimension numbers of an accumulating scatter of scalars into a flat operand: the updates have no window
    axis, the operand's one axis is inserted and is the one a scatter index addresses, and the index vector lies along
    the scatter indices' axis 1. -/
abbrev flatScatterDims (N E : Nat)
    (wf : ScatterDims.WF ⟨1, ![N]⟩ ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

variable {N E w : Nat} (wf : ScatterDims.WF ⟨1, ![N]⟩ ⟨2, ![E, 1]⟩ ⟨1, ![E]⟩ [] [0] [0] 1)
  (idx : IVec ⟨2, ![E, 1]⟩ w) (e : Fin E)

/-- The start of update `e` is the scatter index `idx[e, 0]`, read signed. -/
theorem flatScatter_start :
    (flatScatterDims N E wf).start (ix1 e) idx 0 = (idx (ix2 e (0 : Fin 1))).toInt := by
  unfold ScatterDims.start
  rw [dif_pos (show (0 : Fin 1) ∈ (flatScatterDims N E wf).scatterDimsToOperandDims from List.mem_singleton.mpr rfl)]
  have hsi : (flatScatterDims N E wf).siIdx (ix1 e)
      ⟨List.idxOf (0 : Fin 1) (flatScatterDims N E wf).scatterDimsToOperandDims,
        List.idxOf_lt_length_iff.2 (List.mem_singleton.mpr rfl)⟩ = ix2 e (0 : Fin 1) := by
    funext b; refine Fin.ext ?_
    match b with
    | ⟨0, _⟩ => rfl
    | ⟨1, _⟩ => rfl
  rw [hsi]

/-- The operand's one axis is inserted: no window coordinate. -/
theorem flatScatter_window : (flatScatterDims N E wf).window (ix1 e) 0 = 0 := by
  unfold ScatterDims.window
  rw [dif_neg (show (0 : Fin 1) ∉ (flatScatterDims N E wf).sKept from
    fun h => (mem_kept_iff _ _).mp h (List.mem_singleton.mpr rfl))]

/-- WHERE A FLAT UPDATE LANDS: update `e` lands on operand element `n` exactly when the scatter index `idx[e, 0]`,
    read signed, is `n`. -/
theorem flatScatter_resultIdx?_eq_some (n : Fin N) :
    (flatScatterDims N E wf).resultIdx? (ix1 e) idx = some (ix1 n)
      ↔ (idx (ix2 e (0 : Fin 1))).toInt = (n.val : ℤ) := by
  rw [resultIdx?_eq_some_iff]
  constructor
  · intro h
    have h0 := h 0
    rw [flatScatter_start, flatScatter_window] at h0
    have h0' : (idx (ix2 e (0 : Fin 1))).toInt + ((0 : Nat) : ℤ) = (n.val : ℤ) := h0
    omega
  · intro h0 a
    match a with
    | ⟨0, _⟩ =>
      show (flatScatterDims N E wf).start (ix1 e) idx 0 + ((flatScatterDims N E wf).window (ix1 e) 0 : ℤ) = (n.val : ℤ)
      rw [flatScatter_start, flatScatter_window, h0]
      simp

end FlatScatter

section FlatScatterRead

/-- THE ACCUMULATING FLAT SCATTER READ AT `n`, over the extended reals: the operand's element plus the sum, over the
    updates `e` whose scatter index `idx[e, 0]` (read signed) is `n`, of the update `e`. -/
theorem scatterAdd_flat_apply {N E w : Nat} {φ : FTy}
    (wf : ScatterDims.WF ⟨1, ![N]⟩ ⟨2, ![E, 1]⟩ ⟨1, ![E]⟩ [] [0] [0] 1)
    (x : FVec Ideal ⟨1, ![N]⟩ φ) (idx : IVec ⟨2, ![E, 1]⟩ w) (upd : FVec Ideal ⟨1, ![E]⟩ φ) (n : Fin N) :
    Host.scatterAdd (F := Ideal) (flatScatterDims N E wf) x idx upd (ix1 n)
      = x (ix1 n)
        + ∑ e ∈ Finset.univ.filter (fun e : Fin E => (idx (ix2 e (0 : Fin 1))).toInt = (n.val : ℤ)), upd (ix1 e) := by
  show x (ix1 n) + ∑ v ∈ Finset.univ.filter
      (fun v => (flatScatterDims N E wf).resultIdx? v idx = some (ix1 n)), upd v = _
  congr 1
  rw [Finset.sum_filter, sum_idx1, Finset.sum_filter]
  refine Finset.sum_congr rfl fun e _ => ?_
  simp only [flatScatter_resultIdx?_eq_some]

end FlatScatterRead

end Idealize.ShloMosaic.ValueIdx

end
-- ==== Proof.RefHead.lean ====
/-
  The reference's pooling tail, read index by index: the per-graph sums of the last layer's rows and the per-graph
  node counts (two accumulating scatters at the graph ids), the mean sent through the last linear layer, and each
  graph's row divided by max (its Euclidean norm) ε — it is the specification's head of the last layer's output.
-/
import proofs.«406495_j16578573763454_3_alg».proof.Proof.Gen.ReferenceIdeal.Read
import proofs.«406495_j16578573763454_3_alg».proof.Proof.Spec
import proofs.«406495_j16578573763454_3_alg».proof.Proof.LibScatterRows
import Idealize.ShloMosaic.Lib.IdealHost

noncomputable section

namespace Cert.ReferenceIdeal.Head

open Cert.ReferenceIdeal Cert.ReferenceIdeal.Gen Cert.ReferenceIdeal.Read Idealize.ShloMosaic Idealize.ShloMosaic.ValueIdx

variable (x0 : (⟨S100000x3, .f32⟩ : BufTy).Contents (Elt Ideal)) (x1 : (⟨S2x3200000, .i32⟩ : BufTy).Contents (Elt Ideal))
  (x2 : (⟨S100000, .i32⟩ : BufTy).Contents (Elt Ideal)) (x3 : (⟨S3x64, .f32⟩ : BufTy).Contents (Elt Ideal))
  (x4 : (⟨S64, .f32⟩ : BufTy).Contents (Elt Ideal)) (x5 : (⟨S3x64, .f32⟩ : BufTy).Contents (Elt Ideal))
  (x6 : (⟨S64x64, .f32⟩ : BufTy).Contents (Elt Ideal)) (x7 : (⟨S64, .f32⟩ : BufTy).Contents (Elt Ideal))
  (x8 x9 : (⟨S64x64, .f32⟩ : BufTy).Contents (Elt Ideal)) (x10 : (⟨S64, .f32⟩ : BufTy).Contents (Elt Ideal))
  (x11 x12 : (⟨S64x64, .f32⟩ : BufTy).Contents (Elt Ideal)) (x13 : (⟨S64, .f32⟩ : BufTy).Contents (Elt Ideal))
  (x14 : (⟨S64x64, .f32⟩ : BufTy).Contents (Elt Ideal)) (x15 : (⟨S64x128, .f32⟩ : BufTy).Contents (Elt Ideal))
  (x16 : (⟨S128, .f32⟩ : BufTy).Contents (Elt Ideal))

/-! ## The two scatters at an index -/

/-- The per-graph sums: the rows of h scattered with addition at the graph ids, into zeros, read at graph g and
    channel j, are the sum of h's channel j over the nodes whose id, read signed, is g. -/
theorem psum_apply (h : FVec Ideal S100000x64 .f32) (g : Fin 128) (j : Fin 64) :
    Host.scatterAdd (F := Ideal) (φ := .f32) scatter_S128x64_S100000x1_S100000x64_1_0_0_1 (val_main_v108 (F := Ideal))
        (val_main_v109 (F := Ideal) x2) h (ix2 g j)
      = Spec.poolSumAt h x2 g j := by
  have e : scatter_S128x64_S100000x1_S100000x64_1_0_0_1
      = rowsScatterDims 128 100000 64 scatter_S128x64_S100000x1_S100000x64_1_0_0_1_wf := rfl
  rw [e, scatterAdd_rows_apply, val_main_v108_apply, val_main_cst_22_apply, Ideal.ofBits_def, Ideal.ofBits_zero_f32,
    zero_add, Finset.sum_filter]
  unfold Spec.poolSumAt
  refine Finset.sum_congr rfl fun n _ => ?_
  rw [val_main_v109_apply]
  have en : idx_main_v109 (ix2 n (0 : Fin 1)) = ix1 n := funext fun a => Fin.ext (by match a with | ⟨0, _⟩ => rfl)
  rw [en]

/-- The per-graph counts: ones scattered with addition at the graph ids, into zeros, read at graph g, count the
    nodes whose id, read signed, is g. -/
theorem pcnt_apply (g : Fin 128) :
    val_main_v114 (F := Ideal) x2 (ix1 g) = Spec.poolCntAt x2 g := by
  unfold val_main_v114
  have e : scatter_S128_S100000x1_S100000_n_0_0_1
      = flatScatterDims 128 100000 scatter_S128_S100000x1_S100000_n_0_0_1_wf := rfl
  rw [e, scatterAdd_flat_apply, val_main_v112_apply, val_main_cst_24_apply, Ideal.ofBits_def, Ideal.ofBits_zero_f32,
    zero_add, Finset.sum_filter]
  unfold Spec.poolCntAt
  refine Finset.sum_congr rfl fun n _ => ?_
  rw [val_main_v113_apply, val_main_v111_apply, val_main_cst_23_apply, Ideal.ofBits_def, Ideal.ofBits_one_f32]
  have en : idx_main_v113 (ix2 n (0 : Fin 1)) = ix1 n := funext fun a => Fin.ext (by match a with | ⟨0, _⟩ => rfl)
  rw [en]

/-! ## The last linear layer on the pooled mean -/

/-- The reference's linear stage at graph g and output o: the pooled mean through the weights, plus the bias. -/
theorem fc_apply (g o : Fin 128) :
    val_main_v123 (F := Ideal) x0 x1 x2 x3 x4 x5 x6 x7 x8 x9 x10 x11 x12 x13 x14 x15 x16 (ix2 g o)
      = Spec.fcAt (val_main_v107 (F := Ideal) x0 x1 x3 x4 x5 x6 x7 x8 x9 x10 x11 x12 x13 x14) x2 x15 (Spec.rowOf x16) g o := by
  have el : ∀ k : Fin 64, lidx_main_v120 (ix2 g o) k = ix2 g k := fun k =>
    funext fun a => Fin.ext (by match a with | ⟨0, _⟩ => rfl | ⟨1, _⟩ => rfl)
  have er : ∀ k : Fin 64, ridx_main_v120 (ix2 g o) k = ix2 k o := fun k =>
    funext fun a => Fin.ext (by match a with | ⟨0, _⟩ => rfl | ⟨1, _⟩ => rfl)
  have eb : idx_main_v121 (idx_main_v122 (ix2 g o)) = ix1 o :=
    funext fun a => Fin.ext (by match a with | ⟨0, _⟩ => rfl)
  have ec : ∀ k : Fin 64, idx_main_v117 (idx_main_v118 (ix2 g k)) = ix1 g := fun k =>
    funext fun a => Fin.ext (by match a with | ⟨0, _⟩ => rfl)
  rw [val_main_v123_apply, val_main_v120_apply, val_main_v122_apply, val_main_v121_apply, eb, Ideal.addf_def]
  unfold Spec.fcAt
  refine congrArg₂ (· + ·) (Finset.sum_congr rfl fun k _ => ?_) rfl
  rw [el k, er k, val_main_v119_apply, val_main_v118_apply, val_main_v117_apply, ec k, val_main_v116_apply,
    pcnt_apply, val_main_v115_apply, val_main_cst_25_apply, Ideal.hostDivf_def, Ideal.maximumf_def, Ideal.ofBits_def]
  unfold val_main_v110
  rw [psum_apply]

/-! ## The normalised result -/

/-- The reference's result is the specification's head of its last layer's output. -/
theorem head :
    val_main_v128 (F := Ideal) x0 x1 x2 x3 x4 x5 x6 x7 x8 x9 x10 x11 x12 x13 x14 x15 x16
      = Spec.head (val_main_v107 (F := Ideal) x0 x1 x3 x4 x5 x6 x7 x8 x9 x10 x11 x12 x13 x14) x2 x15 (Spec.rowOf x16) := by
  funext i
  obtain ⟨g, o, rfl⟩ : ∃ (g : Fin 128) (o : Fin 128), i = ix2 g o := ⟨i 0, i 1, eq_ix2 i⟩
  have e7 : idx_main_v127 (ix2 g o) = ix2 g (0 : Fin 1) :=
    funext fun a => Fin.ext (by match a with | ⟨0, _⟩ => rfl | ⟨1, _⟩ => rfl)
  have e2 : idx_main_call4_v2 (ix2 g (0 : Fin 1)) = ix1 g :=
    funext fun a => Fin.ext (by match a with | ⟨0, _⟩ => rfl)
  have e1 : ∀ k : Fin 128, idx_main_call4_v1 (ix1 g) k = ix2 g k := fun k =>
    funext fun a => Fin.ext (by match a with | ⟨0, _⟩ => rfl | ⟨1, _⟩ => rfl)
  -- the squared norm of graph g's row
  have hs : (∑ k : Fin 128, val_main_call4_v0 (F := Ideal) x0 x1 x2 x3 x4 x5 x6 x7 x8 x9 x10 x11 x12 x13 x14 x15 x16 (idx_main_call4_v1 (ix1 g) k))
      = ∑ o' : Fin 128, Spec.fcAt (val_main_v107 (F := Ideal) x0 x1 x3 x4 x5 x6 x7 x8 x9 x10 x11 x12 x13 x14) x2 x15 (Spec.rowOf x16) g o'
          * Spec.fcAt (val_main_v107 (F := Ideal) x0 x1 x3 x4 x5 x6 x7 x8 x9 x10 x11 x12 x13 x14) x2 x15 (Spec.rowOf x16) g o' :=
    Finset.sum_congr rfl fun k _ => by rw [e1 k, val_main_call4_v0_apply, fc_apply, Ideal.mulf_def]
  rw [Spec.head_apply, val_main_v128_apply, val_main_v127_apply, e7, val_main_v126_apply, val_main_v124_apply,
    val_main_call4_v2_apply, e2, val_main_call4_v1_apply, hs, val_main_v125_apply, val_main_cst_26_apply,
    val_main_call4_cst_apply, fc_apply, Ideal.hostDivf_def, Ideal.maximumf_def, Ideal.hostUnary_sqrt_def,
    Ideal.ofBits_def, Ideal.ofBits_def, Ideal.ofBits_zero_f32, zero_add]
  unfold Spec.headAt
  rfl

end Cert.ReferenceIdeal.Head

end
-- ==== Proof.Bridge.lean ====
/-
  The kernel program and the reference compute one function.

  Both are the specification's four SAGE layers and its pooling tail. The kernel program's value is that composite on
  the neighbour sums its host stretches form (the rows gathered at the edges' sources, added at their destinations into
  zeros), on the neighbour counts as a column, on each bias as a row, and on the graph ids flattened back from a column;
  the reference's layers are the same composite on its own stages. The two programs apply the same host operations to the
  same operands — each carries its own copy of every shape, dimension record and constant — so the arguments agree piece
  by piece: the edge list's two rows, the index columns made of them, the zero and one tables, the gathers and scatter-adds.
  A vector reshaped to a column or to a row is the specification's column or row form.
-/
import proofs.«406495_j16578573763454_3_alg».proof.Proof.KernelIdealLayers
import proofs.«406495_j16578573763454_3_alg».proof.Proof.Layouts
import proofs.«406495_j16578573763454_3_alg».proof.Proof.RefLayers
import proofs.«406495_j16578573763454_3_alg».proof.Proof.RefHead

noncomputable section

namespace Cert.Bridge

open Idealize.ShloMosaic
open Cert.KernelIdeal.HostSide Cert.KernelIdeal.Layers Cert.ReferenceIdeal.Read

/-! ## The edge list's two rows, and the two index columns made of them -/

/-- The sources: row 0 of the edge list, flattened. -/
theorem src_eq (x1 : (⟨Cert.ReferenceIdeal.S2x3200000, .i32⟩ : BufTy).Contents (Elt Ideal)) : edgeSrc x1 = val_main_v1 (F := Ideal) x1 := rfl

/-- The destinations: row 1 of the edge list, flattened. -/
theorem dst_eq (x1 : (⟨Cert.ReferenceIdeal.S2x3200000, .i32⟩ : BufTy).Contents (Elt Ideal)) : edgeDst x1 = val_main_v3 (F := Ideal) x1 := rfl

/-- The gather's start indices (a negative source wrapped by the table's height, then made a column), as each of the four
    layers of the reference forms them anew. -/
theorem srcCol_eq9 (x1 : (⟨Cert.ReferenceIdeal.S2x3200000, .i32⟩ : BufTy).Contents (Elt Ideal)) : srcCol (val_main_v1 (F := Ideal) x1) = val_main_v9 (F := Ideal) x1 := rfl
theorem srcCol_eq35 (x1 : (⟨Cert.ReferenceIdeal.S2x3200000, .i32⟩ : BufTy).Contents (Elt Ideal)) : srcCol (val_main_v1 (F := Ideal) x1) = val_main_v35 (F := Ideal) x1 := rfl
theorem srcCol_eq61 (x1 : (⟨Cert.ReferenceIdeal.S2x3200000, .i32⟩ : BufTy).Contents (Elt Ideal)) : srcCol (val_main_v1 (F := Ideal) x1) = val_main_v61 (F := Ideal) x1 := rfl
theorem srcCol_eq87 (x1 : (⟨Cert.ReferenceIdeal.S2x3200000, .i32⟩ : BufTy).Contents (Elt Ideal)) : srcCol (val_main_v1 (F := Ideal) x1) = val_main_v87 (F := Ideal) x1 := rfl

/-- The scatters' index column (the destinations as a column): two per layer in the reference, one for the neighbour
    sums and one for the neighbour counts. -/
theorem dstCol_eq12 (x1 : (⟨Cert.ReferenceIdeal.S2x3200000, .i32⟩ : BufTy).Contents (Elt Ideal)) : dstCol (val_main_v3 (F := Ideal) x1) = val_main_v12 (F := Ideal) x1 := rfl
theorem dstCol_eq16 (x1 : (⟨Cert.ReferenceIdeal.S2x3200000, .i32⟩ : BufTy).Contents (Elt Ideal)) : dstCol (val_main_v3 (F := Ideal) x1) = val_main_v16 (F := Ideal) x1 := rfl
theorem dstCol_eq38 (x1 : (⟨Cert.ReferenceIdeal.S2x3200000, .i32⟩ : BufTy).Contents (Elt Ideal)) : dstCol (val_main_v3 (F := Ideal) x1) = val_main_v38 (F := Ideal) x1 := rfl
theorem dstCol_eq42 (x1 : (⟨Cert.ReferenceIdeal.S2x3200000, .i32⟩ : BufTy).Contents (Elt Ideal)) : dstCol (val_main_v3 (F := Ideal) x1) = val_main_v42 (F := Ideal) x1 := rfl
theorem dstCol_eq64 (x1 : (⟨Cert.ReferenceIdeal.S2x3200000, .i32⟩ : BufTy).Contents (Elt Ideal)) : dstCol (val_main_v3 (F := Ideal) x1) = val_main_v64 (F := Ideal) x1 := rfl
theorem dstCol_eq68 (x1 : (⟨Cert.ReferenceIdeal.S2x3200000, .i32⟩ : BufTy).Contents (Elt Ideal)) : dstCol (val_main_v3 (F := Ideal) x1) = val_main_v68 (F := Ideal) x1 := rfl
theorem dstCol_eq90 (x1 : (⟨Cert.ReferenceIdeal.S2x3200000, .i32⟩ : BufTy).Contents (Elt Ideal)) : dstCol (val_main_v3 (F := Ideal) x1) = val_main_v90 (F := Ideal) x1 := rfl
theorem dstCol_eq94 (x1 : (⟨Cert.ReferenceIdeal.S2x3200000, .i32⟩ : BufTy).Contents (Elt Ideal)) : dstCol (val_main_v3 (F := Ideal) x1) = val_main_v94 (F := Ideal) x1 := rfl

/-! ## The dimension numbers: each program carries its own copy of one record -/

theorem scatter3_rec : Cert.KernelIdeal.scatter_S100000x3_S3200000x1_S3200000x3_1_0_0_1
    = Cert.ReferenceIdeal.scatter_S100000x3_S3200000x1_S3200000x3_1_0_0_1 := rfl
theorem gather3_rec : Cert.KernelIdeal.gather_S100000x3_S3200000x1_S3200000x3_1_0_n_n_0_1_13
    = Cert.ReferenceIdeal.gather_S100000x3_S3200000x1_S3200000x3_1_0_n_n_0_1_13 := rfl
theorem scatter64_rec : Cert.KernelIdeal.scatter_S100000x64_S3200000x1_S3200000x64_1_0_0_1
    = Cert.ReferenceIdeal.scatter_S100000x64_S3200000x1_S3200000x64_1_0_0_1 := rfl
theorem gather64_rec : Cert.KernelIdeal.gather_S100000x64_S3200000x1_S3200000x64_1_0_n_n_0_1_164
    = Cert.ReferenceIdeal.gather_S100000x64_S3200000x1_S3200000x64_1_0_n_n_0_1_164 := rfl
theorem scatter1_rec : Cert.KernelIdeal.scatter_S100000_S3200000x1_S3200000_n_0_0_1
    = Cert.ReferenceIdeal.scatter_S100000_S3200000x1_S3200000_n_0_0_1 := rfl

/-! ## The zero tables the scatters add into, and the ones the counts add -/

theorem zeros3_eq : broadcastInDim Cert.KernelIdeal.S100000x3 ![] Cert.KernelIdeal.Gen.bcast_S_S100000x3
    (constant (F := Ideal) Cert.KernelIdeal.S_ .f32 0x00000000#32) = val_main_v11 (F := Ideal) := rfl
theorem zeros64_eq37 : broadcastInDim Cert.KernelIdeal.S100000x64 ![] Cert.KernelIdeal.Gen.bcast_S_S100000x64
    (constant (F := Ideal) Cert.KernelIdeal.S_ .f32 0x00000000#32) = val_main_v37 (F := Ideal) := rfl
theorem zeros64_eq63 : broadcastInDim Cert.KernelIdeal.S100000x64 ![] Cert.KernelIdeal.Gen.bcast_S_S100000x64
    (constant (F := Ideal) Cert.KernelIdeal.S_ .f32 0x00000000#32) = val_main_v63 (F := Ideal) := rfl
theorem zeros64_eq89 : broadcastInDim Cert.KernelIdeal.S100000x64 ![] Cert.KernelIdeal.Gen.bcast_S_S100000x64
    (constant (F := Ideal) Cert.KernelIdeal.S_ .f32 0x00000000#32) = val_main_v89 (F := Ideal) := rfl
theorem zeros1_eq15 : broadcastInDim Cert.KernelIdeal.S100000 ![] Cert.KernelIdeal.Gen.bcast_S_S100000
    (constant (F := Ideal) Cert.KernelIdeal.S_ .f32 0x00000000#32) = val_main_v15 (F := Ideal) := rfl
theorem zeros1_eq41 : broadcastInDim Cert.KernelIdeal.S100000 ![] Cert.KernelIdeal.Gen.bcast_S_S100000
    (constant (F := Ideal) Cert.KernelIdeal.S_ .f32 0x00000000#32) = val_main_v41 (F := Ideal) := rfl
theorem zeros1_eq67 : broadcastInDim Cert.KernelIdeal.S100000 ![] Cert.KernelIdeal.Gen.bcast_S_S100000
    (constant (F := Ideal) Cert.KernelIdeal.S_ .f32 0x00000000#32) = val_main_v67 (F := Ideal) := rfl
theorem zeros1_eq93 : broadcastInDim Cert.KernelIdeal.S100000 ![] Cert.KernelIdeal.Gen.bcast_S_S100000
    (constant (F := Ideal) Cert.KernelIdeal.S_ .f32 0x00000000#32) = val_main_v93 (F := Ideal) := rfl
theorem ones_eq14 : broadcastInDim Cert.KernelIdeal.S3200000 ![] Cert.KernelIdeal.Gen.bcast_S_S3200000
    (constant (F := Ideal) Cert.KernelIdeal.S_ .f32 0x3F800000#32) = val_main_v14 (F := Ideal) := rfl
theorem ones_eq40 : broadcastInDim Cert.KernelIdeal.S3200000 ![] Cert.KernelIdeal.Gen.bcast_S_S3200000
    (constant (F := Ideal) Cert.KernelIdeal.S_ .f32 0x3F800000#32) = val_main_v40 (F := Ideal) := rfl
theorem ones_eq66 : broadcastInDim Cert.KernelIdeal.S3200000 ![] Cert.KernelIdeal.Gen.bcast_S_S3200000
    (constant (F := Ideal) Cert.KernelIdeal.S_ .f32 0x3F800000#32) = val_main_v66 (F := Ideal) := rfl
theorem ones_eq92 : broadcastInDim Cert.KernelIdeal.S3200000 ![] Cert.KernelIdeal.Gen.bcast_S_S3200000
    (constant (F := Ideal) Cert.KernelIdeal.S_ .f32 0x3F800000#32) = val_main_v92 (F := Ideal) := rfl

/-! ## The neighbour sums -/

/-- The first layer's: the rows of the node features gathered at the sources, added at the destinations. -/
theorem agg3_eq (x0 : (⟨Cert.ReferenceIdeal.S100000x3, .f32⟩ : BufTy).Contents (Elt Ideal)) (x1 : (⟨Cert.ReferenceIdeal.S2x3200000, .i32⟩ : BufTy).Contents (Elt Ideal)) :
    aggRows3 x0 (edgeSrc x1) (edgeDst x1) = val_main_v13 (F := Ideal) x0 x1 := by
  unfold aggRows3 val_main_v13 val_main_v10
  rw [src_eq, dst_eq, srcCol_eq9, dstCol_eq12, zeros3_eq, scatter3_rec, gather3_rec]

/-- A later layer's, of any table h of 64 columns, over the second layer's copies of the index columns and zeros. -/
theorem agg64_of (h : (⟨Cert.ReferenceIdeal.S100000x64, .f32⟩ : BufTy).Contents (Elt Ideal)) (x1 : (⟨Cert.ReferenceIdeal.S2x3200000, .i32⟩ : BufTy).Contents (Elt Ideal)) :
    aggRows64 h (edgeSrc x1) (edgeDst x1)
      = Host.scatterAdd (F := Ideal) (φ := .f32) Cert.ReferenceIdeal.scatter_S100000x64_S3200000x1_S3200000x64_1_0_0_1 (val_main_v37 (F := Ideal))
          (val_main_v38 (F := Ideal) x1)
          (Host.gather Cert.ReferenceIdeal.gather_S100000x64_S3200000x1_S3200000x64_1_0_n_n_0_1_164 h (val_main_v35 (F := Ideal) x1)) := by
  unfold aggRows64
  rw [src_eq, dst_eq, srcCol_eq35, dstCol_eq38, zeros64_eq37, scatter64_rec, gather64_rec]

/-- The third and fourth layers' copies of the index columns and zeros are the second's. -/
theorem cols_eq61 (x1 : (⟨Cert.ReferenceIdeal.S2x3200000, .i32⟩ : BufTy).Contents (Elt Ideal)) : val_main_v61 (F := Ideal) x1 = val_main_v35 (F := Ideal) x1 := rfl
theorem cols_eq87 (x1 : (⟨Cert.ReferenceIdeal.S2x3200000, .i32⟩ : BufTy).Contents (Elt Ideal)) : val_main_v87 (F := Ideal) x1 = val_main_v35 (F := Ideal) x1 := rfl
theorem cols_eq64 (x1 : (⟨Cert.ReferenceIdeal.S2x3200000, .i32⟩ : BufTy).Contents (Elt Ideal)) : val_main_v64 (F := Ideal) x1 = val_main_v38 (F := Ideal) x1 := rfl
theorem cols_eq90 (x1 : (⟨Cert.ReferenceIdeal.S2x3200000, .i32⟩ : BufTy).Contents (Elt Ideal)) : val_main_v90 (F := Ideal) x1 = val_main_v38 (F := Ideal) x1 := rfl
theorem zeros_eq63 : val_main_v63 (F := Ideal) = val_main_v37 (F := Ideal) := rfl
theorem zeros_eq89 : val_main_v89 (F := Ideal) = val_main_v37 (F := Ideal) := rfl

/-- The second layer's neighbour sums, of the first layer's output. -/
theorem agg2_eq (x0 : (⟨Cert.ReferenceIdeal.S100000x3, .f32⟩ : BufTy).Contents (Elt Ideal)) (x1 : (⟨Cert.ReferenceIdeal.S2x3200000, .i32⟩ : BufTy).Contents (Elt Ideal)) (x3 : (⟨Cert.ReferenceIdeal.S3x64, .f32⟩ : BufTy).Contents (Elt Ideal)) (x4 : (⟨Cert.ReferenceIdeal.S64, .f32⟩ : BufTy).Contents (Elt Ideal)) (x5 : (⟨Cert.ReferenceIdeal.S3x64, .f32⟩ : BufTy).Contents (Elt Ideal)) :
    aggRows64 (val_main_v29 (F := Ideal) x0 x1 x3 x4 x5) (edgeSrc x1) (edgeDst x1) = val_main_v39 (F := Ideal) x0 x1 x3 x4 x5 := by
  unfold val_main_v39 val_main_v36
  exact agg64_of _ x1

/-- The third layer's, of the second layer's output. -/
theorem agg3L_eq (x0 : (⟨Cert.ReferenceIdeal.S100000x3, .f32⟩ : BufTy).Contents (Elt Ideal)) (x1 : (⟨Cert.ReferenceIdeal.S2x3200000, .i32⟩ : BufTy).Contents (Elt Ideal)) (x3 : (⟨Cert.ReferenceIdeal.S3x64, .f32⟩ : BufTy).Contents (Elt Ideal)) (x4 : (⟨Cert.ReferenceIdeal.S64, .f32⟩ : BufTy).Contents (Elt Ideal)) (x5 : (⟨Cert.ReferenceIdeal.S3x64, .f32⟩ : BufTy).Contents (Elt Ideal)) (x6 : (⟨Cert.ReferenceIdeal.S64x64, .f32⟩ : BufTy).Contents (Elt Ideal)) (x7 : (⟨Cert.ReferenceIdeal.S64, .f32⟩ : BufTy).Contents (Elt Ideal)) (x8 : (⟨Cert.ReferenceIdeal.S64x64, .f32⟩ : BufTy).Contents (Elt Ideal)) :
    aggRows64 (val_main_v55 (F := Ideal) x0 x1 x3 x4 x5 x6 x7 x8) (edgeSrc x1) (edgeDst x1) = val_main_v65 (F := Ideal) x0 x1 x3 x4 x5 x6 x7 x8 := by
  unfold val_main_v65 val_main_v62
  rw [cols_eq61, cols_eq64, zeros_eq63]
  exact agg64_of _ x1

/-- The fourth layer's, of the third layer's output. -/
theorem agg4_eq (x0 : (⟨Cert.ReferenceIdeal.S100000x3, .f32⟩ : BufTy).Contents (Elt Ideal)) (x1 : (⟨Cert.ReferenceIdeal.S2x3200000, .i32⟩ : BufTy).Contents (Elt Ideal)) (x3 : (⟨Cert.ReferenceIdeal.S3x64, .f32⟩ : BufTy).Contents (Elt Ideal)) (x4 : (⟨Cert.ReferenceIdeal.S64, .f32⟩ : BufTy).Contents (Elt Ideal)) (x5 : (⟨Cert.ReferenceIdeal.S3x64, .f32⟩ : BufTy).Contents (Elt Ideal)) (x6 : (⟨Cert.ReferenceIdeal.S64x64, .f32⟩ : BufTy).Contents (Elt Ideal)) (x7 : (⟨Cert.ReferenceIdeal.S64, .f32⟩ : BufTy).Contents (Elt Ideal)) (x8 : (⟨Cert.ReferenceIdeal.S64x64, .f32⟩ : BufTy).Contents (Elt Ideal)) (x9 : (⟨Cert.ReferenceIdeal.S64x64, .f32⟩ : BufTy).Contents (Elt Ideal)) (x10 : (⟨Cert.ReferenceIdeal.S64, .f32⟩ : BufTy).Contents (Elt Ideal)) (x11 : (⟨Cert.ReferenceIdeal.S64x64, .f32⟩ : BufTy).Contents (Elt Ideal)) :
    aggRows64 (val_main_v81 (F := Ideal) x0 x1 x3 x4 x5 x6 x7 x8 x9 x10 x11) (edgeSrc x1) (edgeDst x1) = val_main_v91 (F := Ideal) x0 x1 x3 x4 x5 x6 x7 x8 x9 x10 x11 := by
  unfold val_main_v91 val_main_v88
  rw [cols_eq87, cols_eq90, zeros_eq89]
  exact agg64_of _ x1

/-! ## The neighbour counts: one scatter-add of ones at the destinations, formed anew by each layer of the reference -/

theorem cnt_eq17 (x1 : (⟨Cert.ReferenceIdeal.S2x3200000, .i32⟩ : BufTy).Contents (Elt Ideal)) : edgeCount (F := Ideal) (edgeDst x1) = val_main_v17 (F := Ideal) x1 := by
  unfold edgeCount val_main_v17
  rw [dst_eq, dstCol_eq16, zeros1_eq15, ones_eq14, scatter1_rec]
theorem cnt_eq43 (x1 : (⟨Cert.ReferenceIdeal.S2x3200000, .i32⟩ : BufTy).Contents (Elt Ideal)) : edgeCount (F := Ideal) (edgeDst x1) = val_main_v43 (F := Ideal) x1 := by
  unfold edgeCount val_main_v43
  rw [dst_eq, dstCol_eq42, zeros1_eq41, ones_eq40, scatter1_rec]
theorem cnt_eq69 (x1 : (⟨Cert.ReferenceIdeal.S2x3200000, .i32⟩ : BufTy).Contents (Elt Ideal)) : edgeCount (F := Ideal) (edgeDst x1) = val_main_v69 (F := Ideal) x1 := by
  unfold edgeCount val_main_v69
  rw [dst_eq, dstCol_eq68, zeros1_eq67, ones_eq66, scatter1_rec]
theorem cnt_eq95 (x1 : (⟨Cert.ReferenceIdeal.S2x3200000, .i32⟩ : BufTy).Contents (Elt Ideal)) : edgeCount (F := Ideal) (edgeDst x1) = val_main_v95 (F := Ideal) x1 := by
  unfold edgeCount val_main_v95
  rw [dst_eq, dstCol_eq94, zeros1_eq93, ones_eq92, scatter1_rec]

/-- The counts as a column are the column form of each layer's count vector. -/
theorem cntCol_eq17 (x1 : (⟨Cert.ReferenceIdeal.S2x3200000, .i32⟩ : BufTy).Contents (Elt Ideal)) : cntCol x1 = Spec.colOf (val_main_v17 (F := Ideal) x1) := by
  unfold cntCol
  rw [cnt_eq17]
  exact Cert.Layouts.shapeCast_col _ _
theorem cntCol_eq43 (x1 : (⟨Cert.ReferenceIdeal.S2x3200000, .i32⟩ : BufTy).Contents (Elt Ideal)) : cntCol x1 = Spec.colOf (val_main_v43 (F := Ideal) x1) := by
  unfold cntCol
  rw [cnt_eq43]
  exact Cert.Layouts.shapeCast_col _ _
theorem cntCol_eq69 (x1 : (⟨Cert.ReferenceIdeal.S2x3200000, .i32⟩ : BufTy).Contents (Elt Ideal)) : cntCol x1 = Spec.colOf (val_main_v69 (F := Ideal) x1) := by
  unfold cntCol
  rw [cnt_eq69]
  exact Cert.Layouts.shapeCast_col _ _
theorem cntCol_eq95 (x1 : (⟨Cert.ReferenceIdeal.S2x3200000, .i32⟩ : BufTy).Contents (Elt Ideal)) : cntCol x1 = Spec.colOf (val_main_v95 (F := Ideal) x1) := by
  unfold cntCol
  rw [cnt_eq95]
  exact Cert.Layouts.shapeCast_col _ _

/-! ## The four layers -/

/-- One layer of the specification on equal arguments: the neighbour sums, the counts' column and the bias row each
    rewritten to the reference's. -/
theorem sage_congr {D : ℕ} {agg agg' : FVec Ideal ⟨2, ![100000, D]⟩ .f32} {cnt cnt' : FVec Ideal ⟨2, ![100000, 1]⟩ .f32}
    {bl bl' : FVec Ideal ⟨2, ![1, 64]⟩ .f32} (x : FVec Ideal ⟨2, ![100000, D]⟩ .f32) (Wl Wr : FVec Ideal ⟨2, ![D, 64]⟩ .f32)
    (ha : agg = agg') (hc : cnt = cnt') (hb : bl = bl') :
    Spec.sage agg cnt x Wl bl Wr = Spec.sage agg' cnt' x Wl bl' Wr := by
  rw [ha, hc, hb]

theorem kh1_eq (x0 : (⟨Cert.ReferenceIdeal.S100000x3, .f32⟩ : BufTy).Contents (Elt Ideal)) (x1 : (⟨Cert.ReferenceIdeal.S2x3200000, .i32⟩ : BufTy).Contents (Elt Ideal)) (x3 : (⟨Cert.ReferenceIdeal.S3x64, .f32⟩ : BufTy).Contents (Elt Ideal)) (x4 : (⟨Cert.ReferenceIdeal.S64, .f32⟩ : BufTy).Contents (Elt Ideal)) (x5 : (⟨Cert.ReferenceIdeal.S3x64, .f32⟩ : BufTy).Contents (Elt Ideal)) : kh1 x0 x1 x3 x4 x5 = val_main_v29 (F := Ideal) x0 x1 x3 x4 x5 := by
  rw [Cert.ReferenceIdeal.Layers.layer1]
  exact sage_congr x0 x3 x5 (agg3_eq x0 x1) (cntCol_eq17 x1) (Cert.Layouts.shapeCast_row x4 _)

theorem kh2_eq (x0 : (⟨Cert.ReferenceIdeal.S100000x3, .f32⟩ : BufTy).Contents (Elt Ideal)) (x1 : (⟨Cert.ReferenceIdeal.S2x3200000, .i32⟩ : BufTy).Contents (Elt Ideal)) (x3 : (⟨Cert.ReferenceIdeal.S3x64, .f32⟩ : BufTy).Contents (Elt Ideal)) (x4 : (⟨Cert.ReferenceIdeal.S64, .f32⟩ : BufTy).Contents (Elt Ideal)) (x5 : (⟨Cert.ReferenceIdeal.S3x64, .f32⟩ : BufTy).Contents (Elt Ideal)) (x6 : (⟨Cert.ReferenceIdeal.S64x64, .f32⟩ : BufTy).Contents (Elt Ideal)) (x7 : (⟨Cert.ReferenceIdeal.S64, .f32⟩ : BufTy).Contents (Elt Ideal)) (x8 : (⟨Cert.ReferenceIdeal.S64x64, .f32⟩ : BufTy).Contents (Elt Ideal)) :
    khNext (val_main_v29 (F := Ideal) x0 x1 x3 x4 x5) x1 x6 x7 x8 = val_main_v55 (F := Ideal) x0 x1 x3 x4 x5 x6 x7 x8 := by
  rw [Cert.ReferenceIdeal.Layers.layer2]
  exact sage_congr _ x6 x8 (agg2_eq x0 x1 x3 x4 x5) (cntCol_eq43 x1) (Cert.Layouts.shapeCast_row x7 _)

theorem kh3_eq (x0 : (⟨Cert.ReferenceIdeal.S100000x3, .f32⟩ : BufTy).Contents (Elt Ideal)) (x1 : (⟨Cert.ReferenceIdeal.S2x3200000, .i32⟩ : BufTy).Contents (Elt Ideal)) (x3 : (⟨Cert.ReferenceIdeal.S3x64, .f32⟩ : BufTy).Contents (Elt Ideal)) (x4 : (⟨Cert.ReferenceIdeal.S64, .f32⟩ : BufTy).Contents (Elt Ideal)) (x5 : (⟨Cert.ReferenceIdeal.S3x64, .f32⟩ : BufTy).Contents (Elt Ideal)) (x6 : (⟨Cert.ReferenceIdeal.S64x64, .f32⟩ : BufTy).Contents (Elt Ideal)) (x7 : (⟨Cert.ReferenceIdeal.S64, .f32⟩ : BufTy).Contents (Elt Ideal)) (x8 : (⟨Cert.ReferenceIdeal.S64x64, .f32⟩ : BufTy).Contents (Elt Ideal)) (x9 : (⟨Cert.ReferenceIdeal.S64x64, .f32⟩ : BufTy).Contents (Elt Ideal)) (x10 : (⟨Cert.ReferenceIdeal.S64, .f32⟩ : BufTy).Contents (Elt Ideal)) (x11 : (⟨Cert.ReferenceIdeal.S64x64, .f32⟩ : BufTy).Contents (Elt Ideal)) :
    khNext (val_main_v55 (F := Ideal) x0 x1 x3 x4 x5 x6 x7 x8) x1 x9 x10 x11 = val_main_v81 (F := Ideal) x0 x1 x3 x4 x5 x6 x7 x8 x9 x10 x11 := by
  rw [Cert.ReferenceIdeal.Layers.layer3]
  exact sage_congr _ x9 x11 (agg3L_eq x0 x1 x3 x4 x5 x6 x7 x8) (cntCol_eq69 x1) (Cert.Layouts.shapeCast_row x10 _)

theorem kh4_eq (x0 : (⟨Cert.ReferenceIdeal.S100000x3, .f32⟩ : BufTy).Contents (Elt Ideal)) (x1 : (⟨Cert.ReferenceIdeal.S2x3200000, .i32⟩ : BufTy).Contents (Elt Ideal)) (x3 : (⟨Cert.ReferenceIdeal.S3x64, .f32⟩ : BufTy).Contents (Elt Ideal)) (x4 : (⟨Cert.ReferenceIdeal.S64, .f32⟩ : BufTy).Contents (Elt Ideal)) (x5 : (⟨Cert.ReferenceIdeal.S3x64, .f32⟩ : BufTy).Contents (Elt Ideal)) (x6 : (⟨Cert.ReferenceIdeal.S64x64, .f32⟩ : BufTy).Contents (Elt Ideal)) (x7 : (⟨Cert.ReferenceIdeal.S64, .f32⟩ : BufTy).Contents (Elt Ideal)) (x8 : (⟨Cert.ReferenceIdeal.S64x64, .f32⟩ : BufTy).Contents (Elt Ideal)) (x9 : (⟨Cert.ReferenceIdeal.S64x64, .f32⟩ : BufTy).Contents (Elt Ideal)) (x10 : (⟨Cert.ReferenceIdeal.S64, .f32⟩ : BufTy).Contents (Elt Ideal)) (x11 : (⟨Cert.ReferenceIdeal.S64x64, .f32⟩ : BufTy).Contents (Elt Ideal)) (x12 : (⟨Cert.ReferenceIdeal.S64x64, .f32⟩ : BufTy).Contents (Elt Ideal)) (x13 : (⟨Cert.ReferenceIdeal.S64, .f32⟩ : BufTy).Contents (Elt Ideal)) (x14 : (⟨Cert.ReferenceIdeal.S64x64, .f32⟩ : BufTy).Contents (Elt Ideal)) :
    khNext (val_main_v81 (F := Ideal) x0 x1 x3 x4 x5 x6 x7 x8 x9 x10 x11) x1 x12 x13 x14 = val_main_v107 (F := Ideal) x0 x1 x3 x4 x5 x6 x7 x8 x9 x10 x11 x12 x13 x14 := by
  rw [Cert.ReferenceIdeal.Layers.layer4]
  exact sage_congr _ x12 x14 (agg4_eq x0 x1 x3 x4 x5 x6 x7 x8 x9 x10 x11) (cntCol_eq95 x1) (Cert.Layouts.shapeCast_row x13 _)

/-! ## The whole program -/

/-- The kernel program's value is the reference's. -/
theorem kout_eq_ref (x0 : (⟨Cert.ReferenceIdeal.S100000x3, .f32⟩ : BufTy).Contents (Elt Ideal)) (x1 : (⟨Cert.ReferenceIdeal.S2x3200000, .i32⟩ : BufTy).Contents (Elt Ideal)) (x2 : (⟨Cert.ReferenceIdeal.S100000, .i32⟩ : BufTy).Contents (Elt Ideal)) (x3 : (⟨Cert.ReferenceIdeal.S3x64, .f32⟩ : BufTy).Contents (Elt Ideal)) (x4 : (⟨Cert.ReferenceIdeal.S64, .f32⟩ : BufTy).Contents (Elt Ideal)) (x5 : (⟨Cert.ReferenceIdeal.S3x64, .f32⟩ : BufTy).Contents (Elt Ideal)) (x6 : (⟨Cert.ReferenceIdeal.S64x64, .f32⟩ : BufTy).Contents (Elt Ideal)) (x7 : (⟨Cert.ReferenceIdeal.S64, .f32⟩ : BufTy).Contents (Elt Ideal)) (x8 : (⟨Cert.ReferenceIdeal.S64x64, .f32⟩ : BufTy).Contents (Elt Ideal)) (x9 : (⟨Cert.ReferenceIdeal.S64x64, .f32⟩ : BufTy).Contents (Elt Ideal)) (x10 : (⟨Cert.ReferenceIdeal.S64, .f32⟩ : BufTy).Contents (Elt Ideal)) (x11 : (⟨Cert.ReferenceIdeal.S64x64, .f32⟩ : BufTy).Contents (Elt Ideal)) (x12 : (⟨Cert.ReferenceIdeal.S64x64, .f32⟩ : BufTy).Contents (Elt Ideal)) (x13 : (⟨Cert.ReferenceIdeal.S64, .f32⟩ : BufTy).Contents (Elt Ideal)) (x14 : (⟨Cert.ReferenceIdeal.S64x64, .f32⟩ : BufTy).Contents (Elt Ideal)) (x15 : (⟨Cert.ReferenceIdeal.S64x128, .f32⟩ : BufTy).Contents (Elt Ideal)) (x16 : (⟨Cert.ReferenceIdeal.S128, .f32⟩ : BufTy).Contents (Elt Ideal)) :
    kout x0 x1 x2 x3 x4 x5 x6 x7 x8 x9 x10 x11 x12 x13 x14 x15 x16
      = val_main_v128 (F := Ideal) x0 x1 x2 x3 x4 x5 x6 x7 x8 x9 x10 x11 x12 x13 x14 x15 x16 := by
  unfold kout
  rw [kh1_eq, kh2_eq, kh3_eq, kh4_eq, Cert.ReferenceIdeal.Head.head]
  unfold kTail
  rw [Cert.Layouts.flatCol_shapeCast, Cert.Layouts.shapeCast_row]

end Cert.Bridge

end
-- ==== Proof.lean ====
/-
  The certificate's claim: the kernel program, its idealization and the reference each run to the end from any memory
  with finite inputs, faulting nowhere and leaving their argument arrays as launched; the idealization changes nothing
  that needs a statement; and over the extended reals the idealized kernel program and the reference, run from
  memories that agree on the arguments, end with the same [128, 128] array.

  Both compute four SAGE layers — relu (mean of the neighbours · Wl + x · Wr + b), the mean being the scatter-add of
  the gathered neighbour rows divided by max (neighbour count) 1 — and then, per graph, the mean of the last layer's
  rows through a linear layer, each graph's row divided by max (its Euclidean norm) ε. The kernel program forms the
  neighbour sums and counts by the same host operations as the reference and does the rest in five pipelined regions:
  four that tile the nodes by 4000 and apply a layer's linear stage, and one that accumulates the per-graph sums and
  counts over the 25 tiles as a one-hot matrix product and finishes at the last tile. Tiling a layer changes nothing;
  the two layers' sums differ only in the order of three addends; a one-hot product over the tiles is the sum over the
  nodes of each graph, a node whose id names no graph counting nowhere on either side. No law used needs finiteness.
-/
import proofs.«406495_j16578573763454_3_alg».proof.Defs
import proofs.«406495_j16578573763454_3_alg».proof.Proof.Gen.Kernel
import proofs.«406495_j16578573763454_3_alg».proof.Proof.Gen.KernelIdeal
import proofs.«406495_j16578573763454_3_alg».proof.Proof.Gen.ReferenceIdeal
import proofs.«406495_j16578573763454_3_alg».proof.Proof.Gen.Pre_finite_inputs
import proofs.«406495_j16578573763454_3_alg».proof.Proof.Gen.ReferenceIdeal.Run
import proofs.«406495_j16578573763454_3_alg».proof.Proof.KernelRun
import proofs.«406495_j16578573763454_3_alg».proof.Proof.KernelIdealResult
import proofs.«406495_j16578573763454_3_alg».proof.Proof.Bridge
import Idealize.ShloMosaic.Adequacy
import Idealize.ShloMosaic.Init

noncomputable section

namespace Cert.Proof

open Idealize.ShloMosaic Idealize.SL.Sem

/-- The word-level kernel program runs and keeps its arguments: its ten segments' run. -/
theorem frame_kernel : Cert.frame_Kernel := fun m ρ _ => Cert.Kernel.Run.frame m ρ

/-- So does its idealization: the same run, read at the extended reals. -/
theorem frame_kernelIdeal : Cert.frame_KernelIdeal := fun m ρ _ => Cert.KernelIdeal.Run.frame m ρ

/-- The reference is host operations only: its run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The reference's result term at memory m' is the kernel program's composed layers at memory m, when the two memories
    agree on the arguments: the reference's last stage is the composition (layer by layer), and the composition reads
    only the arguments. -/
theorem reference_result
    (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (c : Dev Cert.KernelIdeal.nD)
    (hagree :
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)) :
    Cert.ReferenceIdeal.Value.res_main_v128 m' c = Cert.KernelIdeal.Result.out m c := by
  obtain ⟨a0, a1, a2, a3, a4, a5, a6, a7, a8, a9, a10, a11, a12, a13, a14, a15, a16⟩ := hagree
  rw [Cert.ReferenceIdeal.Read.val_main_v128_eq, a0, a1, a2, a3, a4, a5, a6, a7, a8, a9, a10, a11, a12, a13, a14, a15, a16, Cert.KernelIdeal.Result.out_eq]
  exact (Cert.Bridge.kout_eq_ref _ _ _ _ _ _ _ _ _ _ _ _ _ _ _ _ _).symm

/-- Over the extended reals the two programs end with the same array: the kernel program's run leaves the composed
    layers in its result array, and the reference's run leaves its last stage, which is that composition. -/
theorem algebraic : Cert.algebraic_KernelIdeal_ReferenceIdeal := by
  intro m ρ m' ρ' _ hagree
  refine ⟨fun c => Cert.KernelIdeal.Result.out m c, ?_, ?_⟩
  · exact (θ_run Cert.KernelIdeal.defs _ _).mono
      (fun r h c => ⟨(h c _ (Cert.KernelIdeal.Run.mem_uc Cert.KernelIdeal.main_v59 (by decide))).trans (Cert.KernelIdeal.Result.result_eq m c),
        Cert.KernelIdeal.Run.args_kept m h c⟩)
      (Cert.KernelIdeal.Run.run_all m ρ)
  · exact (θ_run Cert.ReferenceIdeal.defs _ _).mono
      (fun _ h c => ⟨(h c).1.trans (reference_result m m' c (hagree c)), (h c).2⟩)
      (Cert.ReferenceIdeal.Value.run (F := Ideal) m' ρ')

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
